-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S262144x2 : Shape := ⟨2, ![262144, 2]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S512x1 .f32) (main_arg6 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg5
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x256 .f32) (main_arg1 : FVec F S8192 .f32) (main_arg2 : IVec S262144x2 32) (main_arg3 : FVec F S512 .f32) (main_arg4 : FVec F S512 .f32) (main_arg5 : FVec F S512x1 .f32) (main_arg6 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S8192x256 : Shape := ⟨2, ![8192, 256]⟩
abbrev S8192 : Shape := ⟨1, ![8192]⟩
abbrev S262144x2 : Shape := ⟨2, ![262144, 2]⟩
abbrev S512 : Shape := ⟨1, ![512]⟩
abbrev S512x1 : Shape := ⟨2, ![512, 1]⟩
abbrev S1 : Shape := ⟨1, ![1]⟩
abbrev S262144x1 : Shape := ⟨2, ![262144, 1]⟩
abbrev S262144 : Shape := ⟨1, ![262144]⟩
abbrev S_ : Shape := ⟨0, ![]⟩
abbrev S262144x256 : Shape := ⟨2, ![262144, 256]⟩
abbrev S1x512 : Shape := ⟨2, ![1, 512]⟩
abbrev S1x1 : Shape := ⟨2, ![1, 1]⟩
abbrev S1024x256 : Shape := ⟨2, ![1024, 256]⟩
abbrev S1024 : Shape := ⟨1, ![1024]⟩
abbrev S1024x512 : Shape := ⟨2, ![1024, 512]⟩
abbrev S1024x1 : Shape := ⟨2, ![1024, 1]⟩
abbrev S8192x8192 : Shape := ⟨2, ![8192, 8192]⟩
abbrev S2048x2048 : Shape := ⟨2, ![2048, 2048]⟩
abbrev S2048x256 : Shape := ⟨2, ![2048, 256]⟩

abbrev nBuf : Space → Nat
  | .hbm => 83
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S262144x2, .i32⟩
  | .hbm, ⟨3, _⟩ => ⟨S512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S262144x1, .i32⟩
  | .hbm, ⟨8, _⟩ => ⟨S262144, .i32⟩
  | .hbm, ⟨9, _⟩ => ⟨S262144x1, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144, .f32⟩
  | .hbm, ⟨29, _⟩ => ⟨S262144, .f32⟩
  | .hbm, ⟨30, _⟩ => ⟨S_, .f32⟩
  | .hbm, ⟨31, _⟩ => ⟨S262144, .f32⟩
  | .hbm, ⟨32, _⟩ => ⟨S262144, .i1⟩
  | .hbm, ⟨33, _⟩ => ⟨S_, .f32⟩
  | .hbm, ⟨34, _⟩ => ⟨S_, .f32⟩
  | .hbm, ⟨35, _⟩ => ⟨S262144, .f32⟩
  | .hbm, ⟨36, _⟩ => ⟨S262144, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x256, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x256, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x1, .f32⟩
  | .hbm, ⟨59, _⟩ => ⟨S262144, .f32⟩
  | .hbm, ⟨60, _⟩ => ⟨S8192x256, .bf16⟩
  | .hbm, ⟨61, _⟩ => ⟨S_, .bf16⟩
  | .hbm, ⟨62, _⟩ => ⟨S8192x8192, .bf16⟩
  | .hbm, ⟨63, _⟩ => ⟨S262144, .bf16⟩
  | .hbm, ⟨64, _⟩ => ⟨S_, .i32⟩
  | .hbm, ⟨65, _⟩ => ⟨S262144, .i32⟩
  | .hbm, ⟨66, _⟩ => ⟨S262144, .i1⟩
  | .hbm, ⟨67, _⟩ => ⟨S_, .i32⟩
  | .hbm, ⟨68, _⟩ => ⟨S262144, .i32⟩
  | .hbm, ⟨69, _⟩ => ⟨S262144, .i32⟩
  | .hbm, ⟨70, _⟩ => ⟨S262144, .i32⟩
  | .hbm, ⟨71, _⟩ => ⟨S_, .i32⟩
  | .hbm, ⟨72, _⟩ => ⟨S262144, .i32⟩
  | .hbm, ⟨73, _⟩ => ⟨S262144, .i1⟩
  | .hbm, ⟨74, _⟩ => ⟨S_, .i32⟩
  | .hbm, ⟨75, _⟩ => ⟨S262144, .i32⟩
  | .hbm, ⟨76, _⟩ => ⟨S262144, .i32⟩
  | .hbm, ⟨77, _⟩ => ⟨S262144, .i32⟩
  | .hbm, ⟨78, _⟩ => ⟨S262144x1, .i32⟩
  | .hbm, ⟨79, _⟩ => ⟨S262144x1, .i32⟩
  | .hbm, ⟨80, _⟩ => ⟨S262144x2, .i32⟩
  | .hbm, ⟨81, _⟩ => ⟨S8192x8192, .bf16⟩
  | .hbm, ⟨82, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024, .f32⟩
  | .local _ .vmem, ⟨5, _⟩ => ⟨S1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x1, .f32⟩
  | .local _ .vmem, ⟨10, _⟩ => ⟨S1024, .f32⟩
  | .local _ .vmem, ⟨11, _⟩ => ⟨S1024, .f32⟩
  | .local _ .vmem, ⟨12, _⟩ => ⟨S2048x2048, .bf16⟩
  | .local _ .vmem, ⟨13, _⟩ => ⟨S2048x2048, .bf16⟩
  | .local _ .vmem, ⟨14, _⟩ => ⟨S8192x256, .bf16⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S262144 : S_.BroadcastsInDim S262144 (![] : Fin 0 → Fin S262144.rank)
  bcast_S262144_S262144x1_0 : S262144.BroadcastsInDim S262144x1 (![0] : Fin 1 → Fin S262144x1.rank)
  shapeCasts_S512_S1x512 : S512.ShapeCasts S1x512
  transposes_S512x1_S1x512_1_0 : S512x1.Transposes [1, 0] S1x512
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S1024x256_S1024x256_S1024x512_d1 : Shape.Concatenates [S1024x256, S1024x256] S1024x512 1
  reduces_S1024x512_S1024 : S1024x512.Reduces [1] S1024
  shapeCasts_S1024_S1024x1 : S1024.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S1024 : S1024x1.ShapeCasts S1024
  inb_S1024_S1024_0 : ∀ a, (![0] : Fin 1 → Nat) a + S1024.size a ≤ S1024.size a
  h_S1024 : 0 < S1024.numel
  shapeCasts_S1024_S1024 : S1024.ShapeCasts S1024
  bitsLt_bf16_f32 : FTy.bits .bf16 < FTy.bits .f32
  bcast_S_S8192x8192 : S_.BroadcastsInDim S8192x8192 (![] : Fin 0 → Fin S8192x8192.rank)
  concatenates_S262144x1_S262144x1_S262144x2_d1 : Shape.Concatenates [S262144x1, S262144x1] S262144x2 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  gather_S8192_S262144x1_S262144_n_0_n_n_0_1_1_wf : GatherDims.WF S8192 S262144x1 S262144 [] [0] [] [0] [] 1 ![1]
  gather_S8192x256_S262144x1_S262144x256_1_0_n_n_0_1_1256_wf : GatherDims.WF S8192x256 S262144x1 S262144x256 [1] [0] [] [0] [] 1 ![1, 256]
  scatter_S8192x8192_S262144x2_S262144_n_01_01_1_wf : ScatterDims.WF S8192x8192 S262144x2 S262144 [] [0, 1] [0, 1] 1
  dot_S2048x2048_S2048x256_S2048x256_1_0_0_1_n_n_wf : DotDims.WF S2048x2048 S2048x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S262144x256.size a
  hwx0_1 : ∀ i : grid0.Coords, EltTy.bits .f32 = 32 ∨ (Rect.block (s := S262144x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S262144.size a
  hwx0_2 : ∀ i : grid0.Coords, EltTy.bits .f32 = 32 ∨ (Rect.block (s := S262144) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S262144.size a
  hwx0_7 : ∀ i : grid0.Coords, EltTy.bits .f32 = 32 ∨ (Rect.block (s := S262144) S1024.size (cc0_transform_7 i) (hinb0_7 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)

variable [Facts₀]

def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf

abbrev win0_0 : Pipeline.Window sig grid0 :=
  Pipeline.Window.ofSpec (Memref.whole main_v28) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v57) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S262144x2 : Shape := ⟨2, ![262144, 2]⟩
abbrev S512 : Shape := ⟨1, ![512]⟩
abbrev S512x1 : Shape := ⟨2, ![512, 1]⟩
abbrev S1 : Shape := ⟨1, ![1]⟩
abbrev S262144x1 : Shape := ⟨2, ![262144, 1]⟩
abbrev S262144 : Shape := ⟨1, ![262144]⟩
abbrev S_ : Shape := ⟨0, ![]⟩
abbrev S262144x256 : Shape := ⟨2, ![262144, 256]⟩
abbrev S262144x512 : Shape := ⟨2, ![262144, 512]⟩
abbrev S1x512 : Shape := ⟨2, ![1, 512]⟩
abbrev S1x1 : Shape := ⟨2, ![1, 1]⟩
abbrev S8192x8192 : Shape := ⟨2, ![8192, 8192]⟩

abbrev nBuf : Space → Nat
  | .hbm => 116
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S262144x2, .i32⟩
  | .hbm, ⟨3, _⟩ => ⟨S512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S262144x1, .i32⟩
  | .hbm, ⟨8, _⟩ => ⟨S262144, .i32⟩
  | .hbm, ⟨9, _⟩ => ⟨S262144x1, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144, .f32⟩
  | .hbm, ⟨29, _⟩ => ⟨S262144, .f32⟩
  | .hbm, ⟨30, _⟩ => ⟨S_, .f32⟩
  | .hbm, ⟨31, _⟩ => ⟨S262144, .f32⟩
  | .hbm, ⟨32, _⟩ => ⟨S262144, .i1⟩
  | .hbm, ⟨33, _⟩ => ⟨S_, .f32⟩
  | .hbm, ⟨34, _⟩ => ⟨S_, .f32⟩
  | .hbm, ⟨35, _⟩ => ⟨S262144, .f32⟩
  | .hbm, ⟨36, _⟩ => ⟨S262144, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x256, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x256, .f32⟩
  | .hbm, ⟨55, _⟩ => ⟨S262144x512, .f32⟩
  | .hbm, ⟨56, _⟩ => ⟨S_, .f32⟩
  | .hbm, ⟨57, _⟩ => ⟨S262144, .f32⟩
  | .hbm, ⟨58, _⟩ => ⟨S262144x1, .f32⟩
  | .hbm, ⟨59, _⟩ => ⟨S_, .f32⟩
  | .hbm, ⟨60, _⟩ => ⟨S262144x1, .f32⟩
  | .hbm, ⟨61, _⟩ => ⟨S262144x1, .f32⟩
  | .hbm, ⟨62, _⟩ => ⟨S262144x512, .f32⟩
  | .hbm, ⟨63, _⟩ => ⟨S262144x512, .f32⟩
  | .hbm, ⟨64, _⟩ => ⟨S262144x512, .f32⟩
  | .hbm, ⟨65, _⟩ => ⟨S_, .f32⟩
  | .hbm, ⟨66, _⟩ => ⟨S262144, .f32⟩
  | .hbm, ⟨67, _⟩ => ⟨S262144x1, .f32⟩
  | .hbm, ⟨68, _⟩ => ⟨S_, .f32⟩
  | .hbm, ⟨69, _⟩ => ⟨S262144x1, .f32⟩
  | .hbm, ⟨70, _⟩ => ⟨S262144x1, .f32⟩
  | .hbm, ⟨71, _⟩ => ⟨S262144x512, .f32⟩
  | .hbm, ⟨72, _⟩ => ⟨S262144x512, .f32⟩
  | .hbm, ⟨73, _⟩ => ⟨S_, .f32⟩
  | .hbm, ⟨74, _⟩ => ⟨S262144x1, .f32⟩
  | .hbm, ⟨75, _⟩ => ⟨S262144x1, .f32⟩
  | .hbm, ⟨76, _⟩ => ⟨S262144x1, .f32⟩
  | .hbm, ⟨77, _⟩ => ⟨S262144x512, .f32⟩
  | .hbm, ⟨78, _⟩ => ⟨S262144x512, .f32⟩
  | .hbm, ⟨79, _⟩ => ⟨S1x512, .f32⟩
  | .hbm, ⟨80, _⟩ => ⟨S262144x512, .f32⟩
  | .hbm, ⟨81, _⟩ => ⟨S262144x512, .f32⟩
  | .hbm, ⟨82, _⟩ => ⟨S1x512, .f32⟩
  | .hbm, ⟨83, _⟩ => ⟨S262144x512, .f32⟩
  | .hbm, ⟨84, _⟩ => ⟨S262144x512, .f32⟩
  | .hbm, ⟨85, _⟩ => ⟨S_, .f32⟩
  | .hbm, ⟨86, _⟩ => ⟨S262144x512, .f32⟩
  | .hbm, ⟨87, _⟩ => ⟨S262144x512, .f32⟩
  | .hbm, ⟨88, _⟩ => ⟨S262144x1, .f32⟩
  | .hbm, ⟨89, _⟩ => ⟨S1x1, .f32⟩
  | .hbm, ⟨90, _⟩ => ⟨S262144x1, .f32⟩
  | .hbm, ⟨91, _⟩ => ⟨S262144x1, .f32⟩
  | .hbm, ⟨92, _⟩ => ⟨S262144x1, .f32⟩
  | .hbm, ⟨93, _⟩ => ⟨S262144, .f32⟩
  | .hbm, ⟨94, _⟩ => ⟨S262144, .f32⟩
  | .hbm, ⟨95, _⟩ => ⟨S_, .f32⟩
  | .hbm, ⟨96, _⟩ => ⟨S8192x8192, .f32⟩
  | .hbm, ⟨97, _⟩ => ⟨S_, .i32⟩
  | .hbm, ⟨98, _⟩ => ⟨S262144, .i32⟩
  | .hbm, ⟨99, _⟩ => ⟨S262144, .i1⟩
  | .hbm, ⟨100, _⟩ => ⟨S_, .i32⟩
  | .hbm, ⟨101, _⟩ => ⟨S262144, .i32⟩
  | .hbm, ⟨102, _⟩ => ⟨S262144, .i32⟩
  | .hbm, ⟨103, _⟩ => ⟨S262144, .i32⟩
  | .hbm, ⟨104, _⟩ => ⟨S_, .i32⟩
  | .hbm, ⟨105, _⟩ => ⟨S262144, .i32⟩
  | .hbm, ⟨106, _⟩ => ⟨S262144, .i1⟩
  | .hbm, ⟨107, _⟩ => ⟨S_, .i32⟩
  | .hbm, ⟨108, _⟩ => ⟨S262144, .i32⟩
  | .hbm, ⟨109, _⟩ => ⟨S262144, .i32⟩
  | .hbm, ⟨110, _⟩ => ⟨S262144, .i32⟩
  | .hbm, ⟨111, _⟩ => ⟨S262144x1, .i32⟩
  | .hbm, ⟨112, _⟩ => ⟨S262144x1, .i32⟩
  | .hbm, ⟨113, _⟩ => ⟨S262144x2, .i32⟩
  | .hbm, ⟨114, _⟩ => ⟨S8192x8192, .f32⟩
  | .hbm, ⟨115, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x512_d1 : Shape.Concatenates [S262144x256, S262144x256] S262144x512 1
  reducesTo_S262144x512_S262144_d1 : S262144x512.ReducesTo [1] S262144
  h_S_ : 0 < S_.numel
  bcast_S_S262144x1 : S_.BroadcastsInDim S262144x1 (![] : Fin 0 → Fin S262144x1.rank)
  bcast_S262144x1_S262144x512_0_1 : S262144x1.BroadcastsInDim S262144x512 (![0, 1] : Fin 2 → Fin S262144x512.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S8192x8192 : S_.BroadcastsInDim S8192x8192 (![] : Fin 0 → Fin S8192x8192.rank)
  concatenates_S262144x1_S262144x1_S262144x2_d1 : Shape.Concatenates [S262144x1, S262144x1] S262144x2 1
  gather_S8192_S262144x1_S262144_n_0_n_n_0_1_1_wf : GatherDims.WF S8192 S262144x1 S262144 [] [0] [] [0] [] 1 ![1]
  gather_S8192x256_S262144x1_S262144x256_1_0_n_n_0_1_1256_wf : GatherDims.WF S8192x256 S262144x1 S262144x256 [1] [0] [] [0] [] 1 ![1, 256]
  dot_S262144x512_S512x1_S262144x1_1_0_0_1_n_n_wf : DotDims.WF S262144x512 S512x1 S262144x1 [1] [0] [0] [1] [] []
  scatter_S8192x8192_S262144x2_S262144_n_01_01_1_wf : ScatterDims.WF S8192x8192 S262144x2 S262144 [] [0, 1] [0, 1] 1
  dot_S8192x8192_S8192x256_S8192x256_1_0_0_1_n_n_wf : DotDims.WF S8192x8192 S8192x256 S8192x256 [1] [0] [0] [1] [] []

variable [Facts₀]

def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Edge.lean ====
import proofs.«429181_j20521353740426_3_alg».proof.Proof.Gen.Kernel.Launch
import proofs.«429181_j20521353740426_3_alg».proof.Proof.Gen.Kernel.Skeleton
import proofs.«429181_j20521353740426_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the edge kernel on one block of 1024 edges

The first pallas_call walks 256 blocks of 1024 edges. At each block it is handed seven staging buffers — the
subject rows and the object rows of the block (1024 × 256 each), the block's 1024 normalisations, and the layer
norm's scale, its shift, the gate's weights (1 × 512 each) and the gate's bias (1 × 1), the last four the same at
every block — and one output buffer of 1024 gates. The body reads each input buffer whole, once, and writes the
output buffer whole, once: so the output block is a function of the seven input blocks alone, and every input
buffer is left as it was found. This module states that function, the proof data of the pipeline built on it, and
the body's obligation at every block. -/

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when region 0 is entered
variable (V : (c : Dev nD) → (b : Ref sig .tc) → Buf (Elt F) ((c : Thread nD τ).loc b))

/-! ## The blocks -/

/-- Window `w`'s block of its array at grid point `t`, the array read as region 0 finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-buffer rectangles

Every access of the body is to a whole staging buffer: the rectangle at offset zero with the buffer's own sizes.
One per buffer shape. -/

/-- A block of 1024 rows of 256 features, whole. -/
abbrev rRows : Rect S1024x256 := Rect.unit (s := S1024x256) ![0, 0] S1024x256.size inb_S1024x256_S1024x256_0_0
/-- A block of 1024 per-edge scalars, whole. -/
abbrev rEdges : Rect S1024 := Rect.unit (s := S1024) ![0] S1024.size inb_S1024_S1024_0
/-- A row of 512 per-feature parameters, whole. -/
abbrev rFeat : Rect S1x512 := Rect.unit (s := S1x512) ![0, 0] S1x512.size inb_S1x512_S1x512_0_0
/-- The single bias, whole. -/
abbrev rOne : Rect S1x1 := Rect.unit (s := S1x1) ![0, 0] S1x1.size inb_S1x1_S1x1_0_0

theorem zeros1 : (![0] : Fin 1 → Nat) = fun _ => 0 := funext fun a => by fin_cases a; rfl
theorem zeros2 : (![0, 0] : Fin 2 → Nat) = fun _ => 0 := funext fun a => by fin_cases a <;> rfl

/-! ## What the body leaves in the output buffer -/

/-- The gates of one block of edges as the body's single store leaves them in the output buffer: the store's
    payload — the gate's pre-activation `k0_pay2` of the subject rows, the object rows, the scale, the shift and the
    weights, then `k0_pay1` of that, the bias and the normalisations — over whole-buffer loads, written through the
    whole-buffer rectangle. -/
def edgeOut (x0 x1 : Vec F S1024x256 .f32) (x2 : Vec F S1024 .f32) (x3 x4 x5 : Vec F S1x512 .f32) (x6 : Vec F S1x1 .f32) :
    Vec F S1024 .f32 :=
  View.canon [⟨rEdges,
    k0_pay1 (k0_pay2 (View.ld x0 rRows) (View.ld x1 rRows) (View.ld x3 rFeat) (View.ld x4 rFeat) (View.ld x5 rFeat))
      (View.ld x6 rOne) (View.ld x2 rEdges)⟩]

/-- A whole-buffer load reads the buffer and one whole-buffer store leaves its payload: the output block is the
    payload of the input blocks themselves. -/
theorem edgeOut_eq (x0 x1 : Vec F S1024x256 .f32) (x2 : Vec F S1024 .f32) (x3 x4 x5 : Vec F S1x512 .f32) (x6 : Vec F S1x1 .f32) :
    edgeOut x0 x1 x2 x3 x4 x5 x6 = k0_pay1 (k0_pay2 x0 x1 x3 x4 x5) x6 x2 := by
  unfold edgeOut
  rw [View.canon_unit_zero (S := S1024) zeros1 inb_S1024_S1024_0]
  simp only [View.ld_unit_zero (S := S1024x256) zeros2 inb_S1024x256_S1024x256_0_0,
    View.ld_unit_zero (S := S1024) zeros1 inb_S1024_S1024_0,
    View.ld_unit_zero (S := S1x512) zeros2 inb_S1x512_S1x512_0_0,
    View.ld_unit_zero (S := S1x1) zeros2 inb_S1x1_S1x1_0_0]

/-! ## The pipeline's proof data -/

/-- The proof data of region 0 on core `c`. The arrays are as the region finds them; after the body at block `t`
    every input buffer still holds its block and the output buffer holds `edgeOut` of the seven input blocks; the
    invariant is the untouched rest; full shares; nothing owed. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => edgeOut (blk V c 0 t) (blk V c 1 t) (blk V c 2 t) (blk V c 3 t) (blk V c 4 t) (blk V c 5 t) (blk V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = blk V c 2 t := by dsimp only [dat0]
theorem after0_3 (c : Dev nD) (t : Fin cfg0.N) : (dat0 V c).after 3 t = blk V c 3 t := by dsimp only [dat0]
theorem after0_4 (c : Dev nD) (t : Fin cfg0.N) : (dat0 V c).after 4 t = blk V c 4 t := by dsimp only [dat0]
theorem after0_5 (c : Dev nD) (t : Fin cfg0.N) : (dat0 V c).after 5 t = blk V c 5 t := by dsimp only [dat0]
theorem after0_6 (c : Dev nD) (t : Fin cfg0.N) : (dat0 V c).after 6 t = blk V c 6 t := by dsimp only [dat0]
theorem after0_7 (c : Dev nD) (t : Fin cfg0.N) :
    (dat0 V c).after 7 t
      = edgeOut (blk V c 0 t) (blk V c 1 t) (blk V c 2 t) (blk V c 3 t) (blk V c 4 t) (blk V c 5 t) (blk V c 6 t) := by
  dsimp only [dat0]

/-! ## Every input buffer holds its block when the body runs

The two row blocks and the normalisations are fetched afresh at every block of edges; the four parameter arrays
are fetched at the first block only, and since their block index never moves and the body leaves them in place,
they still hold the same block at every later point. Either way the buffer the body is handed holds the window's
block of its array. -/

theorem held0_0 (c : Dev nD) (t : Fin cfg0.N) (d) : (dat0 V c).before 0 t d = blk V c 0 t :=
  ((dat0 V c).before_in_eq_fetched 0 rfl (fun _ => rfl) (fun _ _ _ => rfl)
    (fun t => by rw [after0_0]; unfold Dat.blockOf blk; rw [A_eq0]; try rfl) t d).trans
    (by unfold Dat.fetched Dat.blockOf blk; rw [A_eq0]; try rfl)
theorem held0_1 (c : Dev nD) (t : Fin cfg0.N) (d) : (dat0 V c).before 1 t d = blk V c 1 t :=
  ((dat0 V c).before_in_eq_fetched 1 rfl (fun _ => rfl) (fun _ _ _ => rfl)
    (fun t => by rw [after0_1]; unfold Dat.blockOf blk; rw [A_eq0]; try rfl) t d).trans
    (by unfold Dat.fetched Dat.blockOf blk; rw [A_eq0]; try rfl)
theorem held0_2 (c : Dev nD) (t : Fin cfg0.N) (d) : (dat0 V c).before 2 t d = blk V c 2 t :=
  ((dat0 V c).before_in_eq_fetched 2 rfl (fun _ => rfl) (fun _ _ _ => rfl)
    (fun t => by rw [after0_2]; unfold Dat.blockOf blk; rw [A_eq0]; try rfl) t d).trans
    (by unfold Dat.fetched Dat.blockOf blk; rw [A_eq0]; try rfl)
theorem held0_3 (c : Dev nD) (t : Fin cfg0.N) (d) : (dat0 V c).before 3 t d = blk V c 3 t :=
  ((dat0 V c).before_in_eq_fetched 3 rfl (fun _ => rfl) (fun _ _ _ => rfl)
    (fun t => by rw [after0_3]; unfold Dat.blockOf blk; rw [A_eq0]; try rfl) t d).trans
    (by unfold Dat.fetched Dat.blockOf blk; rw [A_eq0]; try rfl)
theorem held0_4 (c : Dev nD) (t : Fin cfg0.N) (d) : (dat0 V c).before 4 t d = blk V c 4 t :=
  ((dat0 V c).before_in_eq_fetched 4 rfl (fun _ => rfl) (fun _ _ _ => rfl)
    (fun t => by rw [after0_4]; unfold Dat.blockOf blk; rw [A_eq0]; try rfl) t d).trans
    (by unfold Dat.fetched Dat.blockOf blk; rw [A_eq0]; try rfl)
theorem held0_5 (c : Dev nD) (t : Fin cfg0.N) (d) : (dat0 V c).before 5 t d = blk V c 5 t :=
  ((dat0 V c).before_in_eq_fetched 5 rfl (fun _ => rfl) (fun _ _ _ => rfl)
    (fun t => by rw [after0_5]; unfold Dat.blockOf blk; rw [A_eq0]; try rfl) t d).trans
    (by unfold Dat.fetched Dat.blockOf blk; rw [A_eq0]; try rfl)
theorem held0_6 (c : Dev nD) (t : Fin cfg0.N) (d) : (dat0 V c).before 6 t d = blk V c 6 t :=
  ((dat0 V c).before_in_eq_fetched 6 rfl (fun _ => rfl) (fun _ _ _ => rfl)
    (fun t => by rw [after0_6]; unfold Dat.blockOf blk; rw [A_eq0]; try rfl) t d).trans
    (by unfold Dat.fetched Dat.blockOf blk; rw [A_eq0]; try rfl)

/-! ## The body's triple

On eight whole staging buffers — the seven inputs reading `x0 … x6`, the output at anything — the body runs to a
state in which the inputs read as before and the output reads `edgeOut x0 … x6`. The printed function is its
skeleton: six whole-buffer loads in the first part, a load of the normalisations, a load of the output buffer
whose value nothing uses, and one whole-buffer store of the payload. -/

/-- The one store covers the output buffer. -/
theorem store_covers (p : Vec F S1024 .f32) (y : S1024.Idx) :
    ∃ pc ∈ ([⟨rEdges, p⟩] : List (View.Piece (Elt F) S1024 .f32)), y ∈ pc.1.set :=
  ⟨_, List.mem_singleton_self _, View.mem_set_unit_zero (S := S1024) zeros1 inb_S1024_S1024_0 y⟩

set_option maxHeartbeats 1000000 in
theorem edge_kernel_runs (c : Dev nD) (E : Set ℕ) (i : grid0.Coords)
    (a0 : Memref sig .tc .vmem S1024x256 .f32) (h0 : a0.IsWhole) (a1 : Memref sig .tc .vmem S1024x256 .f32) (h1 : a1.IsWhole)
    (a2 : Memref sig .tc .vmem S1024 .f32) (h2 : a2.IsWhole) (a3 : Memref sig .tc .vmem S1x512 .f32) (h3 : a3.IsWhole)
    (a4 : Memref sig .tc .vmem S1x512 .f32) (h4 : a4.IsWhole) (a5 : Memref sig .tc .vmem S1x512 .f32) (h5 : a5.IsWhole)
    (a6 : Memref sig .tc .vmem S1x1 .f32) (h6 : a6.IsWhole) (a7 : Memref sig .tc .vmem S1024 .f32) (h7 : a7.IsWhole)
    (x0 x1 : Vec F S1024x256 .f32) (x2 : Vec F S1024 .f32) (x3 x4 x5 : Vec F S1x512 .f32) (x6 : Vec F S1x1 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare (edgeOut x0 x1 x2 x3 x4 x5 x6)) -∗ K ⟨⟩))
      ⊢ wp frame (wpE (defs₀ (F := F)) Variants.none c none) E (cc0__edge_kernel i a0 h0 a1 h1 a2 h2 a3 h3 a4 h4 a5 h5 a6 h6 a7 h7) K := by
  simp only [cc0__edge_kernel_eq_skeleton]; unfold cc0__edge_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, Hk⟩
  subst e0 e1 e2 e3 e4 e5 e6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (store_covers _)

/-! ## The body's obligation at every block of edges -/

/-- At block `t` the pipeline hands the body the invariant, what the core owes, and the eight current staging
    buffers, each input's holding its block; `edge_kernel_runs` on those blocks gives them back with the output
    buffer at `edgeOut` of the blocks, which is what the proof data says the body leaves. The invariant and the
    owed tallies are the same before and after, and pass through unread. -/
theorem at_block (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d))
        ∗ (∃ d, owns (c : Thread nD τ) (st0_7 t) fullShare ((dat0 V c).before 7 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ owns (c : Thread nD τ) (st0_6 t) fullShare ((dat0 V c).after 6 t)
            ∗ owns (c : Thread nD τ) (st0_7 t) fullShare ((dat0 V c).after 7 t))) := by
  unfold bodyAt0
  simp only [held0_0, held0_1, held0_2, held0_3, held0_4, held0_5, held0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge_kernel_runs c Set.univ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation: the eight windows written out, then `at_block` at each point. -/
theorem body_obligation0 (c : Dev nD) : BodyObligation (dat0 (F := F) V c) (defs₀ (F := F)) Variants.none () Set.univ := fun t => by
  rw [bigSep_W0, bigSep_W0]
  exact at_block V c t

end Cert.Kernel.Edge

end
-- ==== Proof.K.Mm.lean ====
import proofs.«429181_j20521353740426_3_alg».proof.Proof.Gen.Kernel.Launch
import proofs.«429181_j20521353740426_3_alg».proof.Proof.Gen.Kernel.Skeleton
import proofs.«429181_j20521353740426_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The blocked matrix product, one grid point at a time

The second region multiplies the adjacency matrix by the node features on a 4 × 4 grid: point `4 * i + k` takes
block `(i, k)` of the matrix (2048 × 2048) and rows `2048 * k … 2048 * k + 2047` of the feature table, multiplies
them and adds the product into an accumulator of 2048 × 256 that lives beside the windows and survives from one
point to the next. At `k = 0` the accumulator is first filled with zeros; at `k = 3` it is copied, after the
addition, into the output block of row tile `i`, which is written back only there.

So the accumulator after point `t` is a recurrence over the points: one step from zero where `t % 4 = 0`, one
step from what the point before left elsewhere. This module states that recurrence (`accAt`), the three shapes
the body's run takes (first, middle and last step of a row tile), and joins them to the pipeline's obligation. -/

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks and one step of the accumulation -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 2048 rows of the feature table that reduction step `i 1` multiplies: rows `2048 * (i 1)` onwards, all 256
    columns. -/
def rhsRows (i : grid1.Coords) (b : Vec F S8192x256 .bf16) : Vec F S2048x256 .bf16 :=
  View.ld b (Rect.unit (s := S8192x256) (k1_off1 i) S2048x256.size (k1_off1_inb i))

/-- One step: the accumulator that held `s`, after the product of the matrix block `a` with the step's rows of
    the table `b` has been added to it. -/
def step (i : grid1.Coords) (a : Vec F S2048x2048 .bf16) (b : Vec F S8192x256 .bf16) (s : Vec F S2048x256 .f32) : Vec F S2048x256 .f32 :=
  k1_pay2 (rhsRows i b) s a

/-- THE RECURRENCE. What the accumulator holds after the body at point `n`: where a row tile begins (`n % 4 = 0`)
    one step from the zero fill, elsewhere one step from what point `n - 1` left. -/
def accAt (c : Dev nD) : (n : ℕ) → n < cfg1.N → Vec F S2048x256 .f32
  | 0, hn => step (grid1.coords ⟨0, hn⟩) (blk V c 0 ⟨0, hn⟩) (blk V c 1 ⟨0, hn⟩) (k1_pay1 (F := F))
  | n + 1, hn =>
    if (n + 1) % 4 = 0 then
      step (grid1.coords ⟨n + 1, hn⟩) (blk V c 0 ⟨n + 1, hn⟩) (blk V c 1 ⟨n + 1, hn⟩) (k1_pay1 (F := F))
    else
      step (grid1.coords ⟨n + 1, hn⟩) (blk V c 0 ⟨n + 1, hn⟩) (blk V c 1 ⟨n + 1, hn⟩) (accAt c n (Nat.lt_of_succ_lt hn))

/-- At the first step of a row tile the accumulator restarts from zero. -/
theorem accAt_first (c : Dev nD) (t : Fin cfg1.N) (h : t.val % 4 = 0) :
    accAt V c t.val t.isLt = step (grid1.coords t) (blk V c 0 t) (blk V c 1 t) (k1_pay1 (F := F)) := by
  obtain ⟨n, hn⟩ := t
  cases n with
  | zero => rfl
  | succ n => exact if_pos h

/-- At every other step it continues from the point before. -/
theorem accAt_next (c : Dev nD) (t : Fin cfg1.N) (h : t.val % 4 ≠ 0) :
    accAt V c t.val t.isLt = step (grid1.coords t) (blk V c 0 t) (blk V c 1 t)
      (accAt V c (t.val - 1) (Nat.lt_of_le_of_lt (Nat.sub_le _ _) t.isLt)) := by
  obtain ⟨n, hn⟩ := t
  cases n with
  | zero => exact absurd (Nat.zero_mod 4) h
  | succ n => exact if_neg h

/-! ## Where the body branches, and where the output window rests -/

/-- The body's first branch is taken where the reduction index is zero: the row tile begins, the accumulator is
    zeroed. -/
abbrev RowStart (i : grid1.Coords) : Prop :=
  (Scalar.cmpi .ne (Scalar.extui (Scalar.cmpi .eq (BitVec.ofNat 32 (i 1).val) 0#32)) 0#32) = 1#1

/-- Its second branch is taken where the reduction index is three: the row tile ends, the sum is handed over. -/
abbrev RowEnd (i : grid1.Coords) : Prop := k1_cond2 i = 1#1

/-- Point `t` is `4 * i + k`, so a row tile begins where `t % 4 = 0` -/
theorem rowStart_iff : ∀ t : Fin cfg1.N, RowStart (grid1.coords t) ↔ t.val % 4 = 0 :=
  (by decide +kernel : ∀ t : Fin grid1.N, RowStart (grid1.coords t) ↔ t.val % 4 = 0)

/-- and ends where `t % 4 = 3`. -/
theorem rowEnd_iff : ∀ t : Fin cfg1.N, RowEnd (grid1.coords t) ↔ t.val % 4 = 3 :=
  (by decide +kernel : ∀ t : Fin grid1.N, RowEnd (grid1.coords t) ↔ t.val % 4 = 3)

/-- The two inputs are live at every point. -/
theorem lhs_live : ∀ i : grid1.Coords, cfg1.idle 0 i = false := fun _ => rfl
theorem rhs_live : ∀ i : grid1.Coords, cfg1.idle 1 i = false := fun _ => rfl

/-- Short of a row tile's end nothing is stored into the output block: the window rests there -/
theorem out_rests : ∀ t : Fin cfg1.N, ¬RowEnd (grid1.coords t) → cfg1.idle 2 (grid1.coords t) = true := by decide +kernel
/-- and is not written back; -/
theorem out_stays : ∀ t : Fin cfg1.N, ¬RowEnd (grid1.coords t) → (cfg1.win 2).flush t = false := by decide +kernel
/-- at the end it is live. -/
theorem out_live : ∀ t : Fin cfg1.N, RowEnd (grid1.coords t) → cfg1.idle 2 (grid1.coords t) = false := by decide +kernel

/-! ## The invariant between points -/

/-- The accumulator as the body is handed it: the kernel's own whole buffer. -/
abbrev accM : Memref sig .tc .vmem S2048x256 .f32 := Memref.whole cc1_scratch0

/-- A scoped buffer of the core held whole at some contents. -/
abbrev held (c : Dev nD) (b : Ref sig .tc) : sProp 𝕄 :=
  iprop(∃ f : Buf (Elt F) ((c : Thread nD τ).loc b), ((c : Thread nD τ).loc b) ↦{fullShare} f)

/-- The other region's twelve staging buffers: this region's body never touches them, the invariant carries them
    along at whatever they hold. -/
def bystanders (c : Dev nD) : sProp 𝕄 :=
  iprop(held (F := F) c cc0_stg0_0 ∗ held (F := F) c cc0_stg0_1 ∗ held (F := F) c cc0_stg1_0 ∗ held (F := F) c cc0_stg1_1
    ∗ held (F := F) c cc0_stg2_0 ∗ held (F := F) c cc0_stg2_1 ∗ held (F := F) c cc0_stg3_0 ∗ held (F := F) c cc0_stg4_0
    ∗ held (F := F) c cc0_stg5_0 ∗ held (F := F) c cc0_stg6_0 ∗ held (F := F) c cc0_stg7_0 ∗ held (F := F) c cc0_stg7_1)

/-- The invariant before point `n`: before the first point what the launch hands the region (every scoped buffer
    that is no staging buffer of this region at anything, the generator register at some state); afterwards the
    same with the accumulator at what the point before left in it. -/
def PhiAcc (c : Dev nD) : (n : ℕ) → n ≤ cfg1.N → sProp 𝕄
  | 0, _ => Pipeline.ΦA spec1 c
  | n + 1, hn => iprop(bystanders (F := F) c ∗ owns (c : Thread nD τ) accM fullShare (accAt V c n hn) ∗ (∃ r, prngReg c r))

/-! ## The pipeline's proof data -/

/-- The proof data of this region on core `c`: the arrays as the region finds them; after the body each input's
    buffer still at its block and the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => accAt V c t.val t.isLt
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = accAt V c t.val t.isLt := by dsimp only [dat1]

/-- What the launch hands the region, with the accumulator named: the twelve bystanders, the accumulator at
    anything, the generator register. -/
theorem PhiA_eq (c : Dev nD) :
    (Pipeline.ΦA spec1 c : sProp 𝕄)
      = iprop((held (F := F) c cc0_stg0_0 ∗ held (F := F) c cc0_stg0_1 ∗ held (F := F) c cc0_stg1_0 ∗ held (F := F) c cc0_stg1_1
          ∗ held (F := F) c cc0_stg2_0 ∗ held (F := F) c cc0_stg2_1 ∗ held (F := F) c cc0_stg3_0 ∗ held (F := F) c cc0_stg4_0
          ∗ held (F := F) c cc0_stg5_0 ∗ held (F := F) c cc0_stg6_0 ∗ held (F := F) c cc0_stg7_0 ∗ held (F := F) c cc0_stg7_1
          ∗ (∃ d, owns (c : Thread nD τ) accM fullShare d)) ∗ (∃ r, prngReg c r)) := by
  unfold Pipeline.ΦA; rw [scopedRest1_eq]; simp only [accM, owns_whole]; try rfl

theorem PhiA_open (c : Dev nD) :
    (Pipeline.ΦA spec1 c : sProp 𝕄)
      ⊢ iprop(bystanders (F := F) c ∗ (∃ d, owns (c : Thread nD τ) accM fullShare d) ∗ (∃ r, prngReg c r)) := by
  rw [PhiA_eq]; unfold bystanders
  iintro ⟨⟨H1, H2, H3, H4, H5, H6, H7, H8, H9, H10, H11, H12, HS⟩, Hg⟩
  iframe

theorem PhiA_close (c : Dev nD) :
    iprop(bystanders (F := F) c ∗ (∃ d, owns (c : Thread nD τ) accM fullShare d) ∗ (∃ r, prngReg c r))
      ⊢ (Pipeline.ΦA spec1 c : sProp 𝕄) := by
  rw [PhiA_eq]; unfold bystanders
  iintro ⟨⟨H1, H2, H3, H4, H5, H6, H7, H8, H9, H10, H11, H12⟩, HS, Hg⟩
  iframe

/-! ## The body's three runs

On whole memrefs — the matrix block at `a`, the table at `b`, the output block at `o`, the accumulator at `s` — the
body runs to the same memrefs with the accumulator one step further. Which step, and whether the output block is
touched, depends on the two branches alone. -/

/-- The whole-buffer rectangle's offsets, however spelt, are zero. -/
theorem offs_zero : (![0, 0] : Fin 2 → ℕ) = fun _ => 0 := by
  funext a
  match a with
  | ⟨0, _⟩ => rfl
  | ⟨1, _⟩ => rfl

/-- What the body's three loads read on whole memrefs: the step's rows of the table, the whole accumulator, the
    whole matrix block. -/
theorem load_rhs (i : grid1.Coords) (arg3 : Memref sig .tc .vmem S8192x256 .bf16) (harg3 : arg3.IsWhole) (b : Vec F S8192x256 .bf16) :
    View.readAt (Elt F) arg3.view (Rect.unit (s := S8192x256) (k1_off1 i) S2048x256.size (k1_off1_inb i)).toLoadRect (harg3.unread b)
      = rhsRows i b := by
  unfold rhsRows; rw [View.readAt_eq_ld, harg3.read_unread]

theorem load_acc (arg5 : Memref sig .tc .vmem S2048x256 .f32) (harg5 : arg5.IsWhole) (s : Vec F S2048x256 .f32) :
    View.readAt (Elt F) arg5.view (Rect.unit (s := S2048x256) ![0, 0] S2048x256.size inb_S2048x256_S2048x256_0_0).toLoadRect (harg5.unread s)
      = s := by
  rw [View.readAt_eq_ld, harg5.read_unread, View.ld_unit_zero offs_zero]

theorem load_lhs (arg2 : Memref sig .tc .vmem S2048x2048 .bf16) (harg2 : arg2.IsWhole) (a : Vec F S2048x2048 .bf16) :
    View.readAt (Elt F) arg2.view (Rect.unit (s := S2048x2048) ![0, 0] S2048x2048.size inb_S2048x2048_S2048x2048_0_0).toLoadRect (harg2.unread a)
      = a := by
  rw [View.readAt_eq_ld, harg2.read_unread, View.ld_unit_zero offs_zero]

/-- The body's stores go through the whole-buffer rectangle, so a piece list headed by one of them covers the
    buffer. -/
theorem head_covers (w : (Rect.unit (s := S2048x256) ![0, 0] S2048x256.size inb_S2048x256_S2048x256_0_0).shape.Idx → Elt F .f32)
    (L : List (View.Piece (Elt F) S2048x256 .f32)) (y : S2048x256.Idx) :
    ∃ p ∈ (⟨Rect.unit (s := S2048x256) ![0, 0] S2048x256.size inb_S2048x256_S2048x256_0_0, w⟩ : View.Piece (Elt F) S2048x256 .f32) :: L,
      y ∈ p.1.set :=
  ⟨_, List.mem_cons_self, View.mem_set_unit_zero offs_zero inb_S2048x256_S2048x256_0_0 y⟩

set_option maxHeartbeats 1600000 in
/-- A MIDDLE step (neither branch): the product is added to what the accumulator held; the output block is left
    as it was. -/
theorem run_middle (c : Dev nD) (i : grid1.Coords)
    (arg2 : Memref sig .tc .vmem S2048x2048 .bf16) (harg2 : arg2.IsWhole) (arg3 : Memref sig .tc .vmem S8192x256 .bf16) (harg3 : arg3.IsWhole)
    (arg4 : Memref sig .tc .vmem S2048x256 .f32) (harg4 : arg4.IsWhole) (arg5 : Memref sig .tc .vmem S2048x256 .f32) (harg5 : arg5.IsWhole)
    (h0 : ¬RowStart i) (h3 : ¬RowEnd i)
    (a : Vec F S2048x2048 .bf16) (b : Vec F S8192x256 .bf16) (o : Vec F S2048x256 .f32) (s : Vec F S2048x256 .f32)
    (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (step i a b s)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h0 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (head_covers _ _), View.canon_unit_zero offs_zero, load_rhs, load_acc, load_lhs]
  unfold step; rfl

set_option maxHeartbeats 1600000 in
/-- The FIRST step of a row tile (first branch only): the accumulator is zeroed, whatever it held, then the product
    is added to the zeros read back; the output block is left as it was. -/
theorem run_first (c : Dev nD) (i : grid1.Coords)
    (arg2 : Memref sig .tc .vmem S2048x2048 .bf16) (harg2 : arg2.IsWhole) (arg3 : Memref sig .tc .vmem S8192x256 .bf16) (harg3 : arg3.IsWhole)
    (arg4 : Memref sig .tc .vmem S2048x256 .f32) (harg4 : arg4.IsWhole) (arg5 : Memref sig .tc .vmem S2048x256 .f32) (harg5 : arg5.IsWhole)
    (h0 : RowStart i) (h3 : ¬RowEnd i)
    (a : Vec F S2048x2048 .bf16) (b : Vec F S8192x256 .bf16) (o : Vec F S2048x256 .f32) (s : Vec F S2048x256 .f32)
    (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (step i a b (k1_pay1 (F := F)))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h0 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (head_covers _ _), View.canon_cons_unit_zero offs_zero, load_rhs, load_lhs]
  unfold run_first.sl.v8 run_first.sl.H5_1
  rw [View.readCov_unit_zero (S := S2048x256) _ offs_zero]
  unfold step; rfl

set_option maxHeartbeats 1600000 in
/-- The LAST step of a row tile (second branch only): the product is added, and the sum, read back, is copied
    whole into the output block, whatever that held. -/
theorem run_last (c : Dev nD) (i : grid1.Coords)
    (arg2 : Memref sig .tc .vmem S2048x2048 .bf16) (harg2 : arg2.IsWhole) (arg3 : Memref sig .tc .vmem S8192x256 .bf16) (harg3 : arg3.IsWhole)
    (arg4 : Memref sig .tc .vmem S2048x256 .f32) (harg4 : arg4.IsWhole) (arg5 : Memref sig .tc .vmem S2048x256 .f32) (harg5 : arg5.IsWhole)
    (h0 : ¬RowStart i) (h3 : RowEnd i)
    (a : Vec F S2048x2048 .bf16) (b : Vec F S8192x256 .bf16) (o : Vec F S2048x256 .f32) (s : Vec F S2048x256 .f32)
    (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare (step i a b s)
            ∗ owns (c : Thread nD τ) arg5 fullShare (step i a b s)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h0 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (head_covers _ _), View.canon_unit_zero offs_zero]
    unfold run_last.sl.v19 run_last.sl.H5_1
    rw [View.readCov_unit_zero (S := S2048x256) _ offs_zero, load_rhs, load_acc, load_lhs]
    unfold step; rfl
  iexists _; isplitr
  swap; · iexact H5
  ipureintro
  unfold run_last.sl.H5_1
  rw [View.read_writes_eq_canon _ _ _ (head_covers _ _), View.canon_unit_zero offs_zero, load_rhs, load_acc, load_lhs]
  unfold step; rfl

/-! ## The body at a point of the grid -/

/-- The staging memrefs the pipeline hands the body at point `t`. -/
abbrev lhsM (t : Fin cfg1.N) : Memref sig .tc .vmem S2048x2048 .bf16 := win1_0.stage (cfg1.slots t 0)
abbrev rhsM (t : Fin cfg1.N) : Memref sig .tc .vmem S8192x256 .bf16 := win1_1.stage (cfg1.slots t 1)
abbrev outM (t : Fin cfg1.N) : Memref sig .tc .vmem S2048x256 .f32 := win1_2.stage (cfg1.slots t 2)

/-- The matrix window holds its block at every point: fetched there each time, and the body only reads it. -/
theorem before1_0 (c : Dev nD) (t : Fin cfg1.N) (d) : (dat1 V c).before 0 t d = blk V c 0 t :=
  ((dat1 V c).before_in_eq_fetched 0 rfl lhs_live (fun _ _ _ => rfl)
      (fun t => by rw [after1_0]; unfold Dat.blockOf blk; rw [A_eq1]; try rfl) t d).trans
    (by unfold Dat.fetched Dat.blockOf blk; rw [A_eq1]; try rfl)

/-- The table window holds the whole table at every point: fetched once, its index never moves, and the body only
    reads it. -/
theorem before1_1 (c : Dev nD) (t : Fin cfg1.N) (d) : (dat1 V c).before 1 t d = blk V c 1 t :=
  ((dat1 V c).before_in_eq_fetched 1 rfl rhs_live (fun _ _ _ => rfl)
      (fun t => by rw [after1_1]; unfold Dat.blockOf blk; rw [A_eq1]; try rfl) t d).trans
    (by unfold Dat.fetched Dat.blockOf blk; rw [A_eq1]; try rfl)

/-- The invariant, restated at the point's number. -/
theorem Phi_castSucc (c : Dev nD) (t : Fin cfg1.N) : (dat1 V c).Φ t.castSucc = PhiAcc V c t.val (Nat.le_of_lt t.isLt) := rfl

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn
      = iprop(bystanders (F := F) c ∗ owns (c : Thread nD τ) accM fullShare (accAt V c n hn) ∗ (∃ r, prngReg c r)) := rfl

theorem PhiAcc_pos (c : Dev nD) (n : ℕ) (h : n ≤ cfg1.N) (hz : n ≠ 0) :
    PhiAcc V c n h
      = iprop(bystanders (F := F) c ∗ owns (c : Thread nD τ) accM fullShare (accAt V c (n - 1) (by omega)) ∗ (∃ r, prngReg c r)) := by
  cases n with
  | zero => exact absurd rfl hz
  | succ n => rfl

/-- Whatever the point, the invariant holds the accumulator at something. -/
theorem PhiAcc_any (c : Dev nD) (n : ℕ) (h : n ≤ cfg1.N) :
    PhiAcc V c n h ⊢ iprop(bystanders (F := F) c ∗ (∃ d, owns (c : Thread nD τ) accM fullShare d) ∗ (∃ r, prngReg c r)) := by
  cases n with
  | zero => exact PhiA_open c
  | succ n =>
    rw [PhiAcc_succ]
    iintro ⟨Hb, HS, Hg⟩
    isplitl [Hb]; · iexact Hb
    isplitl [HS]; · iexists _; iexact HS
    iexact Hg

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (lhsM t) fullShare ((dat1 V c).before 0 t d))
    ∗ (∃ d, owns (c : Thread nD τ) (rhsM t) fullShare ((dat1 V c).before 1 t d))
    ∗ (∃ d, owns (c : Thread nD τ) (outM t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1600000 in
/-- The body at any point. The inputs' memrefs hold their blocks; `t % 4` says which of the three runs applies; the
    invariant hands the run the accumulator (at anything where a row tile begins, at what the point before left
    elsewhere) and takes it back one step further, which is the recurrence's value at `t`; the output block is
    handed back untouched short of a row tile's end, and there holds the accumulator's value. -/
theorem sound_body1 (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiAcc V c (t.val + 1) t.isLt from rfl, PhiAcc_succ, Phi_castSucc]
  rw [show (dat1 V c).leavesExact 0 t = owns (c : Thread nD τ) (lhsM t) fullShare ((dat1 V c).after 0 t) from by
    unfold Dat.leavesExact; rw [lhs_live], after1_0]
  rw [show (dat1 V c).leavesExact 1 t = owns (c : Thread nD τ) (rhsM t) fullShare ((dat1 V c).after 1 t) from by
    unfold Dat.leavesExact; rw [rhs_live], after1_1]
  by_cases h0 : t.val % 4 = 0
  · -- a row tile begins
    have hs : RowStart (grid1.coords t) := (rowStart_iff t).mpr h0
    have he : ¬RowEnd (grid1.coords t) := fun h => by have := (rowEnd_iff t).mp h; omega
    rw [Dat.leavesExact_idle (dat1 V c) 2 t (out_rests t he) (out_stays t he), accAt_first V c t h0]
    iintro ⟨HΦ, Ho, ⟨%d0, H0⟩, ⟨%d1, H1⟩, ⟨%d2, H2⟩⟩
    icases (PhiAcc_any V c t.val (Nat.le_of_lt t.isLt)) $$ HΦ with ⟨Hb, ⟨%s, HS⟩, Hg⟩
    iapply (run_first c (grid1.coords t) _ _ _ _ _ _ _ _ hs he (blk V c 0 t) (blk V c 1 t) ((dat1 V c).before 2 t d2) s Set.univ _)
    isplitl [H0]; · iexact H0
    isplitl [H1]; · iexact H1
    isplitl [H2]; · iexact H2
    isplitl [HS]; · iexact HS
    iintro ⟨H0, H1, H2, HS⟩
    isplitl [Hb HS Hg]
    · isplitl [Hb]; · iexact Hb
      isplitl [HS]; · iexact HS
      iexact Hg
    isplitl [Ho]; · iexact Ho
    isplitl [H0]; · iexact H0
    isplitl [H1]; · iexact H1
    iexists _; iexact H2
  · have hs : ¬RowStart (grid1.coords t) := fun h => h0 ((rowStart_iff t).mp h)
    have hz : t.val ≠ 0 := fun h => h0 (by rw [h])
    rw [PhiAcc_pos V c _ _ hz, accAt_next V c t h0]
    by_cases h3 : t.val % 4 = 3
    · -- a row tile ends
      have he : RowEnd (grid1.coords t) := (rowEnd_iff t).mpr h3
      rw [show (dat1 V c).leavesExact 2 t = owns (c : Thread nD τ) (outM t) fullShare ((dat1 V c).after 2 t) from by
        unfold Dat.leavesExact; rw [out_live t he], after1_2, accAt_next V c t h0]
      iintro ⟨⟨Hb, HS, Hg⟩, Ho, ⟨%d0, H0⟩, ⟨%d1, H1⟩, ⟨%d2, H2⟩⟩
      iapply (run_last c (grid1.coords t) _ _ _ _ _ _ _ _ hs he (blk V c 0 t) (blk V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hb HS Hg]
      · isplitl [Hb]; · iexact Hb
        isplitl [HS]; · iexact HS
        iexact Hg
      isplitl [Ho]; · iexact Ho
      isplitl [H0]; · iexact H0
      isplitl [H1]; · iexact H1
      iexact H2
    · -- in between
      have he : ¬RowEnd (grid1.coords t) := fun h => h3 ((rowEnd_iff t).mp h)
      rw [Dat.leavesExact_idle (dat1 V c) 2 t (out_rests t he) (out_stays t he)]
      iintro ⟨⟨Hb, HS, Hg⟩, Ho, ⟨%d0, H0⟩, ⟨%d1, H1⟩, ⟨%d2, H2⟩⟩
      iapply (run_middle c (grid1.coords t) _ _ _ _ _ _ _ _ hs he (blk V c 0 t) (blk V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hb HS Hg]
      · isplitl [Hb]; · iexact Hb
        isplitl [HS]; · iexact HS
        iexact Hg
      isplitl [Ho]; · iexact Ho
      isplitl [H0]; · iexact H0
      isplitl [H1]; · iexact H1
      iexists _; iexact H2

/-- The body at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem phi1_first (c : Dev nD) : (Pipeline.ΦA spec1 c : sProp 𝕄) ⊢ (dat1 V c).Φ 0 := by
  rw [show (dat1 V c).Φ 0 = PhiAcc V c 0 (Nat.zero_le _) from rfl, PhiAcc_zero V c 0 _ rfl]

/-- After the last point the invariant gives it back: what the accumulator holds is forgotten. -/
theorem phi1_last (c : Dev nD) : (dat1 V c).Φ (Fin.last cfg1.N) ⊢ (Pipeline.ΦA spec1 c : sProp 𝕄) := by
  rw [show (dat1 V c).Φ (Fin.last cfg1.N) = PhiAcc V c (Fin.last cfg1.N).val (Nat.le_of_lt_succ (Fin.last cfg1.N).isLt) from rfl]
  exact (PhiAcc_any V c _ _).trans (PhiA_close c)

end Cert.Kernel.Mm

end
-- ==== Proof.K.Run.lean ====
import proofs.«429181_j20521353740426_3_alg».proof.Proof.K.Edge
import proofs.«429181_j20521353740426_3_alg».proof.Proof.K.Mm
import proofs.«429181_j20521353740426_3_alg».proof.Proof.Gen.Kernel.Regions

/-! # The whole run: two kernels between stretches of host operations

The program is six items in a row. Three host stretches gather the node features by the edges' endpoints and
lay the parameters out; the edge kernel turns them into one gate per edge; a fourth host stretch scatters the
gates into the square adjacency and casts the operands; the matmul kernel multiplies the adjacency by the
feature table. Between two items a core holds every buffer that lives across kernels, whole, at contents
that are a function of the launch memory alone.

This module names those contents at the two places where a kernel writes. The edge kernel changes one
buffer, the gates'; the matmul changes one buffer, the product's. What each leaves there is the last
state of its pipeline's output array: the entry contents with every block's write-back folded in, in grid
order. Everything else a kernel touches is an input window, which the pipeline only reads, or a buffer
that bypasses the kernel. With the contents named, each kernel becomes a step from "every buffer at the
contents before it" to "every buffer at the contents after it", and the six steps compose into the run. -/

set_option maxRecDepth 16384

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two kernels leave

The contents after the edge kernel do not depend on anything the matmul does, and the matmul's entry contents
read the edge kernel's result only through the gates' buffer. So the edge kernel's result is written first, the
matmul's entry contents over it, and the matmul's result over those. -/

/-- The buffers as the edge kernel finds them: the launch memory after the three leading host stretches. -/
abbrev entry0 (c : Dev nD) (b : Ref sig .tc) : Buf (Elt F) ((c : Thread nD τ).loc b) := Gen.V3 m c b

/-- Every buffer when the edge kernel returns: each of its eight arrays after the write-backs of all 256 blocks,
    every other buffer as it was entered. -/
def afterEdge (c : Dev nD) : Valuation τ sig (Elt F) :=
  Pipeline.withArrays spec0 c (Gen.V3 m c) fun w => (Edge.dat0 (entry0 m) c).arrAt w cfg0.N

/-- The kernels' results with only the edge kernel's recorded, at every item. -/
def edgeOnly : Gen.Outs (F := F) := fun _ r c => afterEdge m c r

/-- The buffers as the matmul finds them, written over the edge kernel's result alone: that result after the
    scattering host stretch. -/
abbrev entryMid (c : Dev nD) (b : Ref sig .tc) : Buf (Elt F) ((c : Thread nD τ).loc b) := Gen.V5 m (edgeOnly m) c b

/-- Every buffer when the matmul returns: each of its three arrays after the write-backs of all 16 grid points,
    every other buffer as it was entered. -/
def afterMm (c : Dev nD) : Valuation τ sig (Elt F) :=
  Pipeline.withArrays spec1 c (Gen.V5 m (edgeOnly m) c) fun w => (Mm.dat1 (entryMid m) c).arrAt w cfg1.N

/-- What the kernels leave: after the sixth item the matmul's result, before it the edge kernel's. -/
def outs : Gen.Outs (F := F)
  | 6, r, c => afterMm m c r
  | _, r, c => afterEdge m c r

/-- The buffers as the matmul finds them: the edge kernel's result after the scattering host stretch. -/
abbrev entry1 (c : Dev nD) (b : Ref sig .tc) : Buf (Elt F) ((c : Thread nD τ).loc b) := Gen.V5 m (outs m) c b

/-- The matmul's entry contents see the kernels' results only at the gates' buffer after the fourth item, where
    both records agree. -/
theorem entry1_edgeOnly : entry1 m = entryMid m := rfl

/-- Behind each of the edge kernel's arrays its result holds that array's last state. -/
theorem afterEdge_arr (c : Dev nD) (w : Fin cfg0.W) :
    afterEdge m c (Proc.devRef .tc (Pipeline.arrRef spec0 w)) = (Edge.dat0 (entry0 m) c).arrAt w cfg0.N := by
  unfold afterEdge; exact Pipeline.withArrays_arr spec0 launch0.win.arr_inj c _ _ w

/-- Behind each of the matmul's arrays its result holds that array's last state. -/
theorem afterMm_arr (c : Dev nD) (w : Fin cfg1.W) :
    afterMm m c (Proc.devRef .tc (Pipeline.arrRef spec1 w)) = (Mm.dat1 (entryMid m) c).arrAt w cfg1.N := by
  unfold afterMm; exact Pipeline.withArrays_arr spec1 launch1.win.arr_inj c _ _ w

/-- Right after the edge kernel the gates' buffer holds the pipeline's last state of the eighth array. -/
theorem entry1_g (c : Dev nD) : Gen.V4 m (outs m) c main_v40 = (Edge.dat0 (entry0 m) c).arrAt 7 cfg0.N :=
  (Function.update_self _ _ _).trans
    ((show outs m 4 main_v40 c = afterEdge m c main_v40 from rfl).trans (afterEdge_arr m c 7))

/-- Neither the scattering stretch nor the matmul writes the gates' buffer: it ends as the edge kernel left it. -/
theorem left_g (c : Dev nD) : Gen.V6 m (outs m) c main_v40 = (Edge.dat0 (entry0 m) c).arrAt 7 cfg0.N :=
  (Gen.V6_of m (outs m) c main_v40 (by decide)).trans <|
    (Gen.V5_of m (outs m) c main_v40 (by decide)).trans (entry1_g m c)

/-- The product's buffer ends holding the pipeline's last state of the matmul's third array. -/
theorem left_o (c : Dev nD) : Gen.V6 m (outs m) c main_v58 = (Mm.dat1 (entry1 m) c).arrAt 2 cfg1.N := by
  rw [entry1_edgeOnly]
  exact (Function.update_self _ _ _).trans
    ((show outs m 6 main_v58 c = afterMm m c main_v58 from rfl).trans (afterMm_arr m c 2))

/-! ### The arrays at a kernel's exit, and the bystanders

Seven of the edge kernel's windows and two of the matmul's are inputs: the pipeline never writes their arrays,
so their last state is their first. None of them lies on the kernel's output buffer. -/

theorem edge_inputs : ∀ w : Fin 8, w ≠ 7 →
    (cfg0.win w).isOut = false ∧ Pipeline.arrRef spec0 w ∉ ([main_v40] : List (Ref sig .tc)) := by decide

theorem mm_inputs : ∀ w : Fin 3, w ≠ 2 →
    (cfg1.win w).isOut = false ∧ Pipeline.arrRef spec1 w ∉ ([main_v58] : List (Ref sig .tc)) := by decide

/-- Each array of the edge kernel ends at what the contents after it say of the buffer behind it. -/
theorem edge_arrays (c : Dev nD) (w : Fin cfg0.W) :
    (Edge.dat0 (entry0 m) c).arrAt w cfg0.N = Gen.V4 m (outs m) c (Pipeline.arrRef spec0 w) := by
  by_cases hw : w = 7
  · subst hw; exact (entry1_g m c).symm
  · obtain ⟨hin, hne⟩ := edge_inputs w hw
    rw [Gen.V4_of m (outs m) c _ hne]
    exact ((Edge.dat0 (entry0 m) c).arrAt_in w hin _).trans (Edge.A_eq0 (entry0 m) c w)

/-- A buffer behind none of the edge kernel's arrays is not the gates' buffer, so it keeps its contents. -/
theorem edge_bystander (c : Dev nD) (b : Ref sig .tc) (hb : b ∉ Finset.univ.image (Pipeline.arrRef spec0)) :
    Gen.V4 m (outs m) c b = Gen.V3 m c b :=
  Gen.V4_of m (outs m) c b fun h =>
    hb (Finset.mem_image.mpr ⟨7, Finset.mem_univ _, (List.mem_singleton.mp h).symm⟩)

/-- Each array of the matmul ends at what the last contents say of the buffer behind it. -/
theorem mm_arrays (c : Dev nD) (w : Fin cfg1.W) :
    (Mm.dat1 (entry1 m) c).arrAt w cfg1.N = Gen.V6 m (outs m) c (Pipeline.arrRef spec1 w) := by
  by_cases hw : w = 2
  · subst hw; exact (left_o m c).symm
  · obtain ⟨hin, hne⟩ := mm_inputs w hw
    rw [Gen.V6_of m (outs m) c _ hne]
    exact ((Mm.dat1 (entry1 m) c).arrAt_in w hin _).trans (Mm.A_eq1 (entry1 m) c w)

/-- A buffer behind none of the matmul's arrays is not the product's buffer, so it keeps its contents. -/
theorem mm_bystander (c : Dev nD) (b : Ref sig .tc) (hb : b ∉ Finset.univ.image (Pipeline.arrRef spec1)) :
    Gen.V6 m (outs m) c b = Gen.V5 m (outs m) c b :=
  Gen.V6_of m (outs m) c b fun h =>
    hb (Finset.mem_image.mpr ⟨2, Finset.mem_univ _, (List.mem_singleton.mp h).symm⟩)

/-! ## What rides beside the buffers

No core ever owes another a unit, and no semaphore level is assigned. Beside its buffers a core carries only
its generator register, at a state nobody tracks, and the record that it owes nothing. A kernel takes the
register into its invariant and gives it back; the record passes by. -/

/-- Both pipelines' proof data, each at the contents its kernel is entered at. -/
def pdats : (p : Fin 2) → (c : Dev nD) → Dat τ (Elt F) Unit ℕ (UR sig nD τ) ℕ (cfgs p) c
  | ⟨0, _⟩ => fun c => Edge.dat0 (entry0 m) c
  | ⟨1, _⟩ => fun c => Mm.dat1 (entry1 m) c

abbrev noPairs : GSem nD τ sig → Finset Unit := fun _ => ∅
abbrev noLevel : GSem nD τ sig → Unit → ℕ := fun _ _ => 0

/-- The generator register at some state, and nothing owed. -/
abbrev rest (c : Dev nD) : sProp 𝕄 :=
  iprop((∃ r, prngReg c r) ∗ ∃ W, owes (c : Thread nD τ) (0 : CellTallies nD τ sig Unit) W)

theorem rest_owes (c : Dev nD) :
    rest (F := F) c ⊢ (iprop(∃ W, owes (c : Thread nD τ) (0 : CellTallies nD τ sig Unit) W) : sProp 𝕄) := by
  iintro ⟨-, H⟩; iexact H

/-- Owing nothing with some recorded pairs is owing nothing within any bound that admits every pair. -/
theorem owing_in (c : Dev nD) {B : Set (SemLoc sig × Unit)} (hB : ∀ x, x ∈ B) :
    (iprop(∃ W, owes (c : Thread nD τ) (0 : CellTallies nD τ sig Unit) W) : sProp 𝕄) ⊢ Pipeline.owesWithin c 0 B := by
  iintro ⟨%W, H⟩; iexists W; isplitr; · ipureintro; exact fun x _ => hB x
  iexact H

/-- And the bound is forgotten on the way out. -/
theorem owing_out (c : Dev nD) {B : Set (SemLoc sig × Unit)} :
    (Pipeline.owesWithin c 0 B : sProp 𝕄) ⊢ iprop(∃ W, owes (c : Thread nD τ) (0 : CellTallies nD τ sig Unit) W) := by
  iintro ⟨%W, -, H⟩; iexists W; iexact H

/-- ENTERING a kernel. The buffers split into the kernel's arrays and the bystanders; there is no prefetched
    table; the record of owing nothing is put within the pipeline's bound; the register goes to the invariant. -/
theorem enter (c : Dev nD) {H A T O Z S R : sProp 𝕄}
    (hsplit : H ⊢ iprop(A ∗ Z)) (htab : (BI.emp : sProp 𝕄) ⊢ T)
    (howe : (iprop(∃ W, owes (c : Thread nD τ) (0 : CellTallies nD τ sig Unit) W) : sProp 𝕄) ⊢ O) :
    (iprop((H ∗ rest c) ∗ S ∗ R) : sProp 𝕄) ⊢ |={Set.univ}=> iprop(A ∗ T ∗ O ∗ (∃ r, prngReg c r) ∗ Z) := by
  iintro ⟨⟨Hb, Hg, Ho⟩, -, -⟩
  ihave Hs := hsplit $$ Hb
  icases Hs with ⟨Ha, Hz⟩
  imodintro
  isplitl [Ha]; · iexact Ha
  isplitr; · iapply htab; iempintro
  isplitl [Ho]; · iapply howe; iexact Ho
  isplitl [Hg]; · iexact Hg
  iexact Hz

/-- LEAVING a kernel. The arrays at their last state and the bystanders join into the buffers at the contents
    after the kernel; the register and the record come back beside them. -/
theorem leave (c : Dev nD) {A O Z H : sProp 𝕄} (hjoin : iprop(A ∗ Z) ⊢ H)
    (howe : O ⊢ (iprop(∃ W, owes (c : Thread nD τ) (0 : CellTallies nD τ sig Unit) W) : sProp 𝕄)) :
    (iprop(A ∗ O ∗ (∃ r, prngReg c r) ∗ Z) : sProp 𝕄) ⊢ |={Set.univ}=> iprop(H ∗ rest c) := by
  iintro ⟨Ha, Ho, Hg, Hz⟩
  imodintro
  isplitl [Ha Hz]
  · iapply hjoin; isplitl [Ha] <;> iassumption
  isplitl [Hg]; · iexact Hg
  iapply howe; iexact Ho

/-- The register, beside the scratch buffers no window stages, is the plain region invariant. -/
theorem into_plain {gr W : Nat} (spec : Fin W → Pipeline.WinSpec sig gr) (c : Dev nD) {T : sProp 𝕄} :
    (iprop((∃ r, prngReg c r) ∗ T ∗ Pipeline.scopedRest spec c) : sProp 𝕄) ⊢ Pipeline.ΦA spec c := by
  unfold Pipeline.ΦA
  iintro ⟨Hg, -, Hs⟩
  isplitl [Hs]; · iexact Hs
  iexact Hg

/-- And the plain region invariant gives both back. -/
theorem out_of_plain {gr W : Nat} (spec : Fin W → Pipeline.WinSpec sig gr) (c : Dev nD) :
    (Pipeline.ΦA spec c : sProp 𝕄) ⊢ iprop((∃ r, prngReg c r) ∗ BI.emp ∗ Pipeline.scopedRest spec c) := by
  unfold Pipeline.ΦA
  iintro ⟨Hs, Hg⟩
  isplitl [Hg]; · iexact Hg
  isplitr; · iempintro
  iexact Hs

/-! ## The two kernels as steps of the run -/

set_option backward.isDefEq.respectTransparency.types false in
/-- THE EDGE KERNEL: from every buffer at the contents after the third host stretch to every buffer at the
    same contents with the gates' buffer at the eighth array's last state. Its invariant is the plain one at
    both ends; it has no semaphore of its own. -/
def edgeSeg : RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (Edge.body_obligation0 (entry0 m) c).loose
  hwaits := Pipeline.hwaits_of_owed_zero _ _ _ _ noPairs noLevel 0 fun _ _ => rfl
  pre c := iprop(StableHlo.held (c : Thread nD τ) (Pipeline.ucRefs τ sig) (Gen.V3 m c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    have hsplit := Pipeline.arrays_of_unscopedBufs (p := 0) (pcfgs (F := F)) adm (pdats m) launch0.win launch0.arr_whole c
      ((pdats m 0 c).share_full fun _ => rfl) (entry0 m c) fun w => Edge.A_eq0 (entry0 m) c w
    rw [Pipeline.unscopedBufs_held] at hsplit
    have htab : (BI.emp : sProp 𝕄) ⊢ Pipeline.prefHeld (pcfgs (F := F) 0).pre c (fun _ => fullShare) (adm (F := F) 0).1 := by
      unfold Pipeline.prefHeld; rw [show (Finset.univ : Finset (Fin 0)) = ∅ from rfl, BI.bigSep_empty]
    exact enter c hsplit htab (owing_in c fun _ => Or.inl trivial)
  hin c := into_plain spec0 c
  hout c := by rw [Pipeline.ownSems0_none]; exact out_of_plain spec0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => Gen.V4 m (outs m) c b) ((pdats m 0 c).arrAt · cfg0.N) (edge_arrays m c) (edge_bystander m c)
    rw [Pipeline.unscopedBufs_held] at hjoin
    exact leave c hjoin (owing_out c)

set_option backward.isDefEq.respectTransparency.types false in
/-- THE MATMUL: from every buffer at the contents after the scattering host stretch to every buffer at the same
    contents with the product's buffer at the third array's last state. Its invariant tracks the accumulator;
    at the first and at the last point it is the plain one again, which is all this step needs of it. -/
def mmSeg : RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (Mm.body_obligation1 (entry1 m) c).loose
  hwaits := Pipeline.hwaits_of_owed_zero _ _ _ _ noPairs noLevel 1 fun _ _ => rfl
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    have hsplit := Pipeline.arrays_of_unscopedBufs (p := 1) (pcfgs (F := F)) adm (pdats m) launch1.win launch1.arr_whole c
      ((pdats m 1 c).share_full fun _ => rfl) (entry1 m c) fun w => Mm.A_eq1 (entry1 m) c w
    rw [Pipeline.unscopedBufs_held] at hsplit
    have htab : (BI.emp : sProp 𝕄) ⊢ Pipeline.prefHeld (pcfgs (F := F) 1).pre c (fun _ => fullShare) (adm (F := F) 1).1 := by
      unfold Pipeline.prefHeld; rw [show (Finset.univ : Finset (Fin 0)) = ∅ from rfl, BI.bigSep_empty]
    exact enter c hsplit htab (owing_in c fun _ => Or.inl trivial)
  hin c := (into_plain spec1 c).trans (Mm.phi1_first (entry1 m) c)
  hout c := by rw [Pipeline.ownSems0_none]; exact (Mm.phi1_last (entry1 m) c).trans (out_of_plain spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => Gen.V6 m (outs m) c b) ((pdats m 1 c).arrAt · cfg1.N) (mm_arrays m c) (mm_bystander m c)
    rw [Pipeline.unscopedBufs_held] at hjoin
    exact leave c hjoin (owing_out c)

/-! ## The run -/

/-- The six items on core `c`: the four host stretches each from the contents before it, the two kernels' steps. -/
abbrev items (c : Dev nD) : List (Seg (pcfgs (F := F)) adm (pdats m) () defs₀ Variants.none noPairs noLevel) :=
  Gen.segs m (outs m) Variants.none noPairs noLevel (fun _ c => rest c) () (pdats m) (edgeSeg m) (mmSeg m) c

/-- The program is its six items run in order. -/
theorem main_items (c : Dev nD) : main (F := F) c = Seg.run (items m c) := by
  rewrite [main_chain c, Seg.run_eq_chain]; rfl

/-- A buffer that lives across kernels is among those a core holds between items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The ghost state the launch starts from: the pipelines' cells and their launch tokens. -/
abbrev seed := initOf (Pipeline.cells (nD := nD) (τ := τ) cfgs cellOf_inj) (Pipeline.launchToks cfgs cellOf_inj)

set_option backward.isDefEq.respectTransparency.types false in
/-- THE RUN, at any property of the final memory that follows from "every buffer that lives across kernels
    holds the last contents": every fair execution from memory `m` with zero counters terminates in such a
    memory. The launch deals each core its buffers at the launch contents, its register and an empty debt; the
    six items chain with nothing to prove between them; the last contents are read off the final state. -/
theorem ends {Q : PUnit × MemSt nD τ sig (Elt F) → Prop}
    (hQ : ∀ s : MemSt nD τ sig (Elt F),
      (∀ c : Dev nD, ∀ b ∈ Pipeline.ucRefs τ sig, s.mem ((c : Thread nD τ).1, b) = Gen.V6 m (outs m) c b) → Q (⟨⟩, s)) :
    θ_run defs (onTc (τ := τ) (main (F := F))) ⟨m, fun _ => 0, ρ⟩ Q :=
  Pipeline.θ_run_regions_kit_dev (pcfgs (F := F)) adm (pdats m) () cellOf_inj emb₁ defs₀ Variants.none noPairs noLevel m ρ main
    (items m)
    (fun c Q => by rw [main_items m c])
    (fun c => by simp only [items, Gen.segs, Seg.pipes_host, Seg.pipes_region, Seg.pipes_nil]; decide)
    (O₀ := 0) (hL := fun _ _ => rfl) (G := fun _ => iprop(emp)) (u₀ := seed)
    (hu₀ := by
      iintro Hu; imodintro
      isplitl [Hu]
      · iapply (show (ownU seed : sProp 𝕄) ⊢ BI.own (emb₁ seed) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V6 m (outs m) c))
    (hch := fun c => ⟨.rfl, .rfl, .rfl, .rfl, .rfl, .rfl, sep_mono .rfl (rest_owes c)⟩)
    (hinit := by
      refine Pipeline.initEach noPairs noLevel fun c => ?_
      rw [show unscopedBufs c (fun b => m ((c : Thread nD τ).loc b))
          = StableHlo.held (c : Thread nD τ) (Pipeline.ucRefs τ sig) (Gen.V0 m c) from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V6 m (outs m) c b)
    (hfin := fun c s' => by
      unfold StableHlo.held
      iintro ⟨Hh, HSI⟩
      imodintro
      iapply (pointsTo_read_all (Pipeline.ucRefs τ sig) (fun b => ((c : Thread nD τ).1, b)) (Gen.V6 m (outs m) c) s')
      isplitl [Hh] <;> iassumption)
    (hQ := hQ)

/-- THE FRAME: every argument array ends as launched. No host stretch writes an argument and no kernel may
    change one, so the last contents at an argument walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  ends m ρ fun s h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c)⟩

/-- THE RUN WITH ITS TWO RESULTS: besides the arguments, the product's buffer and the gates' buffer end at the
    last contents, which `left_o` and `left_g` identify with the two pipelines' last output states. -/
theorem run : θ_run defs (onTc (τ := τ) (main (F := F))) ⟨m, fun _ => 0, ρ⟩ (fun r => ∀ c : Dev nD,
      r.2.mem ((c.tc : Thread nD τ).loc main_v58) = Gen.V6 m (outs m) c main_v58
      ∧ r.2.mem ((c.tc : Thread nD τ).loc main_v40) = Gen.V6 m (outs m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  ends m ρ fun s h c =>
    ⟨h c _ (mem_uc main_v58 (by decide)), h c _ (mem_uc main_v40 (by decide)),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c)⟩

end Cert.Kernel.Whole

end
-- ==== Proof.KI.Edge.lean ====
import proofs.«429181_j20521353740426_3_alg».proof.Proof.Gen.KernelIdeal.Launch
import proofs.«429181_j20521353740426_3_alg».proof.Proof.Gen.KernelIdeal.Skeleton
import proofs.«429181_j20521353740426_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the edge kernel on one block of 1024 edges

The first pallas_call walks 256 blocks of 1024 edges. At each block it is handed seven staging buffers — the
subject rows and the object rows of the block (1024 × 256 each), the block's 1024 normalisations, and the layer
norm's scale, its shift, the gate's weights (1 × 512 each) and the gate's bias (1 × 1), the last four the same at
every block — and one output buffer of 1024 gates. The body reads each input buffer whole, once, and writes the
output buffer whole, once: so the output block is a function of the seven input blocks alone, and every input
buffer is left as it was found. This module states that function, the proof data of the pipeline built on it, and
the body's obligation at every block. -/

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when region 0 is entered
variable (V : (c : Dev nD) → (b : Ref sig .tc) → Buf (Elt F) ((c : Thread nD τ).loc b))

/-! ## The blocks -/

/-- Window `w`'s block of its array at grid point `t`, the array read as region 0 finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-buffer rectangles

Every access of the body is to a whole staging buffer: the rectangle at offset zero with the buffer's own sizes.
One per buffer shape. -/

/-- A block of 1024 rows of 256 features, whole. -/
abbrev rRows : Rect S1024x256 := Rect.unit (s := S1024x256) ![0, 0] S1024x256.size inb_S1024x256_S1024x256_0_0
/-- A block of 1024 per-edge scalars, whole. -/
abbrev rEdges : Rect S1024 := Rect.unit (s := S1024) ![0] S1024.size inb_S1024_S1024_0
/-- A row of 512 per-feature parameters, whole. -/
abbrev rFeat : Rect S1x512 := Rect.unit (s := S1x512) ![0, 0] S1x512.size inb_S1x512_S1x512_0_0
/-- The single bias, whole. -/
abbrev rOne : Rect S1x1 := Rect.unit (s := S1x1) ![0, 0] S1x1.size inb_S1x1_S1x1_0_0

theorem zeros1 : (![0] : Fin 1 → Nat) = fun _ => 0 := funext fun a => by fin_cases a; rfl
theorem zeros2 : (![0, 0] : Fin 2 → Nat) = fun _ => 0 := funext fun a => by fin_cases a <;> rfl

/-! ## What the body leaves in the output buffer -/

/-- The gates of one block of edges as the body's single store leaves them in the output buffer: the store's
    payload — the gate's pre-activation `k0_pay2` of the subject rows, the object rows, the scale, the shift and the
    weights, then `k0_pay1` of that, the bias and the normalisations — over whole-buffer loads, written through the
    whole-buffer rectangle. -/
def edgeOut (x0 x1 : Vec F S1024x256 .f32) (x2 : Vec F S1024 .f32) (x3 x4 x5 : Vec F S1x512 .f32) (x6 : Vec F S1x1 .f32) :
    Vec F S1024 .f32 :=
  View.canon [⟨rEdges,
    k0_pay1 (k0_pay2 (View.ld x0 rRows) (View.ld x1 rRows) (View.ld x3 rFeat) (View.ld x4 rFeat) (View.ld x5 rFeat))
      (View.ld x6 rOne) (View.ld x2 rEdges)⟩]

/-- A whole-buffer load reads the buffer and one whole-buffer store leaves its payload: the output block is the
    payload of the input blocks themselves. -/
theorem edgeOut_eq (x0 x1 : Vec F S1024x256 .f32) (x2 : Vec F S1024 .f32) (x3 x4 x5 : Vec F S1x512 .f32) (x6 : Vec F S1x1 .f32) :
    edgeOut x0 x1 x2 x3 x4 x5 x6 = k0_pay1 (k0_pay2 x0 x1 x3 x4 x5) x6 x2 := by
  unfold edgeOut
  rw [View.canon_unit_zero (S := S1024) zeros1 inb_S1024_S1024_0]
  simp only [View.ld_unit_zero (S := S1024x256) zeros2 inb_S1024x256_S1024x256_0_0,
    View.ld_unit_zero (S := S1024) zeros1 inb_S1024_S1024_0,
    View.ld_unit_zero (S := S1x512) zeros2 inb_S1x512_S1x512_0_0,
    View.ld_unit_zero (S := S1x1) zeros2 inb_S1x1_S1x1_0_0]

/-! ## The pipeline's proof data -/

/-- The proof data of region 0 on core `c`. The arrays are as the region finds them; after the body at block `t`
    every input buffer still holds its block and the output buffer holds `edgeOut` of the seven input blocks; the
    invariant is the untouched rest; full shares; nothing owed. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => edgeOut (blk V c 0 t) (blk V c 1 t) (blk V c 2 t) (blk V c 3 t) (blk V c 4 t) (blk V c 5 t) (blk V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = blk V c 2 t := by dsimp only [dat0]
theorem after0_3 (c : Dev nD) (t : Fin cfg0.N) : (dat0 V c).after 3 t = blk V c 3 t := by dsimp only [dat0]
theorem after0_4 (c : Dev nD) (t : Fin cfg0.N) : (dat0 V c).after 4 t = blk V c 4 t := by dsimp only [dat0]
theorem after0_5 (c : Dev nD) (t : Fin cfg0.N) : (dat0 V c).after 5 t = blk V c 5 t := by dsimp only [dat0]
theorem after0_6 (c : Dev nD) (t : Fin cfg0.N) : (dat0 V c).after 6 t = blk V c 6 t := by dsimp only [dat0]
theorem after0_7 (c : Dev nD) (t : Fin cfg0.N) :
    (dat0 V c).after 7 t
      = edgeOut (blk V c 0 t) (blk V c 1 t) (blk V c 2 t) (blk V c 3 t) (blk V c 4 t) (blk V c 5 t) (blk V c 6 t) := by
  dsimp only [dat0]

/-! ## Every input buffer holds its block when the body runs

The two row blocks and the normalisations are fetched afresh at every block of edges; the four parameter arrays
are fetched at the first block only, and since their block index never moves and the body leaves them in place,
they still hold the same block at every later point. Either way the buffer the body is handed holds the window's
block of its array. -/

theorem held0_0 (c : Dev nD) (t : Fin cfg0.N) (d) : (dat0 V c).before 0 t d = blk V c 0 t :=
  ((dat0 V c).before_in_eq_fetched 0 rfl (fun _ => rfl) (fun _ _ _ => rfl)
    (fun t => by rw [after0_0]; unfold Dat.blockOf blk; rw [A_eq0]; try rfl) t d).trans
    (by unfold Dat.fetched Dat.blockOf blk; rw [A_eq0]; try rfl)
theorem held0_1 (c : Dev nD) (t : Fin cfg0.N) (d) : (dat0 V c).before 1 t d = blk V c 1 t :=
  ((dat0 V c).before_in_eq_fetched 1 rfl (fun _ => rfl) (fun _ _ _ => rfl)
    (fun t => by rw [after0_1]; unfold Dat.blockOf blk; rw [A_eq0]; try rfl) t d).trans
    (by unfold Dat.fetched Dat.blockOf blk; rw [A_eq0]; try rfl)
theorem held0_2 (c : Dev nD) (t : Fin cfg0.N) (d) : (dat0 V c).before 2 t d = blk V c 2 t :=
  ((dat0 V c).before_in_eq_fetched 2 rfl (fun _ => rfl) (fun _ _ _ => rfl)
    (fun t => by rw [after0_2]; unfold Dat.blockOf blk; rw [A_eq0]; try rfl) t d).trans
    (by unfold Dat.fetched Dat.blockOf blk; rw [A_eq0]; try rfl)
theorem held0_3 (c : Dev nD) (t : Fin cfg0.N) (d) : (dat0 V c).before 3 t d = blk V c 3 t :=
  ((dat0 V c).before_in_eq_fetched 3 rfl (fun _ => rfl) (fun _ _ _ => rfl)
    (fun t => by rw [after0_3]; unfold Dat.blockOf blk; rw [A_eq0]; try rfl) t d).trans
    (by unfold Dat.fetched Dat.blockOf blk; rw [A_eq0]; try rfl)
theorem held0_4 (c : Dev nD) (t : Fin cfg0.N) (d) : (dat0 V c).before 4 t d = blk V c 4 t :=
  ((dat0 V c).before_in_eq_fetched 4 rfl (fun _ => rfl) (fun _ _ _ => rfl)
    (fun t => by rw [after0_4]; unfold Dat.blockOf blk; rw [A_eq0]; try rfl) t d).trans
    (by unfold Dat.fetched Dat.blockOf blk; rw [A_eq0]; try rfl)
theorem held0_5 (c : Dev nD) (t : Fin cfg0.N) (d) : (dat0 V c).before 5 t d = blk V c 5 t :=
  ((dat0 V c).before_in_eq_fetched 5 rfl (fun _ => rfl) (fun _ _ _ => rfl)
    (fun t => by rw [after0_5]; unfold Dat.blockOf blk; rw [A_eq0]; try rfl) t d).trans
    (by unfold Dat.fetched Dat.blockOf blk; rw [A_eq0]; try rfl)
theorem held0_6 (c : Dev nD) (t : Fin cfg0.N) (d) : (dat0 V c).before 6 t d = blk V c 6 t :=
  ((dat0 V c).before_in_eq_fetched 6 rfl (fun _ => rfl) (fun _ _ _ => rfl)
    (fun t => by rw [after0_6]; unfold Dat.blockOf blk; rw [A_eq0]; try rfl) t d).trans
    (by unfold Dat.fetched Dat.blockOf blk; rw [A_eq0]; try rfl)

/-! ## The body's triple

On eight whole staging buffers — the seven inputs reading `x0 … x6`, the output at anything — the body runs to a
state in which the inputs read as before and the output reads `edgeOut x0 … x6`. The printed function is its
skeleton: six whole-buffer loads in the first part, a load of the normalisations, a load of the output buffer
whose value nothing uses, and one whole-buffer store of the payload. -/

/-- The one store covers the output buffer. -/
theorem store_covers (p : Vec F S1024 .f32) (y : S1024.Idx) :
    ∃ pc ∈ ([⟨rEdges, p⟩] : List (View.Piece (Elt F) S1024 .f32)), y ∈ pc.1.set :=
  ⟨_, List.mem_singleton_self _, View.mem_set_unit_zero (S := S1024) zeros1 inb_S1024_S1024_0 y⟩

set_option maxHeartbeats 1000000 in
theorem edge_kernel_runs (c : Dev nD) (E : Set ℕ) (i : grid0.Coords)
    (a0 : Memref sig .tc .vmem S1024x256 .f32) (h0 : a0.IsWhole) (a1 : Memref sig .tc .vmem S1024x256 .f32) (h1 : a1.IsWhole)
    (a2 : Memref sig .tc .vmem S1024 .f32) (h2 : a2.IsWhole) (a3 : Memref sig .tc .vmem S1x512 .f32) (h3 : a3.IsWhole)
    (a4 : Memref sig .tc .vmem S1x512 .f32) (h4 : a4.IsWhole) (a5 : Memref sig .tc .vmem S1x512 .f32) (h5 : a5.IsWhole)
    (a6 : Memref sig .tc .vmem S1x1 .f32) (h6 : a6.IsWhole) (a7 : Memref sig .tc .vmem S1024 .f32) (h7 : a7.IsWhole)
    (x0 x1 : Vec F S1024x256 .f32) (x2 : Vec F S1024 .f32) (x3 x4 x5 : Vec F S1x512 .f32) (x6 : Vec F S1x1 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare (edgeOut x0 x1 x2 x3 x4 x5 x6)) -∗ K ⟨⟩))
      ⊢ wp frame (wpE (defs₀ (F := F)) Variants.none c none) E (cc0__edge_kernel i a0 h0 a1 h1 a2 h2 a3 h3 a4 h4 a5 h5 a6 h6 a7 h7) K := by
  simp only [cc0__edge_kernel_eq_skeleton]; unfold cc0__edge_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, Hk⟩
  subst e0 e1 e2 e3 e4 e5 e6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (store_covers _)

/-! ## The body's obligation at every block of edges -/

/-- At block `t` the pipeline hands the body the invariant, what the core owes, and the eight current staging
    buffers, each input's holding its block; `edge_kernel_runs` on those blocks gives them back with the output
    buffer at `edgeOut` of the blocks, which is what the proof data says the body leaves. The invariant and the
    owed tallies are the same before and after, and pass through unread. -/
theorem at_block (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d))
        ∗ (∃ d, owns (c : Thread nD τ) (st0_7 t) fullShare ((dat0 V c).before 7 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ owns (c : Thread nD τ) (st0_6 t) fullShare ((dat0 V c).after 6 t)
            ∗ owns (c : Thread nD τ) (st0_7 t) fullShare ((dat0 V c).after 7 t))) := by
  unfold bodyAt0
  simp only [held0_0, held0_1, held0_2, held0_3, held0_4, held0_5, held0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge_kernel_runs c Set.univ _ _ _ _ _ _ _ _ _ _ _ _ _ _ _ _ _
    (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation: the eight windows written out, then `at_block` at each point. -/
theorem body_obligation0 (c : Dev nD) : BodyObligation (dat0 (F := F) V c) (defs₀ (F := F)) Variants.none () Set.univ := fun t => by
  rw [bigSep_W0, bigSep_W0]
  exact at_block V c t

end Cert.KernelIdeal.Edge

end
-- ==== Proof.KI.Mm.lean ====
import proofs.«429181_j20521353740426_3_alg».proof.Proof.Gen.KernelIdeal.Launch
import proofs.«429181_j20521353740426_3_alg».proof.Proof.Gen.KernelIdeal.Skeleton
import proofs.«429181_j20521353740426_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The blocked matrix product, one grid point at a time

The second region multiplies the adjacency matrix by the node features on a 4 × 4 grid: point `4 * i + k` takes
block `(i, k)` of the matrix (2048 × 2048) and rows `2048 * k … 2048 * k + 2047` of the feature table, multiplies
them and adds the product into an accumulator of 2048 × 256 that lives beside the windows and survives from one
point to the next. At `k = 0` the accumulator is first filled with zeros; at `k = 3` it is copied, after the
addition, into the output block of row tile `i`, which is written back only there.

So the accumulator after point `t` is a recurrence over the points: one step from zero where `t % 4 = 0`, one
step from what the point before left elsewhere. This module states that recurrence (`accAt`), the three shapes
the body's run takes (first, middle and last step of a row tile), and joins them to the pipeline's obligation. -/

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks and one step of the accumulation -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 2048 rows of the feature table that reduction step `i 1` multiplies: rows `2048 * (i 1)` onwards, all 256
    columns. -/
def rhsRows (i : grid1.Coords) (b : Vec F S8192x256 .bf16) : Vec F S2048x256 .bf16 :=
  View.ld b (Rect.unit (s := S8192x256) (k1_off1 i) S2048x256.size (k1_off1_inb i))

/-- One step: the accumulator that held `s`, after the product of the matrix block `a` with the step's rows of
    the table `b` has been added to it. -/
def step (i : grid1.Coords) (a : Vec F S2048x2048 .bf16) (b : Vec F S8192x256 .bf16) (s : Vec F S2048x256 .f32) : Vec F S2048x256 .f32 :=
  k1_pay2 (rhsRows i b) s a

/-- THE RECURRENCE. What the accumulator holds after the body at point `n`: where a row tile begins (`n % 4 = 0`)
    one step from the zero fill, elsewhere one step from what point `n - 1` left. -/
def accAt (c : Dev nD) : (n : ℕ) → n < cfg1.N → Vec F S2048x256 .f32
  | 0, hn => step (grid1.coords ⟨0, hn⟩) (blk V c 0 ⟨0, hn⟩) (blk V c 1 ⟨0, hn⟩) (k1_pay1 (F := F))
  | n + 1, hn =>
    if (n + 1) % 4 = 0 then
      step (grid1.coords ⟨n + 1, hn⟩) (blk V c 0 ⟨n + 1, hn⟩) (blk V c 1 ⟨n + 1, hn⟩) (k1_pay1 (F := F))
    else
      step (grid1.coords ⟨n + 1, hn⟩) (blk V c 0 ⟨n + 1, hn⟩) (blk V c 1 ⟨n + 1, hn⟩) (accAt c n (Nat.lt_of_succ_lt hn))

/-- At the first step of a row tile the accumulator restarts from zero. -/
theorem accAt_first (c : Dev nD) (t : Fin cfg1.N) (h : t.val % 4 = 0) :
    accAt V c t.val t.isLt = step (grid1.coords t) (blk V c 0 t) (blk V c 1 t) (k1_pay1 (F := F)) := by
  obtain ⟨n, hn⟩ := t
  cases n with
  | zero => rfl
  | succ n => exact if_pos h

/-- At every other step it continues from the point before. -/
theorem accAt_next (c : Dev nD) (t : Fin cfg1.N) (h : t.val % 4 ≠ 0) :
    accAt V c t.val t.isLt = step (grid1.coords t) (blk V c 0 t) (blk V c 1 t)
      (accAt V c (t.val - 1) (Nat.lt_of_le_of_lt (Nat.sub_le _ _) t.isLt)) := by
  obtain ⟨n, hn⟩ := t
  cases n with
  | zero => exact absurd (Nat.zero_mod 4) h
  | succ n => exact if_neg h

/-! ## Where the body branches, and where the output window rests -/

/-- The body's first branch is taken where the reduction index is zero: the row tile begins, the accumulator is
    zeroed. -/
abbrev RowStart (i : grid1.Coords) : Prop :=
  (Scalar.cmpi .ne (Scalar.extui (Scalar.cmpi .eq (BitVec.ofNat 32 (i 1).val) 0#32)) 0#32) = 1#1

/-- Its second branch is taken where the reduction index is three: the row tile ends, the sum is handed over. -/
abbrev RowEnd (i : grid1.Coords) : Prop := k1_cond2 i = 1#1

/-- Point `t` is `4 * i + k`, so a row tile begins where `t % 4 = 0` -/
theorem rowStart_iff : ∀ t : Fin cfg1.N, RowStart (grid1.coords t) ↔ t.val % 4 = 0 :=
  (by decide +kernel : ∀ t : Fin grid1.N, RowStart (grid1.coords t) ↔ t.val % 4 = 0)

/-- and ends where `t % 4 = 3`. -/
theorem rowEnd_iff : ∀ t : Fin cfg1.N, RowEnd (grid1.coords t) ↔ t.val % 4 = 3 :=
  (by decide +kernel : ∀ t : Fin grid1.N, RowEnd (grid1.coords t) ↔ t.val % 4 = 3)

/-- The two inputs are live at every point. -/
theorem lhs_live : ∀ i : grid1.Coords, cfg1.idle 0 i = false := fun _ => rfl
theorem rhs_live : ∀ i : grid1.Coords, cfg1.idle 1 i = false := fun _ => rfl

/-- Short of a row tile's end nothing is stored into the output block: the window rests there -/
theorem out_rests : ∀ t : Fin cfg1.N, ¬RowEnd (grid1.coords t) → cfg1.idle 2 (grid1.coords t) = true := by decide +kernel
/-- and is not written back; -/
theorem out_stays : ∀ t : Fin cfg1.N, ¬RowEnd (grid1.coords t) → (cfg1.win 2).flush t = false := by decide +kernel
/-- at the end it is live. -/
theorem out_live : ∀ t : Fin cfg1.N, RowEnd (grid1.coords t) → cfg1.idle 2 (grid1.coords t) = false := by decide +kernel

/-! ## The invariant between points -/

/-- The accumulator as the body is handed it: the kernel's own whole buffer. -/
abbrev accM : Memref sig .tc .vmem S2048x256 .f32 := Memref.whole cc1_scratch0

/-- A scoped buffer of the core held whole at some contents. -/
abbrev held (c : Dev nD) (b : Ref sig .tc) : sProp 𝕄 :=
  iprop(∃ f : Buf (Elt F) ((c : Thread nD τ).loc b), ((c : Thread nD τ).loc b) ↦{fullShare} f)

/-- The other region's twelve staging buffers: this region's body never touches them, the invariant carries them
    along at whatever they hold. -/
def bystanders (c : Dev nD) : sProp 𝕄 :=
  iprop(held (F := F) c cc0_stg0_0 ∗ held (F := F) c cc0_stg0_1 ∗ held (F := F) c cc0_stg1_0 ∗ held (F := F) c cc0_stg1_1
    ∗ held (F := F) c cc0_stg2_0 ∗ held (F := F) c cc0_stg2_1 ∗ held (F := F) c cc0_stg3_0 ∗ held (F := F) c cc0_stg4_0
    ∗ held (F := F) c cc0_stg5_0 ∗ held (F := F) c cc0_stg6_0 ∗ held (F := F) c cc0_stg7_0 ∗ held (F := F) c cc0_stg7_1)

/-- The invariant before point `n`: before the first point what the launch hands the region (every scoped buffer
    that is no staging buffer of this region at anything, the generator register at some state); afterwards the
    same with the accumulator at what the point before left in it. -/
def PhiAcc (c : Dev nD) : (n : ℕ) → n ≤ cfg1.N → sProp 𝕄
  | 0, _ => Pipeline.ΦA spec1 c
  | n + 1, hn => iprop(bystanders (F := F) c ∗ owns (c : Thread nD τ) accM fullShare (accAt V c n hn) ∗ (∃ r, prngReg c r))

/-! ## The pipeline's proof data -/

/-- The proof data of this region on core `c`: the arrays as the region finds them; after the body each input's
    buffer still at its block and the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => accAt V c t.val t.isLt
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = accAt V c t.val t.isLt := by dsimp only [dat1]

/-- What the launch hands the region, with the accumulator named: the twelve bystanders, the accumulator at
    anything, the generator register. -/
theorem PhiA_eq (c : Dev nD) :
    (Pipeline.ΦA spec1 c : sProp 𝕄)
      = iprop((held (F := F) c cc0_stg0_0 ∗ held (F := F) c cc0_stg0_1 ∗ held (F := F) c cc0_stg1_0 ∗ held (F := F) c cc0_stg1_1
          ∗ held (F := F) c cc0_stg2_0 ∗ held (F := F) c cc0_stg2_1 ∗ held (F := F) c cc0_stg3_0 ∗ held (F := F) c cc0_stg4_0
          ∗ held (F := F) c cc0_stg5_0 ∗ held (F := F) c cc0_stg6_0 ∗ held (F := F) c cc0_stg7_0 ∗ held (F := F) c cc0_stg7_1
          ∗ (∃ d, owns (c : Thread nD τ) accM fullShare d)) ∗ (∃ r, prngReg c r)) := by
  unfold Pipeline.ΦA; rw [scopedRest1_eq]; simp only [accM, owns_whole]; try rfl

theorem PhiA_open (c : Dev nD) :
    (Pipeline.ΦA spec1 c : sProp 𝕄)
      ⊢ iprop(bystanders (F := F) c ∗ (∃ d, owns (c : Thread nD τ) accM fullShare d) ∗ (∃ r, prngReg c r)) := by
  rw [PhiA_eq]; unfold bystanders
  iintro ⟨⟨H1, H2, H3, H4, H5, H6, H7, H8, H9, H10, H11, H12, HS⟩, Hg⟩
  iframe

theorem PhiA_close (c : Dev nD) :
    iprop(bystanders (F := F) c ∗ (∃ d, owns (c : Thread nD τ) accM fullShare d) ∗ (∃ r, prngReg c r))
      ⊢ (Pipeline.ΦA spec1 c : sProp 𝕄) := by
  rw [PhiA_eq]; unfold bystanders
  iintro ⟨⟨H1, H2, H3, H4, H5, H6, H7, H8, H9, H10, H11, H12⟩, HS, Hg⟩
  iframe

/-! ## The body's three runs

On whole memrefs — the matrix block at `a`, the table at `b`, the output block at `o`, the accumulator at `s` — the
body runs to the same memrefs with the accumulator one step further. Which step, and whether the output block is
touched, depends on the two branches alone. -/

/-- The whole-buffer rectangle's offsets, however spelt, are zero. -/
theorem offs_zero : (![0, 0] : Fin 2 → ℕ) = fun _ => 0 := by
  funext a
  match a with
  | ⟨0, _⟩ => rfl
  | ⟨1, _⟩ => rfl

/-- What the body's three loads read on whole memrefs: the step's rows of the table, the whole accumulator, the
    whole matrix block. -/
theorem load_rhs (i : grid1.Coords) (arg3 : Memref sig .tc .vmem S8192x256 .bf16) (harg3 : arg3.IsWhole) (b : Vec F S8192x256 .bf16) :
    View.readAt (Elt F) arg3.view (Rect.unit (s := S8192x256) (k1_off1 i) S2048x256.size (k1_off1_inb i)).toLoadRect (harg3.unread b)
      = rhsRows i b := by
  unfold rhsRows; rw [View.readAt_eq_ld, harg3.read_unread]

theorem load_acc (arg5 : Memref sig .tc .vmem S2048x256 .f32) (harg5 : arg5.IsWhole) (s : Vec F S2048x256 .f32) :
    View.readAt (Elt F) arg5.view (Rect.unit (s := S2048x256) ![0, 0] S2048x256.size inb_S2048x256_S2048x256_0_0).toLoadRect (harg5.unread s)
      = s := by
  rw [View.readAt_eq_ld, harg5.read_unread, View.ld_unit_zero offs_zero]

theorem load_lhs (arg2 : Memref sig .tc .vmem S2048x2048 .bf16) (harg2 : arg2.IsWhole) (a : Vec F S2048x2048 .bf16) :
    View.readAt (Elt F) arg2.view (Rect.unit (s := S2048x2048) ![0, 0] S2048x2048.size inb_S2048x2048_S2048x2048_0_0).toLoadRect (harg2.unread a)
      = a := by
  rw [View.readAt_eq_ld, harg2.read_unread, View.ld_unit_zero offs_zero]

/-- The body's stores go through the whole-buffer rectangle, so a piece list headed by one of them covers the
    buffer. -/
theorem head_covers (w : (Rect.unit (s := S2048x256) ![0, 0] S2048x256.size inb_S2048x256_S2048x256_0_0).shape.Idx → Elt F .f32)
    (L : List (View.Piece (Elt F) S2048x256 .f32)) (y : S2048x256.Idx) :
    ∃ p ∈ (⟨Rect.unit (s := S2048x256) ![0, 0] S2048x256.size inb_S2048x256_S2048x256_0_0, w⟩ : View.Piece (Elt F) S2048x256 .f32) :: L,
      y ∈ p.1.set :=
  ⟨_, List.mem_cons_self, View.mem_set_unit_zero offs_zero inb_S2048x256_S2048x256_0_0 y⟩

set_option maxHeartbeats 1600000 in
/-- A MIDDLE step (neither branch): the product is added to what the accumulator held; the output block is left
    as it was. -/
theorem run_middle (c : Dev nD) (i : grid1.Coords)
    (arg2 : Memref sig .tc .vmem S2048x2048 .bf16) (harg2 : arg2.IsWhole) (arg3 : Memref sig .tc .vmem S8192x256 .bf16) (harg3 : arg3.IsWhole)
    (arg4 : Memref sig .tc .vmem S2048x256 .f32) (harg4 : arg4.IsWhole) (arg5 : Memref sig .tc .vmem S2048x256 .f32) (harg5 : arg5.IsWhole)
    (h0 : ¬RowStart i) (h3 : ¬RowEnd i)
    (a : Vec F S2048x2048 .bf16) (b : Vec F S8192x256 .bf16) (o : Vec F S2048x256 .f32) (s : Vec F S2048x256 .f32)
    (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (step i a b s)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h0 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (head_covers _ _), View.canon_unit_zero offs_zero, load_rhs, load_acc, load_lhs]
  unfold step; rfl

set_option maxHeartbeats 1600000 in
/-- The FIRST step of a row tile (first branch only): the accumulator is zeroed, whatever it held, then the product
    is added to the zeros read back; the output block is left as it was. -/
theorem run_first (c : Dev nD) (i : grid1.Coords)
    (arg2 : Memref sig .tc .vmem S2048x2048 .bf16) (harg2 : arg2.IsWhole) (arg3 : Memref sig .tc .vmem S8192x256 .bf16) (harg3 : arg3.IsWhole)
    (arg4 : Memref sig .tc .vmem S2048x256 .f32) (harg4 : arg4.IsWhole) (arg5 : Memref sig .tc .vmem S2048x256 .f32) (harg5 : arg5.IsWhole)
    (h0 : RowStart i) (h3 : ¬RowEnd i)
    (a : Vec F S2048x2048 .bf16) (b : Vec F S8192x256 .bf16) (o : Vec F S2048x256 .f32) (s : Vec F S2048x256 .f32)
    (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (step i a b (k1_pay1 (F := F)))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h0 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (head_covers _ _), View.canon_cons_unit_zero offs_zero, load_rhs, load_lhs]
  unfold run_first.sl.v8 run_first.sl.H5_1
  rw [View.readCov_unit_zero (S := S2048x256) _ offs_zero]
  unfold step; rfl

set_option maxHeartbeats 1600000 in
/-- The LAST step of a row tile (second branch only): the product is added, and the sum, read back, is copied
    whole into the output block, whatever that held. -/
theorem run_last (c : Dev nD) (i : grid1.Coords)
    (arg2 : Memref sig .tc .vmem S2048x2048 .bf16) (harg2 : arg2.IsWhole) (arg3 : Memref sig .tc .vmem S8192x256 .bf16) (harg3 : arg3.IsWhole)
    (arg4 : Memref sig .tc .vmem S2048x256 .f32) (harg4 : arg4.IsWhole) (arg5 : Memref sig .tc .vmem S2048x256 .f32) (harg5 : arg5.IsWhole)
    (h0 : ¬RowStart i) (h3 : RowEnd i)
    (a : Vec F S2048x2048 .bf16) (b : Vec F S8192x256 .bf16) (o : Vec F S2048x256 .f32) (s : Vec F S2048x256 .f32)
    (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare (step i a b s)
            ∗ owns (c : Thread nD τ) arg5 fullShare (step i a b s)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h0 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (head_covers _ _), View.canon_unit_zero offs_zero]
    unfold run_last.sl.v19 run_last.sl.H5_1
    rw [View.readCov_unit_zero (S := S2048x256) _ offs_zero, load_rhs, load_acc, load_lhs]
    unfold step; rfl
  iexists _; isplitr
  swap; · iexact H5
  ipureintro
  unfold run_last.sl.H5_1
  rw [View.read_writes_eq_canon _ _ _ (head_covers _ _), View.canon_unit_zero offs_zero, load_rhs, load_acc, load_lhs]
  unfold step; rfl

/-! ## The body at a point of the grid -/

/-- The staging memrefs the pipeline hands the body at point `t`. -/
abbrev lhsM (t : Fin cfg1.N) : Memref sig .tc .vmem S2048x2048 .bf16 := win1_0.stage (cfg1.slots t 0)
abbrev rhsM (t : Fin cfg1.N) : Memref sig .tc .vmem S8192x256 .bf16 := win1_1.stage (cfg1.slots t 1)
abbrev outM (t : Fin cfg1.N) : Memref sig .tc .vmem S2048x256 .f32 := win1_2.stage (cfg1.slots t 2)

/-- The matrix window holds its block at every point: fetched there each time, and the body only reads it. -/
theorem before1_0 (c : Dev nD) (t : Fin cfg1.N) (d) : (dat1 V c).before 0 t d = blk V c 0 t :=
  ((dat1 V c).before_in_eq_fetched 0 rfl lhs_live (fun _ _ _ => rfl)
      (fun t => by rw [after1_0]; unfold Dat.blockOf blk; rw [A_eq1]; try rfl) t d).trans
    (by unfold Dat.fetched Dat.blockOf blk; rw [A_eq1]; try rfl)

/-- The table window holds the whole table at every point: fetched once, its index never moves, and the body only
    reads it. -/
theorem before1_1 (c : Dev nD) (t : Fin cfg1.N) (d) : (dat1 V c).before 1 t d = blk V c 1 t :=
  ((dat1 V c).before_in_eq_fetched 1 rfl rhs_live (fun _ _ _ => rfl)
      (fun t => by rw [after1_1]; unfold Dat.blockOf blk; rw [A_eq1]; try rfl) t d).trans
    (by unfold Dat.fetched Dat.blockOf blk; rw [A_eq1]; try rfl)

/-- The invariant, restated at the point's number. -/
theorem Phi_castSucc (c : Dev nD) (t : Fin cfg1.N) : (dat1 V c).Φ t.castSucc = PhiAcc V c t.val (Nat.le_of_lt t.isLt) := rfl

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn
      = iprop(bystanders (F := F) c ∗ owns (c : Thread nD τ) accM fullShare (accAt V c n hn) ∗ (∃ r, prngReg c r)) := rfl

theorem PhiAcc_pos (c : Dev nD) (n : ℕ) (h : n ≤ cfg1.N) (hz : n ≠ 0) :
    PhiAcc V c n h
      = iprop(bystanders (F := F) c ∗ owns (c : Thread nD τ) accM fullShare (accAt V c (n - 1) (by omega)) ∗ (∃ r, prngReg c r)) := by
  cases n with
  | zero => exact absurd rfl hz
  | succ n => rfl

/-- Whatever the point, the invariant holds the accumulator at something. -/
theorem PhiAcc_any (c : Dev nD) (n : ℕ) (h : n ≤ cfg1.N) :
    PhiAcc V c n h ⊢ iprop(bystanders (F := F) c ∗ (∃ d, owns (c : Thread nD τ) accM fullShare d) ∗ (∃ r, prngReg c r)) := by
  cases n with
  | zero => exact PhiA_open c
  | succ n =>
    rw [PhiAcc_succ]
    iintro ⟨Hb, HS, Hg⟩
    isplitl [Hb]; · iexact Hb
    isplitl [HS]; · iexists _; iexact HS
    iexact Hg

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (lhsM t) fullShare ((dat1 V c).before 0 t d))
    ∗ (∃ d, owns (c : Thread nD τ) (rhsM t) fullShare ((dat1 V c).before 1 t d))
    ∗ (∃ d, owns (c : Thread nD τ) (outM t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1600000 in
/-- The body at any point. The inputs' memrefs hold their blocks; `t % 4` says which of the three runs applies; the
    invariant hands the run the accumulator (at anything where a row tile begins, at what the point before left
    elsewhere) and takes it back one step further, which is the recurrence's value at `t`; the output block is
    handed back untouched short of a row tile's end, and there holds the accumulator's value. -/
theorem sound_body1 (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiAcc V c (t.val + 1) t.isLt from rfl, PhiAcc_succ, Phi_castSucc]
  rw [show (dat1 V c).leavesExact 0 t = owns (c : Thread nD τ) (lhsM t) fullShare ((dat1 V c).after 0 t) from by
    unfold Dat.leavesExact; rw [lhs_live], after1_0]
  rw [show (dat1 V c).leavesExact 1 t = owns (c : Thread nD τ) (rhsM t) fullShare ((dat1 V c).after 1 t) from by
    unfold Dat.leavesExact; rw [rhs_live], after1_1]
  by_cases h0 : t.val % 4 = 0
  · -- a row tile begins
    have hs : RowStart (grid1.coords t) := (rowStart_iff t).mpr h0
    have he : ¬RowEnd (grid1.coords t) := fun h => by have := (rowEnd_iff t).mp h; omega
    rw [Dat.leavesExact_idle (dat1 V c) 2 t (out_rests t he) (out_stays t he), accAt_first V c t h0]
    iintro ⟨HΦ, Ho, ⟨%d0, H0⟩, ⟨%d1, H1⟩, ⟨%d2, H2⟩⟩
    icases (PhiAcc_any V c t.val (Nat.le_of_lt t.isLt)) $$ HΦ with ⟨Hb, ⟨%s, HS⟩, Hg⟩
    iapply (run_first c (grid1.coords t) _ _ _ _ _ _ _ _ hs he (blk V c 0 t) (blk V c 1 t) ((dat1 V c).before 2 t d2) s Set.univ _)
    isplitl [H0]; · iexact H0
    isplitl [H1]; · iexact H1
    isplitl [H2]; · iexact H2
    isplitl [HS]; · iexact HS
    iintro ⟨H0, H1, H2, HS⟩
    isplitl [Hb HS Hg]
    · isplitl [Hb]; · iexact Hb
      isplitl [HS]; · iexact HS
      iexact Hg
    isplitl [Ho]; · iexact Ho
    isplitl [H0]; · iexact H0
    isplitl [H1]; · iexact H1
    iexists _; iexact H2
  · have hs : ¬RowStart (grid1.coords t) := fun h => h0 ((rowStart_iff t).mp h)
    have hz : t.val ≠ 0 := fun h => h0 (by rw [h])
    rw [PhiAcc_pos V c _ _ hz, accAt_next V c t h0]
    by_cases h3 : t.val % 4 = 3
    · -- a row tile ends
      have he : RowEnd (grid1.coords t) := (rowEnd_iff t).mpr h3
      rw [show (dat1 V c).leavesExact 2 t = owns (c : Thread nD τ) (outM t) fullShare ((dat1 V c).after 2 t) from by
        unfold Dat.leavesExact; rw [out_live t he], after1_2, accAt_next V c t h0]
      iintro ⟨⟨Hb, HS, Hg⟩, Ho, ⟨%d0, H0⟩, ⟨%d1, H1⟩, ⟨%d2, H2⟩⟩
      iapply (run_last c (grid1.coords t) _ _ _ _ _ _ _ _ hs he (blk V c 0 t) (blk V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hb HS Hg]
      · isplitl [Hb]; · iexact Hb
        isplitl [HS]; · iexact HS
        iexact Hg
      isplitl [Ho]; · iexact Ho
      isplitl [H0]; · iexact H0
      isplitl [H1]; · iexact H1
      iexact H2
    · -- in between
      have he : ¬RowEnd (grid1.coords t) := fun h => h3 ((rowEnd_iff t).mp h)
      rw [Dat.leavesExact_idle (dat1 V c) 2 t (out_rests t he) (out_stays t he)]
      iintro ⟨⟨Hb, HS, Hg⟩, Ho, ⟨%d0, H0⟩, ⟨%d1, H1⟩, ⟨%d2, H2⟩⟩
      iapply (run_middle c (grid1.coords t) _ _ _ _ _ _ _ _ hs he (blk V c 0 t) (blk V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hb HS Hg]
      · isplitl [Hb]; · iexact Hb
        isplitl [HS]; · iexact HS
        iexact Hg
      isplitl [Ho]; · iexact Ho
      isplitl [H0]; · iexact H0
      isplitl [H1]; · iexact H1
      iexists _; iexact H2

/-- The body at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem phi1_first (c : Dev nD) : (Pipeline.ΦA spec1 c : sProp 𝕄) ⊢ (dat1 V c).Φ 0 := by
  rw [show (dat1 V c).Φ 0 = PhiAcc V c 0 (Nat.zero_le _) from rfl, PhiAcc_zero V c 0 _ rfl]

/-- After the last point the invariant gives it back: what the accumulator holds is forgotten. -/
theorem phi1_last (c : Dev nD) : (dat1 V c).Φ (Fin.last cfg1.N) ⊢ (Pipeline.ΦA spec1 c : sProp 𝕄) := by
  rw [show (dat1 V c).Φ (Fin.last cfg1.N) = PhiAcc V c (Fin.last cfg1.N).val (Nat.le_of_lt_succ (Fin.last cfg1.N).isLt) from rfl]
  exact (PhiAcc_any V c _ _).trans (PhiA_close c)

end Cert.KernelIdeal.Mm

end
-- ==== Proof.KI.Run.lean ====
import proofs.«429181_j20521353740426_3_alg».proof.Proof.KI.Edge
import proofs.«429181_j20521353740426_3_alg».proof.Proof.KI.Mm
import proofs.«429181_j20521353740426_3_alg».proof.Proof.Gen.KernelIdeal.Regions

/-! # The whole run: two kernels between stretches of host operations

The program is six items in a row. Three host stretches gather the node features by the edges' endpoints and
lay the parameters out; the edge kernel turns them into one gate per edge; a fourth host stretch scatters the
gates into the square adjacency and casts the operands; the matmul kernel multiplies the adjacency by the
feature table. Between two items a core holds every buffer that lives across kernels, whole, at contents
that are a function of the launch memory alone.

This module names those contents at the two places where a kernel writes. The edge kernel changes one
buffer, the gates'; the matmul changes one buffer, the product's. What each leaves there is the last
state of its pipeline's output array: the entry contents with every block's write-back folded in, in grid
order. Everything else a kernel touches is an input window, which the pipeline only reads, or a buffer
that bypasses the kernel. With the contents named, each kernel becomes a step from "every buffer at the
contents before it" to "every buffer at the contents after it", and the six steps compose into the run. -/

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two kernels leave

The contents after the edge kernel do not depend on anything the matmul does, and the matmul's entry contents
read the edge kernel's result only through the gates' buffer. So the edge kernel's result is written first, the
matmul's entry contents over it, and the matmul's result over those. -/

/-- The buffers as the edge kernel finds them: the launch memory after the three leading host stretches. -/
abbrev entry0 (c : Dev nD) (b : Ref sig .tc) : Buf (Elt F) ((c : Thread nD τ).loc b) := Gen.V3 m c b

/-- Every buffer when the edge kernel returns: each of its eight arrays after the write-backs of all 256 blocks,
    every other buffer as it was entered. -/
def afterEdge (c : Dev nD) : Valuation τ sig (Elt F) :=
  Pipeline.withArrays spec0 c (Gen.V3 m c) fun w => (Edge.dat0 (entry0 m) c).arrAt w cfg0.N

/-- The kernels' results with only the edge kernel's recorded, at every item. -/
def edgeOnly : Gen.Outs (F := F) := fun _ r c => afterEdge m c r

/-- The buffers as the matmul finds them, written over the edge kernel's result alone: that result after the
    scattering host stretch. -/
abbrev entryMid (c : Dev nD) (b : Ref sig .tc) : Buf (Elt F) ((c : Thread nD τ).loc b) := Gen.V5 m (edgeOnly m) c b

/-- Every buffer when the matmul returns: each of its three arrays after the write-backs of all 16 grid points,
    every other buffer as it was entered. -/
def afterMm (c : Dev nD) : Valuation τ sig (Elt F) :=
  Pipeline.withArrays spec1 c (Gen.V5 m (edgeOnly m) c) fun w => (Mm.dat1 (entryMid m) c).arrAt w cfg1.N

/-- What the kernels leave: after the sixth item the matmul's result, before it the edge kernel's. -/
def outs : Gen.Outs (F := F)
  | 6, r, c => afterMm m c r
  | _, r, c => afterEdge m c r

/-- The buffers as the matmul finds them: the edge kernel's result after the scattering host stretch. -/
abbrev entry1 (c : Dev nD) (b : Ref sig .tc) : Buf (Elt F) ((c : Thread nD τ).loc b) := Gen.V5 m (outs m) c b

/-- The matmul's entry contents see the kernels' results only at the gates' buffer after the fourth item, where
    both records agree. -/
theorem entry1_edgeOnly : entry1 m = entryMid m := rfl

/-- Behind each of the edge kernel's arrays its result holds that array's last state. -/
theorem afterEdge_arr (c : Dev nD) (w : Fin cfg0.W) :
    afterEdge m c (Proc.devRef .tc (Pipeline.arrRef spec0 w)) = (Edge.dat0 (entry0 m) c).arrAt w cfg0.N := by
  unfold afterEdge; exact Pipeline.withArrays_arr spec0 launch0.win.arr_inj c _ _ w

/-- Behind each of the matmul's arrays its result holds that array's last state. -/
theorem afterMm_arr (c : Dev nD) (w : Fin cfg1.W) :
    afterMm m c (Proc.devRef .tc (Pipeline.arrRef spec1 w)) = (Mm.dat1 (entryMid m) c).arrAt w cfg1.N := by
  unfold afterMm; exact Pipeline.withArrays_arr spec1 launch1.win.arr_inj c _ _ w

/-- Right after the edge kernel the gates' buffer holds the pipeline's last state of the eighth array. -/
theorem entry1_g (c : Dev nD) : Gen.V4 m (outs m) c main_v40 = (Edge.dat0 (entry0 m) c).arrAt 7 cfg0.N :=
  (Function.update_self _ _ _).trans
    ((show outs m 4 main_v40 c = afterEdge m c main_v40 from rfl).trans (afterEdge_arr m c 7))

/-- Neither the scattering stretch nor the matmul writes the gates' buffer: it ends as the edge kernel left it. -/
theorem left_g (c : Dev nD) : Gen.V6 m (outs m) c main_v40 = (Edge.dat0 (entry0 m) c).arrAt 7 cfg0.N :=
  (Gen.V6_of m (outs m) c main_v40 (by decide)).trans <|
    (Gen.V5_of m (outs m) c main_v40 (by decide)).trans (entry1_g m c)

/-- The product's buffer ends holding the pipeline's last state of the matmul's third array. -/
theorem left_o (c : Dev nD) : Gen.V6 m (outs m) c main_v58 = (Mm.dat1 (entry1 m) c).arrAt 2 cfg1.N := by
  rw [entry1_edgeOnly]
  exact (Function.update_self _ _ _).trans
    ((show outs m 6 main_v58 c = afterMm m c main_v58 from rfl).trans (afterMm_arr m c 2))

/-! ### The arrays at a kernel's exit, and the bystanders

Seven of the edge kernel's windows and two of the matmul's are inputs: the pipeline never writes their arrays,
so their last state is their first. None of them lies on the kernel's output buffer. -/

theorem edge_inputs : ∀ w : Fin 8, w ≠ 7 →
    (cfg0.win w).isOut = false ∧ Pipeline.arrRef spec0 w ∉ ([main_v40] : List (Ref sig .tc)) := by decide

theorem mm_inputs : ∀ w : Fin 3, w ≠ 2 →
    (cfg1.win w).isOut = false ∧ Pipeline.arrRef spec1 w ∉ ([main_v58] : List (Ref sig .tc)) := by decide

/-- Each array of the edge kernel ends at what the contents after it say of the buffer behind it. -/
theorem edge_arrays (c : Dev nD) (w : Fin cfg0.W) :
    (Edge.dat0 (entry0 m) c).arrAt w cfg0.N = Gen.V4 m (outs m) c (Pipeline.arrRef spec0 w) := by
  by_cases hw : w = 7
  · subst hw; exact (entry1_g m c).symm
  · obtain ⟨hin, hne⟩ := edge_inputs w hw
    rw [Gen.V4_of m (outs m) c _ hne]
    exact ((Edge.dat0 (entry0 m) c).arrAt_in w hin _).trans (Edge.A_eq0 (entry0 m) c w)

/-- A buffer behind none of the edge kernel's arrays is not the gates' buffer, so it keeps its contents. -/
theorem edge_bystander (c : Dev nD) (b : Ref sig .tc) (hb : b ∉ Finset.univ.image (Pipeline.arrRef spec0)) :
    Gen.V4 m (outs m) c b = Gen.V3 m c b :=
  Gen.V4_of m (outs m) c b fun h =>
    hb (Finset.mem_image.mpr ⟨7, Finset.mem_univ _, (List.mem_singleton.mp h).symm⟩)

/-- Each array of the matmul ends at what the last contents say of the buffer behind it. -/
theorem mm_arrays (c : Dev nD) (w : Fin cfg1.W) :
    (Mm.dat1 (entry1 m) c).arrAt w cfg1.N = Gen.V6 m (outs m) c (Pipeline.arrRef spec1 w) := by
  by_cases hw : w = 2
  · subst hw; exact (left_o m c).symm
  · obtain ⟨hin, hne⟩ := mm_inputs w hw
    rw [Gen.V6_of m (outs m) c _ hne]
    exact ((Mm.dat1 (entry1 m) c).arrAt_in w hin _).trans (Mm.A_eq1 (entry1 m) c w)

/-- A buffer behind none of the matmul's arrays is not the product's buffer, so it keeps its contents. -/
theorem mm_bystander (c : Dev nD) (b : Ref sig .tc) (hb : b ∉ Finset.univ.image (Pipeline.arrRef spec1)) :
    Gen.V6 m (outs m) c b = Gen.V5 m (outs m) c b :=
  Gen.V6_of m (outs m) c b fun h =>
    hb (Finset.mem_image.mpr ⟨2, Finset.mem_univ _, (List.mem_singleton.mp h).symm⟩)

/-! ## What rides beside the buffers

No core ever owes another a unit, and no semaphore level is assigned. Beside its buffers a core carries only
its generator register, at a state nobody tracks, and the record that it owes nothing. A kernel takes the
register into its invariant and gives it back; the record passes by. -/

/-- Both pipelines' proof data, each at the contents its kernel is entered at. -/
def pdats : (p : Fin 2) → (c : Dev nD) → Dat τ (Elt F) Unit ℕ (UR sig nD τ) ℕ (cfgs p) c
  | ⟨0, _⟩ => fun c => Edge.dat0 (entry0 m) c
  | ⟨1, _⟩ => fun c => Mm.dat1 (entry1 m) c

abbrev noPairs : GSem nD τ sig → Finset Unit := fun _ => ∅
abbrev noLevel : GSem nD τ sig → Unit → ℕ := fun _ _ => 0

/-- The generator register at some state, and nothing owed. -/
abbrev rest (c : Dev nD) : sProp 𝕄 :=
  iprop((∃ r, prngReg c r) ∗ ∃ W, owes (c : Thread nD τ) (0 : CellTallies nD τ sig Unit) W)

theorem rest_owes (c : Dev nD) :
    rest (F := F) c ⊢ (iprop(∃ W, owes (c : Thread nD τ) (0 : CellTallies nD τ sig Unit) W) : sProp 𝕄) := by
  iintro ⟨-, H⟩; iexact H

/-- Owing nothing with some recorded pairs is owing nothing within any bound that admits every pair. -/
theorem owing_in (c : Dev nD) {B : Set (SemLoc sig × Unit)} (hB : ∀ x, x ∈ B) :
    (iprop(∃ W, owes (c : Thread nD τ) (0 : CellTallies nD τ sig Unit) W) : sProp 𝕄) ⊢ Pipeline.owesWithin c 0 B := by
  iintro ⟨%W, H⟩; iexists W; isplitr; · ipureintro; exact fun x _ => hB x
  iexact H

/-- And the bound is forgotten on the way out. -/
theorem owing_out (c : Dev nD) {B : Set (SemLoc sig × Unit)} :
    (Pipeline.owesWithin c 0 B : sProp 𝕄) ⊢ iprop(∃ W, owes (c : Thread nD τ) (0 : CellTallies nD τ sig Unit) W) := by
  iintro ⟨%W, -, H⟩; iexists W; iexact H

/-- ENTERING a kernel. The buffers split into the kernel's arrays and the bystanders; there is no prefetched
    table; the record of owing nothing is put within the pipeline's bound; the register goes to the invariant. -/
theorem enter (c : Dev nD) {H A T O Z S R : sProp 𝕄}
    (hsplit : H ⊢ iprop(A ∗ Z)) (htab : (BI.emp : sProp 𝕄) ⊢ T)
    (howe : (iprop(∃ W, owes (c : Thread nD τ) (0 : CellTallies nD τ sig Unit) W) : sProp 𝕄) ⊢ O) :
    (iprop((H ∗ rest c) ∗ S ∗ R) : sProp 𝕄) ⊢ |={Set.univ}=> iprop(A ∗ T ∗ O ∗ (∃ r, prngReg c r) ∗ Z) := by
  iintro ⟨⟨Hb, Hg, Ho⟩, -, -⟩
  ihave Hs := hsplit $$ Hb
  icases Hs with ⟨Ha, Hz⟩
  imodintro
  isplitl [Ha]; · iexact Ha
  isplitr; · iapply htab; iempintro
  isplitl [Ho]; · iapply howe; iexact Ho
  isplitl [Hg]; · iexact Hg
  iexact Hz

/-- LEAVING a kernel. The arrays at their last state and the bystanders join into the buffers at the contents
    after the kernel; the register and the record come back beside them. -/
theorem leave (c : Dev nD) {A O Z H : sProp 𝕄} (hjoin : iprop(A ∗ Z) ⊢ H)
    (howe : O ⊢ (iprop(∃ W, owes (c : Thread nD τ) (0 : CellTallies nD τ sig Unit) W) : sProp 𝕄)) :
    (iprop(A ∗ O ∗ (∃ r, prngReg c r) ∗ Z) : sProp 𝕄) ⊢ |={Set.univ}=> iprop(H ∗ rest c) := by
  iintro ⟨Ha, Ho, Hg, Hz⟩
  imodintro
  isplitl [Ha Hz]
  · iapply hjoin; isplitl [Ha] <;> iassumption
  isplitl [Hg]; · iexact Hg
  iapply howe; iexact Ho

/-- The register, beside the scratch buffers no window stages, is the plain region invariant. -/
theorem into_plain {gr W : Nat} (spec : Fin W → Pipeline.WinSpec sig gr) (c : Dev nD) {T : sProp 𝕄} :
    (iprop((∃ r, prngReg c r) ∗ T ∗ Pipeline.scopedRest spec c) : sProp 𝕄) ⊢ Pipeline.ΦA spec c := by
  unfold Pipeline.ΦA
  iintro ⟨Hg, -, Hs⟩
  isplitl [Hs]; · iexact Hs
  iexact Hg

/-- And the plain region invariant gives both back. -/
theorem out_of_plain {gr W : Nat} (spec : Fin W → Pipeline.WinSpec sig gr) (c : Dev nD) :
    (Pipeline.ΦA spec c : sProp 𝕄) ⊢ iprop((∃ r, prngReg c r) ∗ BI.emp ∗ Pipeline.scopedRest spec c) := by
  unfold Pipeline.ΦA
  iintro ⟨Hs, Hg⟩
  isplitl [Hg]; · iexact Hg
  isplitr; · iempintro
  iexact Hs

/-! ## The two kernels as steps of the run -/

set_option backward.isDefEq.respectTransparency.types false in
/-- THE EDGE KERNEL: from every buffer at the contents after the third host stretch to every buffer at the
    same contents with the gates' buffer at the eighth array's last state. Its invariant is the plain one at
    both ends; it has no semaphore of its own. -/
def edgeSeg : RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (Edge.body_obligation0 (entry0 m) c).loose
  hwaits := Pipeline.hwaits_of_owed_zero _ _ _ _ noPairs noLevel 0 fun _ _ => rfl
  pre c := iprop(StableHlo.held (c : Thread nD τ) (Pipeline.ucRefs τ sig) (Gen.V3 m c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    have hsplit := Pipeline.arrays_of_unscopedBufs (p := 0) (pcfgs (F := F)) adm (pdats m) launch0.win launch0.arr_whole c
      ((pdats m 0 c).share_full fun _ => rfl) (entry0 m c) fun w => Edge.A_eq0 (entry0 m) c w
    rw [Pipeline.unscopedBufs_held] at hsplit
    have htab : (BI.emp : sProp 𝕄) ⊢ Pipeline.prefHeld (pcfgs (F := F) 0).pre c (fun _ => fullShare) (adm (F := F) 0).1 := by
      unfold Pipeline.prefHeld; rw [show (Finset.univ : Finset (Fin 0)) = ∅ from rfl, BI.bigSep_empty]
    exact enter c hsplit htab (owing_in c fun _ => Or.inl trivial)
  hin c := into_plain spec0 c
  hout c := by rw [Pipeline.ownSems0_none]; exact out_of_plain spec0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => Gen.V4 m (outs m) c b) ((pdats m 0 c).arrAt · cfg0.N) (edge_arrays m c) (edge_bystander m c)
    rw [Pipeline.unscopedBufs_held] at hjoin
    exact leave c hjoin (owing_out c)

set_option backward.isDefEq.respectTransparency.types false in
/-- THE MATMUL: from every buffer at the contents after the scattering host stretch to every buffer at the same
    contents with the product's buffer at the third array's last state. Its invariant tracks the accumulator;
    at the first and at the last point it is the plain one again, which is all this step needs of it. -/
def mmSeg : RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (Mm.body_obligation1 (entry1 m) c).loose
  hwaits := Pipeline.hwaits_of_owed_zero _ _ _ _ noPairs noLevel 1 fun _ _ => rfl
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    have hsplit := Pipeline.arrays_of_unscopedBufs (p := 1) (pcfgs (F := F)) adm (pdats m) launch1.win launch1.arr_whole c
      ((pdats m 1 c).share_full fun _ => rfl) (entry1 m c) fun w => Mm.A_eq1 (entry1 m) c w
    rw [Pipeline.unscopedBufs_held] at hsplit
    have htab : (BI.emp : sProp 𝕄) ⊢ Pipeline.prefHeld (pcfgs (F := F) 1).pre c (fun _ => fullShare) (adm (F := F) 1).1 := by
      unfold Pipeline.prefHeld; rw [show (Finset.univ : Finset (Fin 0)) = ∅ from rfl, BI.bigSep_empty]
    exact enter c hsplit htab (owing_in c fun _ => Or.inl trivial)
  hin c := (into_plain spec1 c).trans (Mm.phi1_first (entry1 m) c)
  hout c := by rw [Pipeline.ownSems0_none]; exact (Mm.phi1_last (entry1 m) c).trans (out_of_plain spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => Gen.V6 m (outs m) c b) ((pdats m 1 c).arrAt · cfg1.N) (mm_arrays m c) (mm_bystander m c)
    rw [Pipeline.unscopedBufs_held] at hjoin
    exact leave c hjoin (owing_out c)

/-! ## The run -/

/-- The six items on core `c`: the four host stretches each from the contents before it, the two kernels' steps. -/
abbrev items (c : Dev nD) : List (Seg (pcfgs (F := F)) adm (pdats m) () defs₀ Variants.none noPairs noLevel) :=
  Gen.segs m (outs m) Variants.none noPairs noLevel (fun _ c => rest c) () (pdats m) (edgeSeg m) (mmSeg m) c

/-- The program is its six items run in order. -/
theorem main_items (c : Dev nD) : main (F := F) c = Seg.run (items m c) := by
  rewrite [main_chain c, Seg.run_eq_chain]; rfl

/-- A buffer that lives across kernels is among those a core holds between items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The ghost state the launch starts from: the pipelines' cells and their launch tokens. -/
abbrev seed := initOf (Pipeline.cells (nD := nD) (τ := τ) cfgs cellOf_inj) (Pipeline.launchToks cfgs cellOf_inj)

set_option backward.isDefEq.respectTransparency.types false in
/-- THE RUN, at any property of the final memory that follows from "every buffer that lives across kernels
    holds the last contents": every fair execution from memory `m` with zero counters terminates in such a
    memory. The launch deals each core its buffers at the launch contents, its register and an empty debt; the
    six items chain with nothing to prove between them; the last contents are read off the final state. -/
theorem ends {Q : PUnit × MemSt nD τ sig (Elt F) → Prop}
    (hQ : ∀ s : MemSt nD τ sig (Elt F),
      (∀ c : Dev nD, ∀ b ∈ Pipeline.ucRefs τ sig, s.mem ((c : Thread nD τ).1, b) = Gen.V6 m (outs m) c b) → Q (⟨⟩, s)) :
    θ_run defs (onTc (τ := τ) (main (F := F))) ⟨m, fun _ => 0, ρ⟩ Q :=
  Pipeline.θ_run_regions_kit_dev (pcfgs (F := F)) adm (pdats m) () cellOf_inj emb₁ defs₀ Variants.none noPairs noLevel m ρ main
    (items m)
    (fun c Q => by rw [main_items m c])
    (fun c => by simp only [items, Gen.segs, Seg.pipes_host, Seg.pipes_region, Seg.pipes_nil]; decide)
    (O₀ := 0) (hL := fun _ _ => rfl) (G := fun _ => iprop(emp)) (u₀ := seed)
    (hu₀ := by
      iintro Hu; imodintro
      isplitl [Hu]
      · iapply (show (ownU seed : sProp 𝕄) ⊢ BI.own (emb₁ seed) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V6 m (outs m) c))
    (hch := fun c => ⟨.rfl, .rfl, .rfl, .rfl, .rfl, .rfl, sep_mono .rfl (rest_owes c)⟩)
    (hinit := by
      refine Pipeline.initEach noPairs noLevel fun c => ?_
      rw [show unscopedBufs c (fun b => m ((c : Thread nD τ).loc b))
          = StableHlo.held (c : Thread nD τ) (Pipeline.ucRefs τ sig) (Gen.V0 m c) from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V6 m (outs m) c b)
    (hfin := fun c s' => by
      unfold StableHlo.held
      iintro ⟨Hh, HSI⟩
      imodintro
      iapply (pointsTo_read_all (Pipeline.ucRefs τ sig) (fun b => ((c : Thread nD τ).1, b)) (Gen.V6 m (outs m) c) s')
      isplitl [Hh] <;> iassumption)
    (hQ := hQ)

/-- THE FRAME: every argument array ends as launched. No host stretch writes an argument and no kernel may
    change one, so the last contents at an argument walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  ends m ρ fun s h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c)⟩

/-- THE RUN WITH ITS TWO RESULTS: besides the arguments, the product's buffer and the gates' buffer end at the
    last contents, which `left_o` and `left_g` identify with the two pipelines' last output states. -/
theorem run : θ_run defs (onTc (τ := τ) (main (F := F))) ⟨m, fun _ => 0, ρ⟩ (fun r => ∀ c : Dev nD,
      r.2.mem ((c.tc : Thread nD τ).loc main_v58) = Gen.V6 m (outs m) c main_v58
      ∧ r.2.mem ((c.tc : Thread nD τ).loc main_v40) = Gen.V6 m (outs m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  ends m ρ fun s h c =>
    ⟨h c _ (mem_uc main_v58 (by decide)), h c _ (mem_uc main_v40 (by decide)),
     (h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c),
     (h c _ (mem_uc main_arg5 (by decide))).trans (Gen.V6_main_arg5 m (outs m) c),
     (h c _ (mem_uc main_arg6 (by decide))).trans (Gen.V6_main_arg6 m (outs m) c)⟩

end Cert.KernelIdeal.Whole

end
-- ==== Proof.Spec.lean ====
import Idealize.ShloMosaic.PureOps.Ideal
import Idealize.ShloMosaic.PureOps.Ideal.Laws
import Idealize.ShloMosaic.Lib.ValueIdx

/-! # What the two programs compute, as functions on the extended reals

Both programs return two arrays.

* The edge gates `g : [262144]`. For edge `e` let `x e : Fin 512 → EReal` be the subject node's 256 features
  followed by the object node's 256 features. With `μ = (∑ x) / 512` and `σ² = (∑ (x - μ)²) / 512`,
  `g e = tanh (∑ₖ max ((x k - μ) · rsqrt (σ² + ε) · γ k + β k) 0 · w k + b) · norm e`.
* The aggregated features `[8192, 256]`: the product of the adjacency matrix `A : [8192, 8192]` (the gates scattered
  by the edges' endpoints) with the node features, `out n h = ∑ⱼ A n j · X j h`.

The kernel takes the second sum in four blocks of 2048 columns, added one after another into an accumulator that
starts at zero; addition of extended reals is commutative and associative, so the regrouping needs no finiteness. -/

noncomputable section

namespace Cert.Spec

open Idealize.ShloMosaic Idealize.ShloMosaic.ValueIdx

/-- The literals both programs print: 512, the layer norm's epsilon, and zero. -/
abbrev c512 : EReal := Ideal.ofBits .f32 0x44000000#32
abbrev cEps : EReal := Ideal.ofBits .f32 0x3727C5AC#32
abbrev cZero : EReal := Ideal.ofBits .f32 0x00000000#32

/-- The mean of a row of 512 features. -/
def rowMean (x : Fin 512 → EReal) : EReal := Ideal.div (∑ k, x k) c512

/-- Its variance about that mean. -/
def rowVar (x : Fin 512 → EReal) : EReal := Ideal.div (∑ k, (x k - rowMean x) * (x k - rowMean x)) c512

/-- The normalised, scaled, shifted and rectified feature `k` of a row. -/
def hidden (x γ β : Fin 512 → EReal) (k : Fin 512) : EReal :=
  max ((x k - rowMean x) * Ideal.rsqrt (rowVar x + cEps) * γ k + β k) cZero

/-- One edge's gate: the rectified features against the gate's weights, plus its bias, through tanh, times the
    edge's normalisation. -/
def gate (x γ β w : Fin 512 → EReal) (b nrm : EReal) : EReal :=
  Ideal.tanh ((∑ k, hidden x γ β k * w k) + b) * nrm

/-- A row of 512 features from two rows of 256: the first half then the second. -/
def catRow (xs xo : Fin 256 → EReal) : Fin 512 → EReal :=
  fun k => if h : k.val < 256 then xs ⟨k.val, h⟩ else xo ⟨k.val - 256, by have := k.isLt; omega⟩

/-- All the gates: edge `e`'s row is the subject's gathered features beside the object's. -/
def gates (xs xo : (⟨2, ![262144, 256]⟩ : Shape).Idx → EReal) (nrm : (⟨1, ![262144]⟩ : Shape).Idx → EReal)
    (γ β w : Fin 512 → EReal) (b : EReal) : (⟨1, ![262144]⟩ : Shape).Idx → EReal :=
  fun e => gate (catRow (fun k => xs (ix2 (e 0) k)) (fun k => xo (ix2 (e 0) k))) γ β w b (nrm e)

/-- The aggregated features: the adjacency matrix times the node features. -/
def aggregate (A : (⟨2, ![8192, 8192]⟩ : Shape).Idx → EReal) (X : (⟨2, ![8192, 256]⟩ : Shape).Idx → EReal) :
    (⟨2, ![8192, 256]⟩ : Shape).Idx → EReal :=
  fun i => ∑ j : Fin 8192, A (ix2 (i 0) j) * X (ix2 j (i 1))

/-- Column `r` of block `b` among 4 blocks of 2048. -/
def blockCol (b : Fin 4) (r : Fin 2048) : Fin 8192 := ⟨b.val * 2048 + r.val, by have := b.isLt; have := r.isLt; omega⟩

/-- A sum over 8192 columns is the sum over four blocks of the sums over each block's 2048 columns. -/
theorem sum_blocks (f : Fin 8192 → EReal) : ∑ j, f j = ∑ b : Fin 4, ∑ r : Fin 2048, f (blockCol b r) := by
  -- pairs (block, offset) enumerate the 8192 columns once each: column = 2048 * block + offset
  have cols : ∀ x : Fin 4 × Fin 2048, finProdFinEquiv x = blockCol x.1 x.2 := fun x =>
    Fin.ext (by show x.2.val + 2048 * x.1.val = x.1.val * 2048 + x.2.val; omega)
  calc ∑ j, f j = ∑ x : Fin 4 × Fin 2048, f (blockCol x.1 x.2) :=
        (Fintype.sum_equiv (finProdFinEquiv (m := 4) (n := 2048)) _ _ fun x => congrArg f (cols x).symm).symm
    _ = ∑ b : Fin 4, ∑ r : Fin 2048, f (blockCol b r) := Fintype.sum_prod_type' fun b r => f (blockCol b r)

/-- Four block sums added one after another into an accumulator that starts at the zero literal. -/
theorem acc_four (p : Fin 4 → EReal) : (((cZero + p 0) + p 1) + p 2) + p 3 = ∑ b : Fin 4, p b := by
  -- the zero literal is the extended real 0; a sum over four indices is its four terms in order
  rw [Fin.sum_univ_four, show cZero = 0 from Ideal.ofBits_zero_f32, zero_add]

end Cert.Spec

end
-- ==== Proof.KI.EdgeValue.lean ====
import proofs.«429181_j20521353740426_3_alg».proof.Proof.KI.Edge
import proofs.«429181_j20521353740426_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 0 at the extended reals: every edge's gate

The edge kernel's output block is a fixed tree of block operations on its seven input blocks. Read at one row `r`
of a block, that tree is the specification's gate of the row: the subject's and the object's 256 features side by
side make the 512-wide row; its mean and its variance are lane sums divided by 512; the normalised row is scaled,
shifted, cut off below at zero, weighed against the gate's weights and summed; the bias is added, the hyperbolic
tangent taken, and the result multiplied by the edge's normalisation. Every step but the lane sums acts entry by
entry, or only re-indexes (a vector as a column, a column spread over the lanes, a row spread over the rows), so
the reading is one pass of index lemmas.

Block `t` of the three per-edge arrays and of the output is rows `1024 t … 1024 t + 1023`; the four parameter
arrays are their own single block. So what point `t` writes back is block `t` of ONE function of the arrays, the
gates of all edges; the 256 blocks cover the 262144 edges (edge `e` lies in block `e / 1024`), and the output
array ends holding that function. -/

set_option maxRecDepth 16384

noncomputable section

namespace Cert.KernelIdeal.EdgeValue

open Cert.KernelIdeal Cert.KernelIdeal.Gen
open Idealize.ShloMosaic Idealize.ShloMosaic.TcCoe Idealize.ShloMosaic.ValueIdx

/-! ## A vector as a column, a column as a vector, a column over the lanes: each read at an index -/

section Layouts
variable {α : Type}

/-- A vector of `a` entries cast to a column `[a, 1]` reads, in row `r`, entry `r`. -/
theorem column_of_vector {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column `[a, 1]` cast to a vector of `a` entries reads, at `r`, the column's row `r`. -/
theorem vector_of_column {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A column `[a, 1]` spread over `b` lanes reads, at `(r, k)`, the column's row `r`. -/
theorem column_spread {a b : ℕ} (v : (⟨2, ![a, 1]⟩ : Shape).Idx → α)
    (h : (⟨2, ![a, 1]⟩ : Shape).Broadcasts ⟨2, ![a, b]⟩) (r : Fin a) (k : Fin b) :
    broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Layouts

/-! ## The joined row and the lane sum -/

/-- Two blocks of 256 features side by side: row `r` of the 512-wide block is the first block's row `r` followed by
    the second's. -/
theorem joined_row (y0 y1 : FVec Ideal S1024x256 .f32) (r : Fin 1024) (k : Fin 512) :
    concatenate S1024x512 1 [⟨S1024x256, y0⟩, ⟨S1024x256, y1⟩] concatenates_S1024x256_S1024x256_S1024x512_d1 (ix2 r k)
      = Cert.Spec.catRow (fun k => y0 (ix2 r k)) (fun k => y1 (ix2 r k)) k := by
  unfold Cert.Spec.catRow
  split
  · next hk =>
    refine concatenate_pair_apply_left (1 : Fin 2) y0 y1 _ (ix2 r k) rfl (ix2 r ⟨k.val, hk⟩) fun b => ?_
    match b with
    | ⟨0, _⟩ => rfl
    | ⟨1, _⟩ => rfl
  · next hk =>
    refine concatenate_pair_apply_right (1 : Fin 2) y0 y1 _ (ix2 r k) rfl rfl
      (ix2 r ⟨k.val - 256, by have := k.isLt; omega⟩) (fun b hb => ?_) ?_
    · match b with
      | ⟨0, _⟩ => rfl
      | ⟨1, _⟩ => exact absurd rfl hb
    · show k.val - 256 + 256 = k.val
      omega

/-- A sum over the 512 lanes of a block, read at row `r`: the sum of that row's entries. -/
theorem lane_sum (src : FVec Ideal S1024x512 .f32) (hφ : FKind.Formats .f32)
    (hacc : @Eq (BitVec (FTy.bits .f32)) 0x00000000#32 0x00000000#32) (r : Fin 1024) :
    multiReduction .add [1] S1024 src 0x00000000#32 reduces_S1024x512_S1024 hφ hacc (ix1 r)
      = ∑ k : Fin 512, src (ix2 r k) := by
  refine (Ideal.multiReduction_add_single src 0x00000000#32 reduces_S1024x512_S1024 hφ hacc (ix1 r)).trans ?_
  refine Finset.sum_congr rfl fun k _ => congrArg src ?_
  funext c
  apply Fin.ext
  match c with
  | ⟨0, _⟩ => rfl
  | ⟨1, _⟩ => rfl

/-- The reciprocal square root of a block acts entry by entry … -/
theorem rsqrt_at {s : Shape} (v : FVec Ideal s .f32) (i : s.Idx) : rsqrt v i = Ideal.rsqrt (v i) := rfl
/-- … and so does the hyperbolic tangent. -/
theorem tanh_at {s : Shape} (v : FVec Ideal s .f32) (i : s.Idx) : tanh v i = Ideal.tanh (v i) := rfl

/-! ## The payload at a row -/

section Payload
variable (x0 x1 : Vec Ideal S1024x256 .f32) (x2 : Vec Ideal S1024 .f32) (x3 x4 x5 : Vec Ideal S1x512 .f32)
  (x6 : Vec Ideal S1x1 .f32)

/-- The gate's pre-activation without its bias, at row `r`: the rectified, normalised features of the joined row
    against the gate's weights. -/
theorem preact_row (r : Fin 1024) :
    k0_pay2 x0 x1 x3 x4 x5 (ix2 r (0 : Fin 1))
      = ∑ k : Fin 512, Cert.Spec.hidden (Cert.Spec.catRow (fun k => x0 (ix2 r k)) (fun k => x1 (ix2 r k)))
          (fun k => x3 (ix2 0 k)) (fun k => x4 (ix2 0 k)) k * x5 (ix2 0 k) := by
  unfold k0_pay2
  dsimp only
  -- the outermost lane sum, as a column: the sum over the row's 512 lanes
  refine (column_of_vector _ _ r 0).trans ?_
  refine (lane_sum _ _ _ r).trans ?_
  refine Finset.sum_congr rfl fun k _ => ?_
  -- lane `k`: every entrywise step at `(r, k)`, the joined row, the spread columns and rows
  simp only [mulf_apply, maximumf_apply, addf_apply, subf_apply, divf_apply, broadcast_apply, rsqrt_at,
    broadcastTo_1b_ab_apply, column_spread, column_of_vector, joined_row, shapeCast_self, Ideal.ofBits_def]
  -- the mean's and the variance's lane sums; inside the variance's summand the same steps once more
  rw [lane_sum, lane_sum]
  simp only [mulf_apply, maximumf_apply, addf_apply, subf_apply, divf_apply, broadcast_apply, rsqrt_at,
    broadcastTo_1b_ab_apply, column_spread, column_of_vector, joined_row, shapeCast_self, Ideal.ofBits_def]
  rw [lane_sum]
  simp only [mulf_apply, maximumf_apply, addf_apply, subf_apply, divf_apply, broadcast_apply, rsqrt_at,
    broadcastTo_1b_ab_apply, column_spread, column_of_vector, joined_row, shapeCast_self, Ideal.ofBits_def]
  rfl

/-- The whole payload at row `r`: the gate of the joined row. -/
theorem gate_row (r : Fin 1024) :
    k0_pay1 (k0_pay2 x0 x1 x3 x4 x5) x6 x2 (ix1 r)
      = Cert.Spec.gate (Cert.Spec.catRow (fun k => x0 (ix2 r k)) (fun k => x1 (ix2 r k)))
          (fun k => x3 (ix2 0 k)) (fun k => x4 (ix2 0 k)) (fun k => x5 (ix2 0 k)) (x6 (ix2 0 0)) (x2 (ix1 r)) := by
  unfold k0_pay1
  simp only [mulf_apply, addf_apply, tanh_at, shapeCast_self, vector_of_column, broadcastTo_1b_ab_apply]
  rw [preact_row]
  rfl

end Payload

/-! ## The blocks, read where the arrays have them -/

section Blocks
variable (V : (c : Dev nD) → (b : Ref sig .tc) → Buf (Elt Ideal) ((c : Thread nD τ).loc b))

/-- The block index of every window at every point of the grid: the three per-edge inputs and the output move one
    block of 1024 edges per point, the four parameter windows stay on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = t.val :=
  (by decide +kernel : ∀ t : Fin grid0.N, _)

theorem points_lt (t : Fin cfg0.N) : t.val < 256 := t.isLt

/-- The subject rows' block at point `t` is rows `1024 t …` of the gathered subject features. -/
theorem subject_block (c : Dev nD) (t : Fin cfg0.N) (r : Fin 1024) (k : Fin 256) :
    (Edge.blk V c 0 t : Vec Ideal S1024x256 .f32) (ix2 r k)
      = (V c main_v28 : S262144x256.Idx → EReal) (ix2 ⟨1024 * t.val + r.val, by have := points_lt t; omega⟩ k) := by
  obtain ⟨e0, e1, -⟩ := block_indices t
  unfold Edge.blk
  rw [View.read_apply]
  show V c main_v28 _ = V c main_v28 _
  congr 1
  funext a
  apply Fin.ext
  match a with
  | ⟨0, _⟩ => show win0_0.index t 0 * 1024 + 1 * r.val = 1024 * t.val + r.val; rw [e0]; omega
  | ⟨1, _⟩ => show win0_0.index t 1 * 256 + 1 * k.val = k.val; rw [e1]; omega

/-- The object rows' block at point `t` is rows `1024 t …` of the gathered object features. -/
theorem object_block (c : Dev nD) (t : Fin cfg0.N) (r : Fin 1024) (k : Fin 256) :
    (Edge.blk V c 1 t : Vec Ideal S1024x256 .f32) (ix2 r k)
      = (V c main_v35 : S262144x256.Idx → EReal) (ix2 ⟨1024 * t.val + r.val, by have := points_lt t; omega⟩ k) := by
  obtain ⟨-, -, e0, e1, -⟩ := block_indices t
  unfold Edge.blk
  rw [View.read_apply]
  show V c main_v35 _ = V c main_v35 _
  congr 1
  funext a
  apply Fin.ext
  match a with
  | ⟨0, _⟩ => show win0_1.index t 0 * 1024 + 1 * r.val = 1024 * t.val + r.val; rw [e0]; omega
  | ⟨1, _⟩ => show win0_1.index t 1 * 256 + 1 * k.val = k.val; rw [e1]; omega

/-- The normalisations' block at point `t` is entries `1024 t …` of the edges' normalisations. -/
theorem norm_block (c : Dev nD) (t : Fin cfg0.N) (r : Fin 1024) :
    (Edge.blk V c 2 t : Vec Ideal S1024 .f32) (ix1 r)
      = (V c main_v21 : S262144.Idx → EReal) (ix1 ⟨1024 * t.val + r.val, by have := points_lt t; omega⟩) := by
  obtain ⟨-, -, -, -, e0, -⟩ := block_indices t
  unfold Edge.blk
  rw [View.read_apply]
  show V c main_v21 _ = V c main_v21 _
  congr 1
  funext a
  apply Fin.ext
  match a with
  | ⟨0, _⟩ => show win0_2.index t 0 * 1024 + 1 * r.val = 1024 * t.val + r.val; rw [e0]; omega

/-- The scale's window is the whole row of 512 scales at every point. -/
theorem scale_block (c : Dev nD) (t : Fin cfg0.N) (k : Fin 512) :
    (Edge.blk V c 3 t : Vec Ideal S1x512 .f32) (ix2 0 k) = (V c main_v36 : S1x512.Idx → EReal) (ix2 0 k) := by
  obtain ⟨-, -, -, -, -, e0, e1, -⟩ := block_indices t
  unfold Edge.blk
  rw [View.read_apply]
  show V c main_v36 _ = V c main_v36 _
  congr 1
  funext a
  apply Fin.ext
  match a with
  | ⟨0, _⟩ => show win0_3.index t 0 * 1 + 1 * 0 = 0; rw [e0]
  | ⟨1, _⟩ => show win0_3.index t 1 * 512 + 1 * k.val = k.val; rw [e1]; omega

/-- The shift's window is the whole row of 512 shifts at every point. -/
theorem shift_block (c : Dev nD) (t : Fin cfg0.N) (k : Fin 512) :
    (Edge.blk V c 4 t : Vec Ideal S1x512 .f32) (ix2 0 k) = (V c main_v37 : S1x512.Idx → EReal) (ix2 0 k) := by
  obtain ⟨-, -, -, -, -, -, -, e0, e1, -⟩ := block_indices t
  unfold Edge.blk
  rw [View.read_apply]
  show V c main_v37 _ = V c main_v37 _
  congr 1
  funext a
  apply Fin.ext
  match a with
  | ⟨0, _⟩ => show win0_4.index t 0 * 1 + 1 * 0 = 0; rw [e0]
  | ⟨1, _⟩ => show win0_4.index t 1 * 512 + 1 * k.val = k.val; rw [e1]; omega

/-- The gate weights' window is the whole row of 512 weights at every point. -/
theorem weight_block (c : Dev nD) (t : Fin cfg0.N) (k : Fin 512) :
    (Edge.blk V c 5 t : Vec Ideal S1x512 .f32) (ix2 0 k) = (V c main_v38 : S1x512.Idx → EReal) (ix2 0 k) := by
  obtain ⟨-, -, -, -, -, -, -, -, -, e0, e1, -⟩ := block_indices t
  unfold Edge.blk
  rw [View.read_apply]
  show V c main_v38 _ = V c main_v38 _
  congr 1
  funext a
  apply Fin.ext
  match a with
  | ⟨0, _⟩ => show win0_5.index t 0 * 1 + 1 * 0 = 0; rw [e0]
  | ⟨1, _⟩ => show win0_5.index t 1 * 512 + 1 * k.val = k.val; rw [e1]; omega

/-- The bias's window is the one bias at every point. -/
theorem bias_block (c : Dev nD) (t : Fin cfg0.N) :
    (Edge.blk V c 6 t : Vec Ideal S1x1 .f32) (ix2 0 0) = (V c main_v39 : S1x1.Idx → EReal) (ix2 0 0) := by
  obtain ⟨-, -, -, -, -, -, -, -, -, -, -, e0, e1, -⟩ := block_indices t
  unfold Edge.blk
  rw [View.read_apply]
  show V c main_v39 _ = V c main_v39 _
  congr 1
  funext a
  apply Fin.ext
  match a with
  | ⟨0, _⟩ => show win0_6.index t 0 * 1 + 1 * 0 = 0; rw [e0]
  | ⟨1, _⟩ => show win0_6.index t 1 * 1 + 1 * 0 = 0; rw [e1]

end Blocks

/-! ## From the blocks to the array -/

section Array
variable (V : (c : Dev nD) → (b : Ref sig .tc) → Buf (Elt Ideal) ((c : Thread nD τ).loc b))

/-- Every edge's gate, as one function of the arrays the region finds. -/
abbrev allGates (c : Dev nD) : S262144.Idx → EReal :=
  Cert.Spec.gates (V c main_v28) (V c main_v35) (V c main_v21) (fun k => V c main_v36 (ix2 0 k))
    (fun k => V c main_v37 (ix2 0 k)) (fun k => V c main_v38 (ix2 0 k)) (V c main_v39 (ix2 0 0))

/-- Entry `r` of the output's block at point `t` is edge `1024 t + r`. -/
theorem output_index (t : Fin cfg0.N) (r : Fin 1024) :
    (((cfg0.win 7).blk t).view.emb (ix1 r) : S262144.Idx)
      = ix1 ⟨1024 * t.val + r.val, by have := points_lt t; omega⟩ := by
  have e := (block_indices t).2.2.2.2.2.2.2.2.2.2.2.2.2
  funext a
  apply Fin.ext
  match a with
  | ⟨0, _⟩ => show win0_7.index t 0 * 1024 + 1 * r.val = 1024 * t.val + r.val; rw [e]; omega

/-- What point `t` writes back is block `t` of the gates. -/
theorem written_block (c : Dev nD) (t : Fin cfg0.N) :
    (Edge.dat0 (F := Ideal) V c).flushed 7 t = ((cfg0.win 7).blk t).view.read (Elt Ideal) (allGates V c) := by
  show (cfg0.win 7).cut (grid0.coords t) ((Edge.dat0 (F := Ideal) V c).after 7 t) = _
  rw [Edge.after0_7, Edge.edgeOut_eq]
  funext y
  obtain ⟨r, rfl⟩ : ∃ r : Fin 1024, y = ix1 r := ⟨y 0, eq_ix1 y⟩
  rw [View.read_apply]
  refine (gate_row (Edge.blk V c 0 t) (Edge.blk V c 1 t) (Edge.blk V c 2 t) (Edge.blk V c 3 t) (Edge.blk V c 4 t)
    (Edge.blk V c 5 t) (Edge.blk V c 6 t) r).trans ?_
  show _ = allGates V c (((cfg0.win 7).blk t).view.emb (ix1 r))
  rw [output_index]
  simp only [subject_block, object_block, norm_block, scale_block, shift_block, weight_block, bias_block]
  rfl

/-- Edge `e` lies in the block of point `e / 1024`. -/
theorem edge_covered (i : S262144.Idx) :
    ∃ t : Fin cfg0.N, (cfg0.win 7).flush t = true ∧ i ∈ ((cfg0.win 7).blk t).view.set := by
  have hi : (i 0).val < 262144 := (i 0).isLt
  have hq : (i 0).val / 1024 < 256 := by omega
  obtain ⟨t, ht⟩ : ∃ t : Fin cfg0.N, t.val = (i 0).val / 1024 := ⟨⟨_, hq⟩, rfl⟩
  have e := (block_indices t).2.2.2.2.2.2.2.2.2.2.2.2.2
  refine ⟨t, flush0_7 t, ?_⟩
  show i ∈ ((View.whole main_v40).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    rw [e, ht]
    omega

/-- After the last point the output array holds every edge's gate. -/
theorem final_g (c : Dev nD) :
    (Edge.dat0 (F := Ideal) V c).arrAt 7 cfg0.N
      = Cert.Spec.gates (V c main_v28) (V c main_v35) (V c main_v21) (fun k => V c main_v36 (ix2 0 k))
          (fun k => V c main_v37 (ix2 0 k)) (fun k => V c main_v38 (ix2 0 k)) (V c main_v39 (ix2 0 0)) :=
  (Edge.dat0 (F := Ideal) V c).arrAt_eq_of_cover 7 (allGates V c) (fun t _ => written_block V c t) edge_covered

end Array

end Cert.KernelIdeal.EdgeValue

end
-- ==== Proof.KI.MmValue.lean ====
import proofs.«429181_j20521353740426_3_alg».proof.Proof.KI.Mm
import proofs.«429181_j20521353740426_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! # What the blocked product leaves in its output array

When the second region ends, its output array holds the adjacency matrix times the node features: entry (n, h) is
`∑ⱼ A n j · X j h` over all 8192 columns, on the extended reals.

Three steps lead there.

* One step of the body at an entry (p, q) adds, to what the accumulator held, row p of a 2048 × 2048 tile of the matrix
  against column q of 2048 consecutive rows of the feature table. On the extended reals a tile product started from the
  zero splat is a plain sum of 2048 products, and the rows a step reads are rows 2048 k … 2048 k + 2047 of the table.
* Along row tile i the four steps add the terms of tiles (i, 0) … (i, 3), in that order, onto the zero literal. Addition
  of extended reals is commutative and associative, so the four partial sums are one sum over the 8192 columns.
* The block written back at the last point of row tile i lies at rows 2048 i … 2048 i + 2047 of the array, and the four
  blocks cover it: row n is in the block of tile n / 2048. -/

noncomputable section

namespace Cert.KernelIdeal.MmValue

open Cert.KernelIdeal Cert.KernelIdeal.Gen Idealize.ShloMosaic Idealize.ShloMosaic.TcCoe Idealize.ShloMosaic.ValueIdx

/-! ## One tile product at an entry

The tile product contracts the left factor's columns with the right factor's rows. The four lemmas below say which
coordinate of each factor an output entry and a summation index select. -/

/-- The left factor's row is the output's row. -/
theorem lhs_row (j : S2048x256.Idx) (u : dot_S2048x2048_S2048x256_S2048x256_1_0_0_1_n_n.contr.Idx) :
    (dot_S2048x2048_S2048x256_S2048x256_1_0_0_1_n_n.lhsIdx j u 0).val = (j 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
/-- The left factor's column is the summation index. -/
theorem lhs_col (j : S2048x256.Idx) (u : dot_S2048x2048_S2048x256_S2048x256_1_0_0_1_n_n.contr.Idx) :
    (dot_S2048x2048_S2048x256_S2048x256_1_0_0_1_n_n.lhsIdx j u 1).val = (u ⟨0, by decide⟩).val :=
  dot_S2048x2048_S2048x256_S2048x256_1_0_0_1_n_n.lhsIdx_val_of_single rfl j u
/-- The right factor's row is the summation index. -/
theorem rhs_row (j : S2048x256.Idx) (u : dot_S2048x2048_S2048x256_S2048x256_1_0_0_1_n_n.contr.Idx) :
    (dot_S2048x2048_S2048x256_S2048x256_1_0_0_1_n_n.rhsIdx j u 0).val = (u ⟨0, by decide⟩).val :=
  dot_S2048x2048_S2048x256_S2048x256_1_0_0_1_n_n.rhsIdx_val_of_single rfl j u
/-- The right factor's column is the output's column. -/
theorem rhs_col (j : S2048x256.Idx) (u : dot_S2048x2048_S2048x256_S2048x256_1_0_0_1_n_n.contr.Idx) :
    (dot_S2048x2048_S2048x256_S2048x256_1_0_0_1_n_n.rhsIdx j u 1).val = (j 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- A 2048 × 2048 tile times a 2048 × 256 tile, started from the zero splat, at entry (p, q): row p of the first
    against column q of the second, a plain sum of 2048 products on the extended reals. -/
theorem tile_product (a : FVec Ideal S2048x2048 .bf16) (b : FVec Ideal S2048x256 .bf16) (p : Fin 2048) (q : Fin 256) :
    matmul (F := Ideal) (φ₁ := .bf16) (φ₂ := .bf16) dot_S2048x2048_S2048x256_S2048x256_1_0_0_1_n_n none a b (constant (F := Ideal) S2048x256 .f32 0x00000000#32) (ix2 p q)
      = ∑ r : Fin 2048, a (ix2 p r) * b (ix2 r q) := by
  simp only [matmul]
  rw [Ideal.matmul_constant_zero_apply, ← Equiv.sum_comp (contrEquiv1 dot_S2048x2048_S2048x256_S2048x256_1_0_0_1_n_n 2048 rfl rfl).symm]
  refine Finset.sum_congr rfl fun r _ => ?_
  have hr := contrEquiv1_symm_val dot_S2048x2048_S2048x256_S2048x256_1_0_0_1_n_n 2048 rfl rfl r
  have el : dot_S2048x2048_S2048x256_S2048x256_1_0_0_1_n_n.lhsIdx (ix2 p q) ((contrEquiv1 dot_S2048x2048_S2048x256_S2048x256_1_0_0_1_n_n 2048 rfl rfl).symm r) = ix2 p r := funext fun x => Fin.ext (by
    match x with
    | ⟨0, _⟩ => exact lhs_row _ _
    | ⟨1, _⟩ => exact (lhs_col _ _).trans hr)
  have er : dot_S2048x2048_S2048x256_S2048x256_1_0_0_1_n_n.rhsIdx (ix2 p q) ((contrEquiv1 dot_S2048x2048_S2048x256_S2048x256_1_0_0_1_n_n 2048 rfl rfl).symm r) = ix2 r q := funext fun x => Fin.ext (by
    match x with
    | ⟨0, _⟩ => exact (rhs_row _ _).trans hr
    | ⟨1, _⟩ => exact rhs_col _ _)
  rw [el, er]

/-- The update the body stores, at entry (p, q): what the accumulator held there plus row p of the matrix tile against
    column q of the table's rows. The casts between equal shapes are identities. -/
theorem update_entry (v6 : Vec Ideal S2048x256 .bf16) (v8 : Vec Ideal S2048x256 .f32) (v9 : Vec Ideal S2048x2048 .bf16)
    (p : Fin 2048) (q : Fin 256) :
    k1_pay2 (F := Ideal) v6 v8 v9 (ix2 p q) = v8 (ix2 p q) + ∑ r : Fin 2048, v9 (ix2 p r) * v6 (ix2 r q) := by
  unfold k1_pay2
  simp only [shapeCast_self]
  refine (addf_apply _ _ _).trans ?_
  exact congrArg (v8 (ix2 p q) + ·) (tile_product v9 v6 p q)

/-- The fill the body stores at the first step of a row tile is the zero literal everywhere. -/
theorem fill_entry (p : Fin 2048) (q : Fin 256) : k1_pay1 (F := Ideal) (ix2 p q) = Cert.Spec.cZero := by
  unfold k1_pay1
  simp only [shapeCast_self]
  rfl

/-! ## The step's rows of the feature table -/

/-- The slice of the table a step loads starts at row 2048 × (the step's number) and at column 0. -/
theorem slice_origin (i : grid1.Coords) : k1_off1 i 0 = (i 1).val * 2048 ∧ k1_off1 i 1 = 0 := by
  have h : (i 1).val < 4 := (i 1).isLt
  refine ⟨?_, rfl⟩
  show (Scalar.indexCast (Scalar.muli (BitVec.ofNat 32 (i 1).val) 2048#32)).toNat = (i 1).val * 2048
  generalize (i 1).val = k at h
  interval_cases k <;> rfl

/-- Row r, column q of the slice at step k is row 2048 k + r, column q of the table. -/
theorem rows_entry (i : grid1.Coords) (k : Fin 4) (hk : (i 1).val = k.val) (b : Vec Ideal S8192x256 .bf16)
    (r : Fin 2048) (q : Fin 256) :
    Mm.rhsRows (F := Ideal) i b (ix2 r q) = b (ix2 (Cert.Spec.blockCol k r) q) := by
  unfold Mm.rhsRows View.ld
  refine congrArg b (funext fun x => Fin.ext ?_)
  match x with
  | ⟨0, _⟩ =>
    show k1_off1 i 0 + 1 * r.val = k.val * 2048 + r.val
    rw [(slice_origin i).1, hk]; omega
  | ⟨1, _⟩ =>
    show k1_off1 i 1 + 1 * q.val = q.val
    rw [(slice_origin i).2]; omega

/-- One step at entry (p, q): the accumulator's entry plus row p of the matrix tile against column q of rows
    2048 k … 2048 k + 2047 of the whole table. -/
theorem step_entry (i : grid1.Coords) (k : Fin 4) (hk : (i 1).val = k.val) (a : Vec Ideal S2048x2048 .bf16)
    (b : Vec Ideal S8192x256 .bf16) (s : Vec Ideal S2048x256 .f32) (p : Fin 2048) (q : Fin 256) :
    Mm.step (F := Ideal) i a b s (ix2 p q)
      = s (ix2 p q) + ∑ r : Fin 2048, a (ix2 p r) * b (ix2 (Cert.Spec.blockCol k r) q) := by
  unfold Mm.step
  refine (update_entry (Mm.rhsRows (F := Ideal) i b) s a p q).trans ?_
  exact congrArg (s (ix2 p q) + ·) (Finset.sum_congr rfl fun r _ => congrArg (a (ix2 p r) * ·) (rows_entry i k hk b r q))

/-! ## The blocks, where the arrays have them

The region's arrays as it finds them and the blocks its windows read, each named at its literal type. -/

variable (V : (c : Dev nD) → (b : Ref sig .tc) → Buf (Elt Ideal) ((c : Thread nD τ).loc b))

/-- The adjacency matrix. -/
abbrev adj (c : Dev nD) : Vec Ideal S8192x8192 .bf16 := V c main_v57
/-- The node features. -/
abbrev feat (c : Dev nD) : Vec Ideal S8192x256 .bf16 := V c main_v41
/-- The matrix tile the first window reads at a point. -/
abbrev adjBlk (c : Dev nD) (t : Fin cfg1.N) : Vec Ideal S2048x2048 .bf16 := Mm.blk V c 0 t
/-- The table as the second window reads it at a point. -/
abbrev featBlk (c : Dev nD) (t : Fin cfg1.N) : Vec Ideal S8192x256 .bf16 := Mm.blk V c 1 t

/-- Point t = 4 i + k: the matrix window is on tile (i, k), the table's window on its one block, the output's on
    row tile i, and the body's second grid coordinate is k. -/
theorem point_facts : ∀ t : Fin cfg1.N,
    win1_0.index t 0 = t.val / 4 ∧ win1_0.index t 1 = t.val % 4 ∧ win1_1.index t 0 = 0 ∧ win1_1.index t 1 = 0
      ∧ win1_2.index t 0 = t.val / 4 ∧ win1_2.index t 1 = 0 ∧ (grid1.coords t 1).val = t.val % 4 :=
  (by decide +kernel : ∀ t : Fin grid1.N,
    win1_0.index t 0 = t.val / 4 ∧ win1_0.index t 1 = t.val % 4 ∧ win1_1.index t 0 = 0 ∧ win1_1.index t 1 = 0
      ∧ win1_2.index t 0 = t.val / 4 ∧ win1_2.index t 1 = 0 ∧ (grid1.coords t 1).val = t.val % 4)

/-- Entry (p, r) of the matrix tile at point 4 i + k is entry (2048 i + p, 2048 k + r) of the matrix. -/
theorem adjBlk_entry (c : Dev nD) (t : Fin cfg1.N) (i k : Fin 4) (hi : t.val / 4 = i.val) (hk : t.val % 4 = k.val)
    (p r : Fin 2048) :
    adjBlk V c t (ix2 p r) = adj V c (ix2 (Cert.Spec.blockCol i p) (Cert.Spec.blockCol k r)) := by
  unfold adjBlk adj Mm.blk
  rw [View.read_apply]
  show V c main_v57 _ = V c main_v57 _
  refine congrArg (V c main_v57) (funext fun x => Fin.ext ?_)
  match x with
  | ⟨0, _⟩ =>
    show win1_0.index t 0 * 2048 + 1 * p.val = i.val * 2048 + p.val
    rw [(point_facts t).1, hi]; omega
  | ⟨1, _⟩ =>
    show win1_0.index t 1 * 2048 + 1 * r.val = k.val * 2048 + r.val
    rw [(point_facts t).2.1, hk]; omega

/-- The table's one block is the table. -/
theorem featBlk_eq (c : Dev nD) (t : Fin cfg1.N) : featBlk V c t = feat V c := by
  funext y
  unfold featBlk feat Mm.blk
  rw [View.read_apply]
  show V c main_v41 _ = V c main_v41 _
  refine congrArg (V c main_v41) (funext fun x => Fin.ext ?_)
  match x with
  | ⟨0, _⟩ =>
    show win1_1.index t 0 * 8192 + 1 * (y 0).val = (y 0).val
    rw [(point_facts t).2.2.1]; omega
  | ⟨1, _⟩ =>
    show win1_1.index t 1 * 256 + 1 * (y 1).val = (y 1).val
    rw [(point_facts t).2.2.2.1]; omega

/-! ## The accumulator along a row tile -/

/-- What tile (i, k) adds to entry (p, q) of row tile i: row 2048 i + p of the matrix, restricted to columns
    2048 k … 2048 k + 2047, against column q of the features. -/
def tileTerm (c : Dev nD) (i k : Fin 4) (p : Fin 2048) (q : Fin 256) : EReal :=
  ∑ r : Fin 2048, adj V c (ix2 (Cert.Spec.blockCol i p) (Cert.Spec.blockCol k r)) * feat V c (ix2 (Cert.Spec.blockCol k r) q)

/-- One step at point 4 i + k adds tile (i, k)'s term. -/
theorem point_step (c : Dev nD) (t : Fin cfg1.N) (i k : Fin 4) (hi : t.val / 4 = i.val) (hk : t.val % 4 = k.val)
    (s : Vec Ideal S2048x256 .f32) (p : Fin 2048) (q : Fin 256) :
    Mm.step (F := Ideal) (grid1.coords t) (adjBlk V c t) (featBlk V c t) s (ix2 p q) = s (ix2 p q) + tileTerm V c i k p q := by
  refine (step_entry (grid1.coords t) k ((point_facts t).2.2.2.2.2.2.trans hk) (adjBlk V c t) (featBlk V c t) s p q).trans ?_
  refine congrArg (s (ix2 p q) + ·) (Finset.sum_congr rfl fun r _ => ?_)
  rw [adjBlk_entry V c t i k hi hk p r, featBlk_eq V c t]

/-- After the first point of row tile i: the zero literal plus tile (i, 0)'s term. -/
theorem acc_first (c : Dev nD) (n : ℕ) (hn : n < cfg1.N) (i : Fin 4) (hi : n / 4 = i.val) (h0 : n % 4 = 0)
    (p : Fin 2048) (q : Fin 256) :
    Mm.accAt V c n hn (ix2 p q) = Cert.Spec.cZero + tileTerm V c i 0 p q := by
  refine (congrFun (Mm.accAt_first V c ⟨n, hn⟩ h0) (ix2 p q)).trans ?_
  refine (point_step V c ⟨n, hn⟩ i 0 hi h0 (k1_pay1 (F := Ideal)) p q).trans ?_
  rw [fill_entry]

/-- After any later point 4 i + k of the row tile: what the point before left plus tile (i, k)'s term. -/
theorem acc_next (c : Dev nD) (n : ℕ) (hn : n < cfg1.N) (i k : Fin 4) (hi : n / 4 = i.val) (hk : n % 4 = k.val)
    (hne : n % 4 ≠ 0) (p : Fin 2048) (q : Fin 256) :
    Mm.accAt V c n hn (ix2 p q)
      = Mm.accAt V c (n - 1) (Nat.lt_of_le_of_lt (Nat.sub_le _ _) hn) (ix2 p q) + tileTerm V c i k p q := by
  refine (congrFun (Mm.accAt_next V c ⟨n, hn⟩ hne) (ix2 p q)).trans ?_
  exact point_step V c ⟨n, hn⟩ i k hi hk _ p q

/-- After the last point of row tile i the accumulator's entry (p, q) is the whole row 2048 i + p of the matrix against
    column q of the features: four tile terms added in order onto the zero literal, regrouped as one sum over the
    8192 columns. -/
theorem acc_row (c : Dev nD) (n : ℕ) (hn : n < cfg1.N) (i : Fin 4) (hi : n / 4 = i.val) (h3 : n % 4 = 3)
    (p : Fin 2048) (q : Fin 256) :
    Mm.accAt V c n hn (ix2 p q) = ∑ j : Fin 8192, adj V c (ix2 (Cert.Spec.blockCol i p) j) * feat V c (ix2 j q) := by
  rw [acc_next V c n hn i 3 hi h3 (by omega) p q,
    acc_next V c (n - 1) _ i 2 (by omega) (by show (n - 1) % 4 = 2; omega) (by omega) p q,
    acc_next V c (n - 1 - 1) _ i 1 (by omega) (by show (n - 1 - 1) % 4 = 1; omega) (by omega) p q,
    acc_first V c (n - 1 - 1 - 1) _ i (by omega) (by omega) p q]
  refine (Cert.Spec.acc_four fun b => tileTerm V c i b p q).trans ?_
  exact (Cert.Spec.sum_blocks fun j => adj V c (ix2 (Cert.Spec.blockCol i p) j) * feat V c (ix2 j q)).symm

/-! ## From the row tiles to the array -/

/-- The specification's product at an entry named by its two coordinates. -/
theorem aggregate_at (A : Vec Ideal S8192x8192 .bf16) (X : Vec Ideal S8192x256 .bf16) (n : Fin 8192) (q : Fin 256)
    (j : S8192x256.Idx) (h0 : (j 0).val = n.val) (h1 : (j 1).val = q.val) :
    Cert.Spec.aggregate A X j = ∑ x : Fin 8192, A (ix2 n x) * X (ix2 x q) := by
  obtain rfl : j = ix2 n q := funext fun a => by
    match a with
    | ⟨0, _⟩ => exact Fin.ext h0
    | ⟨1, _⟩ => exact Fin.ext h1
  rfl

/-- What a point that writes the output's block back writes is that block of the product: the point is the last of
    its row tile i, the accumulator there holds the full rows 2048 i … 2048 i + 2047, and the block sits in the array at
    those rows. -/
theorem written_back (c : Dev nD) (t : Fin cfg1.N) (hf : (cfg1.win 2).flush t = true) :
    (Mm.dat1 (F := Ideal) V c).flushed 2 t
      = ((cfg1.win 2).blk t).view.read (Elt Ideal) (Cert.Spec.aggregate (V c main_v57) (V c main_v41)) := by
  have h3 : t.val % 4 = 3 := (flush1_2 t).mp hf
  have hlt : t.val < 16 := N_1 ▸ t.isLt
  funext y
  have hy0 : (y 0).val < 2048 := (y 0).isLt
  have hy1 : (y 1).val < 256 := (y 1).isLt
  have ey : (cfg1.win 2).xinj (grid1.coords t) y = ix2 (⟨(y 0).val, hy0⟩ : Fin 2048) (⟨(y 1).val, hy1⟩ : Fin 256) :=
    funext fun a => by
      match a with
      | ⟨0, _⟩ => rfl
      | ⟨1, _⟩ => rfl
  show (Mm.dat1 (F := Ideal) V c).after 2 t ((cfg1.win 2).xinj (grid1.coords t) y) = _
  rw [Mm.after1_2, View.read_apply]
  refine (congrArg (Mm.accAt V c t.val t.isLt) ey).trans ?_
  refine (acc_row V c t.val t.isLt ⟨t.val / 4, by omega⟩ rfl h3 ⟨(y 0).val, hy0⟩ ⟨(y 1).val, hy1⟩).trans ?_
  refine (aggregate_at (adj V c) (feat V c) (Cert.Spec.blockCol ⟨t.val / 4, by omega⟩ ⟨(y 0).val, hy0⟩) ⟨(y 1).val, hy1⟩ _ ?_ ?_).symm
  · show win1_2.index t 0 * 2048 + 1 * (y 0).val = t.val / 4 * 2048 + (y 0).val
    rw [(point_facts t).2.2.2.2.1]; omega
  · show win1_2.index t 1 * 256 + 1 * (y 1).val = (y 1).val
    rw [(point_facts t).2.2.2.2.2.1]; omega

/-- Every entry of the output lies in a block that is written back: row n in the block of row tile n / 2048, written
    at that tile's last point. -/
theorem covered (j : S8192x256.Idx) :
    ∃ t : Fin cfg1.N, (cfg1.win 2).flush t = true ∧ j ∈ ((cfg1.win 2).blk t).view.set := by
  have h0 : (j 0 : Nat) < 8192 := (j 0).isLt
  have h1 : (j 1 : Nat) < 256 := (j 1).isLt
  have ht : 4 * ((j 0 : Nat) / 2048) + 3 < cfg1.N := by show _ < grid1.N; rw [N_1]; omega
  refine ⟨⟨4 * ((j 0 : Nat) / 2048) + 3, ht⟩, (flush1_2 _).mpr (by show (4 * ((j 0 : Nat) / 2048) + 3) % 4 = 3; omega), ?_⟩
  show j ∈ ((View.whole main_v58).slice (win1_2.rect ⟨4 * ((j 0 : Nat) / 2048) + 3, ht⟩)).set
  rw [View.set_slice_whole, Rect.mem_set_unit]
  intro a
  match a with
  | ⟨0, _⟩ =>
    show win1_2.index ⟨4 * ((j 0 : Nat) / 2048) + 3, ht⟩ 0 * 2048 ≤ (j 0 : Nat)
      ∧ (j 0 : Nat) < win1_2.index ⟨4 * ((j 0 : Nat) / 2048) + 3, ht⟩ 0 * 2048 + 2048
    rw [(point_facts ⟨4 * ((j 0 : Nat) / 2048) + 3, ht⟩).2.2.2.2.1]
    show (4 * ((j 0 : Nat) / 2048) + 3) / 4 * 2048 ≤ (j 0 : Nat) ∧ (j 0 : Nat) < (4 * ((j 0 : Nat) / 2048) + 3) / 4 * 2048 + 2048
    omega
  | ⟨1, _⟩ =>
    show win1_2.index ⟨4 * ((j 0 : Nat) / 2048) + 3, ht⟩ 1 * 256 ≤ (j 1 : Nat)
      ∧ (j 1 : Nat) < win1_2.index ⟨4 * ((j 0 : Nat) / 2048) + 3, ht⟩ 1 * 256 + 256
    rw [(point_facts ⟨4 * ((j 0 : Nat) / 2048) + 3, ht⟩).2.2.2.2.2.1]
    omega

/-- THE RESULT. When the region ends its output array holds the adjacency matrix times the node features. -/
theorem final_o (c : Dev nD) :
    (Mm.dat1 (F := Ideal) V c).arrAt 2 cfg1.N = Cert.Spec.aggregate (V c main_v57) (V c main_v41) :=
  (Mm.dat1 (F := Ideal) V c).arrAt_eq_of_cover 2 (Cert.Spec.aggregate (V c main_v57) (V c main_v41))
    (written_back V c) covered

end Cert.KernelIdeal.MmValue

end
-- ==== Proof.RefValue.lean ====
import proofs.«429181_j20521353740426_3_alg».proof.Proof.Gen.ReferenceIdeal.Read
import proofs.«429181_j20521353740426_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! # The reference's two results, in the specification's terms

The reference returns the edge gates and the aggregated node features. Per edge, it lays the
subject's and the object's gathered features side by side in one row of 512, normalises that row
(mean, variance about the mean, reciprocal root), scales, shifts and rectifies it, contracts it
with the gate's weights, adds the bias, takes the hyperbolic tangent and multiplies by the edge's
normalisation. Every step acts on one row, so the whole is read row by row: each intermediate array
at edge `e` is a function of the row of `e` alone. The aggregated features are the product of
the scattered adjacency with the node features, a sum over the 8192 columns. -/

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-! ## Indices named by their coordinates -/

/-- A rank-2 index is determined by the numerical values of its two coordinates. -/
theorem ix2_of_vals {n0 n1 : Nat} (j : (⟨2, ![n0, n1]⟩ : Shape).Idx) (a : Fin n0) (b : Fin n1)
    (h0 : (j 0).val = a.val) (h1 : (j 1).val = b.val) : j = ix2 a b :=
  funext fun d => match d with
    | ⟨0, _⟩ => Fin.ext h0
    | ⟨1, _⟩ => Fin.ext h1

/-- A rank-1 index is determined by the numerical value of its coordinate. -/
theorem ix1_of_val {n : Nat} (j : (⟨1, ![n]⟩ : Shape).Idx) (a : Fin n) (h : (j 0).val = a.val) : j = ix1 a :=
  funext fun d => match d with
    | ⟨0, _⟩ => Fin.ext h

/-! ## The adjacency -/

/-- The adjacency matrix: the gates written into a zero matrix at the edges' endpoint pairs. The
    writing operation itself is left unopened, since both programs apply the same one. -/
def adj (p : (⟨S262144x2, .i32⟩ : BufTy).Contents (Elt Ideal)) (g : S262144.Idx → EReal) : S8192x8192.Idx → EReal :=
  Host.scatter scatter_S8192x8192_S262144x2_S262144_n_01_01_1 (fun _ b => b) (val_main_v69 (F := Ideal))
    (val_main_v82 (F := Ideal) p) g

section
variable (x0 : (⟨S8192x256, .f32⟩ : BufTy).Contents (Elt Ideal)) (x1 : (⟨S8192, .f32⟩ : BufTy).Contents (Elt Ideal))
  (x2 : (⟨S262144x2, .i32⟩ : BufTy).Contents (Elt Ideal)) (x3 x4 : (⟨S512, .f32⟩ : BufTy).Contents (Elt Ideal))
  (x5 : (⟨S512x1, .f32⟩ : BufTy).Contents (Elt Ideal)) (x6 : (⟨S1, .f32⟩ : BufTy).Contents (Elt Ideal))

/-- The reference's adjacency is `adj` of its own gates. -/
theorem ref_adj :
    val_main_v83 (F := Ideal) x0 x1 x2 x3 x4 x5 x6 = adj x2 (val_main_v68 (F := Ideal) x0 x1 x2 x3 x4 x5 x6) := rfl

/-! ## One edge's row -/

/-- Edge `e`'s row of 512 features, as the reference lays it out. -/
def row (e : Fin 262144) : Fin 512 → EReal := fun k => val_main_v36 (F := Ideal) x0 x2 (ix2 e k)

/-- The row is the subject's 256 gathered features followed by the object's: a position below 256
    falls in the first piece, any other in the second, 256 places further left. -/
theorem row_cat (e : Fin 262144) :
    row x0 x2 e = Cert.Spec.catRow (fun k => val_main_v28 (F := Ideal) x0 x2 (ix2 e k))
      (fun k => val_main_v35 (F := Ideal) x0 x2 (ix2 e k)) := by
  funext k
  unfold row Cert.Spec.catRow val_main_v36
  generalize val_main_v28 (F := Ideal) x0 x2 = xs
  generalize val_main_v35 (F := Ideal) x0 x2 = xo
  by_cases h : k.val < 256
  · rw [dif_pos h]
    exact concatenate_pair_apply_left 1 xs xo concatenates_S262144x256_S262144x256_S262144x512_d1 (ix2 e k) rfl
      (ix2 e ⟨k.val, h⟩) (fun b => match b with
        | ⟨0, _⟩ => rfl
        | ⟨1, _⟩ => rfl)
  · rw [dif_neg h]
    exact concatenate_pair_apply_right 1 xs xo concatenates_S262144x256_S262144x256_S262144x512_d1 (ix2 e k) rfl rfl
      (ix2 e ⟨k.val - 256, by have := k.isLt; omega⟩) (fun b hb => match b, hb with
        | ⟨0, _⟩, _ => rfl
        | ⟨1, _⟩, hb => absurd rfl hb)
      (by show (k.val - 256) + 256 = k.val; omega)

/-! ## The normalisation of a row -/

/-- The reference's first row sum starts from the zero literal, which adds nothing. -/
theorem sum_row (e : Fin 262144) :
    val_main_v37 (F := Ideal) x0 x2 (ix1 e) = ∑ k, row x0 x2 e k := by
  rw [val_main_v37_apply, val_main_cst_8_apply]
  show Ideal.ofBits .f32 0x00000000#32 + _ = _
  rw [Ideal.ofBits_zero_f32, zero_add]
  refine Finset.sum_congr rfl fun k _ => ?_
  exact congrArg (val_main_v36 (F := Ideal) x0 x2) (ix2_of_vals _ _ _ rfl rfl)

/-- The mean column holds each row's mean. -/
theorem mean_at (e : Fin 262144) :
    val_main_v40 (F := Ideal) x0 x2 (ix2 e 0) = Cert.Spec.rowMean (row x0 x2 e) := by
  rw [val_main_v40_apply, val_main_v38_apply, val_main_v39_apply, val_main_cst_9_apply,
    show idx_main_v38 (ix2 e 0) = ix1 e from ix1_of_val _ _ rfl, sum_row]
  rfl

/-- The deviation from the mean, as the variance reads it. -/
theorem dev_at (e : Fin 262144) (k : Fin 512) :
    val_main_v42 (F := Ideal) x0 x2 (ix2 e k) = row x0 x2 e k - Cert.Spec.rowMean (row x0 x2 e) := by
  rw [val_main_v42_apply, val_main_v41_apply,
    show idx_main_v41 (ix2 e k) = ix2 e 0 from ix2_of_vals _ _ _ rfl rfl, mean_at]
  rfl

/-- The same deviation, computed a second time for the scaling. -/
theorem dev_at' (e : Fin 262144) (k : Fin 512) :
    val_main_v49 (F := Ideal) x0 x2 (ix2 e k) = row x0 x2 e k - Cert.Spec.rowMean (row x0 x2 e) := by
  rw [val_main_v49_apply, val_main_v48_apply,
    show idx_main_v48 (ix2 e k) = ix2 e 0 from ix2_of_vals _ _ _ rfl rfl, mean_at]
  rfl

/-- The variance column holds each row's variance: the sum of squared deviations, again started
    from the zero literal, over 512. -/
theorem var_at (e : Fin 262144) :
    val_main_v47 (F := Ideal) x0 x2 (ix2 e 0) = Cert.Spec.rowVar (row x0 x2 e) := by
  rw [val_main_v47_apply, val_main_v45_apply, val_main_v46_apply, val_main_cst_11_apply,
    show idx_main_v45 (ix2 e 0) = ix1 e from ix1_of_val _ _ rfl, val_main_v44_apply, val_main_cst_10_apply]
  show Ideal.div (Ideal.ofBits .f32 0x00000000#32 + _) _ = _
  rw [Ideal.ofBits_zero_f32, zero_add]
  unfold Cert.Spec.rowVar
  refine congrArg (fun s => Ideal.div s _) (Finset.sum_congr rfl fun k _ => ?_)
  rw [val_main_v43_apply, show idx_main_v44 (ix1 e) k = ix2 e k from ix2_of_vals _ _ _ rfl rfl, dev_at]
  rfl

/-! ## The rectified features and the gate -/

/-- Feature `k` of edge `e` after normalising, scaling by `γ k`, shifting by `β k` and rectifying.
    The reciprocal root is read from the variance column, the scale and the shift from their
    vectors repeated along the edges, the rectifier's zero from its literal. -/
theorem hid_at (e : Fin 262144) (k : Fin 512) :
    val_main_v61 (F := Ideal) x0 x2 x3 x4 (ix2 e k)
      = Cert.Spec.hidden (row x0 x2 e) (fun k => x3 (ix1 k)) (fun k => x4 (ix1 k)) k := by
  rw [val_main_v61_apply, val_main_v60_apply, val_main_v57_apply, val_main_v54_apply, val_main_v53_apply,
    val_main_v52_apply, val_main_v51_apply, val_main_v50_apply, val_main_cst_12_apply, val_main_v56_apply,
    val_main_v55_apply, val_main_v59_apply, val_main_v58_apply, val_main_call1_v0_apply, val_main_call1_cst_apply,
    show idx_main_v53 (ix2 e k) = ix2 e 0 from ix2_of_vals _ _ _ rfl rfl, var_at, dev_at',
    show idx_main_v55 (idx_main_v56 (ix2 e k)) = ix1 k from ix1_of_val _ _ rfl,
    show idx_main_v58 (idx_main_v59 (ix2 e k)) = ix1 k from ix1_of_val _ _ rfl]
  rfl

/-- Edge `e`'s gate: the contraction of the rectified row with the weights is a sum over the 512
    features; the bias is the one entry of its vector; the product with the edge's normalisation
    comes last. -/
theorem gate_at (e : Fin 262144) :
    val_main_v68 (F := Ideal) x0 x1 x2 x3 x4 x5 x6 (ix1 e)
      = Cert.Spec.gate (row x0 x2 e) (fun k => x3 (ix1 k)) (fun k => x4 (ix1 k)) (fun k => x5 (ix2 k 0)) (x6 (ix1 0))
          (val_main_v21 (F := Ideal) x1 x2 (ix1 e)) := by
  rw [val_main_v68_apply, val_main_v67_apply,
    show idx_main_v67 (ix1 e) = ix2 e 0 from ix2_of_vals _ _ _ (Nat.div_one _) rfl,
    val_main_v66_apply, val_main_v65_apply, val_main_v62_apply, val_main_v64_apply, val_main_v63_apply,
    show idx_main_v63 (idx_main_v64 (ix2 e 0)) = ix1 0 from ix1_of_val _ _ rfl]
  unfold Cert.Spec.gate
  show Ideal.tanh (_ + _) * _ = _
  refine congrArg (fun s => Ideal.tanh (s + _) * _) (Finset.sum_congr rfl fun k _ => ?_)
  rw [show lidx_main_v62 (ix2 e 0) k = ix2 e k from ix2_of_vals _ _ _ rfl rfl,
    show ridx_main_v62 (ix2 e 0) k = ix2 k 0 from ix2_of_vals _ _ _ rfl rfl, hid_at]

/-! ## The two results -/

/-- The reference's gates are the specification's, on the gathered rows and the gathered normalisation. -/
theorem ref_g :
    val_main_v68 (F := Ideal) x0 x1 x2 x3 x4 x5 x6
      = Cert.Spec.gates (val_main_v28 (F := Ideal) x0 x2) (val_main_v35 (F := Ideal) x0 x2) (val_main_v21 (F := Ideal) x1 x2)
          (fun k => x3 (ix1 k)) (fun k => x4 (ix1 k)) (fun k => x5 (ix2 k 0)) (x6 (ix1 0)) := by
  funext e
  obtain ⟨e0, rfl⟩ : ∃ e0 : Fin 262144, e = ix1 e0 := ⟨e 0, eq_ix1 e⟩
  rw [gate_at, row_cat]
  rfl

/-- The reference's aggregated features are the adjacency times the node features: entry `(n, h)`
    is the sum over the columns `j` of `A n j · X j h`. -/
theorem ref_o :
    val_main_v84 (F := Ideal) x0 x1 x2 x3 x4 x5 x6
      = Cert.Spec.aggregate (val_main_v83 (F := Ideal) x0 x1 x2 x3 x4 x5 x6) x0 := by
  funext i
  rw [val_main_v84_apply]
  generalize val_main_v83 (F := Ideal) x0 x1 x2 x3 x4 x5 x6 = A
  unfold Cert.Spec.aggregate
  refine Finset.sum_congr rfl fun j _ => ?_
  rw [show lidx_main_v84 i j = ix2 (i 0) j from ix2_of_vals _ _ _ rfl rfl,
    show ridx_main_v84 i j = ix2 j (i 1) from ix2_of_vals _ _ _ rfl rfl]
  rfl

end

end Cert.ReferenceIdeal.RefValue

end
-- ==== Proof.KI.HostStages.lean ====
import proofs.«429181_j20521353740426_3_alg».proof.Proof.Gen.KernelIdeal.Regions
import proofs.«429181_j20521353740426_3_alg».proof.Proof.RefValue
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

/-! # What the host operations leave in the buffers the two kernels read

Between the program's arguments and its two kernels stand only host operations: slices, reshapes, broadcasts,
comparisons, selections, gathers, one transpose, one concatenation and one scatter. The reference program applies the
same host operations to the same arguments before it goes its own way, so each buffer a kernel reads holds one of the
reference's own intermediate stages. Nothing here looks inside a gather or the scatter: an array is named by the
stage that produced it, and the two programs' stages agree because they are the same operations on the same operands.

* The first kernel reads the subject rows and the object rows (the node features gathered by each edge's two
  endpoints), the edge normalisation (the product of the two endpoints' norms, zeroed where it exceeds 10⁴), and the
  four parameter arrays laid out as rows: scale, shift and bias reshaped, the weight column transposed.
* The second kernel reads the adjacency matrix — the first kernel's gates scattered into a zero matrix at the
  endpoint pairs — and the node features. Both pass through a change of float format first, which on extended reals
  changes nothing; and a zero word of either format denotes the extended real zero. -/

noncomputable section

namespace Cert.KernelIdeal.HostStages

open Cert.KernelIdeal Cert.KernelIdeal.Gen
open Idealize.ShloMosaic Idealize.ShloMosaic.TcCoe Idealize.SL.Sem Idealize.ShloMosaic.StableHlo
open Idealize.ShloMosaic.ValueIdx

/-! ## Any float model

The endpoint arithmetic is on integers and the layout operations move elements without touching them, so these
identities hold whatever the floats are. -/

section AnyFloats

variable {F : FTy → Type} [FloatOps F]
variable (m : (ℓ : Loc nD τ sig) → Buf (Elt F) ℓ) (outs : Gen.Outs (F := F)) (c : Dev nD)

/-- The subject rows: node features gathered by each edge's second endpoint, wrapped into range. -/
theorem sub_rows_any :
    Gen.V3 m c main_v28 = Cert.ReferenceIdeal.Read.val_main_v28 (F := F)
      (m ((c.tc : Thread nD τ).loc main_arg0)) (m ((c.tc : Thread nD τ).loc main_arg2)) := by
  dsimp only [Gen.V3, Gen.V2, Gen.V1, Gen.V0, Gen.hostOps0_2, Gen.hostOps0_1, Gen.hostOps0]
  after_results_simp
  rfl

/-- The object rows: node features gathered by each edge's first endpoint, wrapped into range. -/
theorem obj_rows_any :
    Gen.V3 m c main_v35 = Cert.ReferenceIdeal.Read.val_main_v35 (F := F)
      (m ((c.tc : Thread nD τ).loc main_arg0)) (m ((c.tc : Thread nD τ).loc main_arg2)) := by
  dsimp only [Gen.V3, Gen.V2, Gen.V1, Gen.V0, Gen.hostOps0_2, Gen.hostOps0_1, Gen.hostOps0]
  after_results_simp
  rfl

/-- The edge normalisation: the product of the norms gathered at the two endpoints, replaced by zero where it is
    above the threshold. -/
theorem edge_norm_any :
    Gen.V3 m c main_v21 = Cert.ReferenceIdeal.Read.val_main_v21 (F := F)
      (m ((c.tc : Thread nD τ).loc main_arg1)) (m ((c.tc : Thread nD τ).loc main_arg2)) := by
  dsimp only [Gen.V3, Gen.V2, Gen.V1, Gen.V0, Gen.hostOps0_2, Gen.hostOps0_1, Gen.hostOps0]
  after_results_simp
  rfl

/-- The scale, as one row of 512: a reshape of the argument. -/
theorem gamma_any :
    Gen.V3 m c main_v36 = shapeCast S1x512 (m ((c.tc : Thread nD τ).loc main_arg3)) shapeCasts_S512_S1x512 := by
  dsimp only [Gen.V3, Gen.V2, Gen.V1, Gen.V0, Gen.hostOps0_2, Gen.hostOps0_1, Gen.hostOps0]
  after_results_simp
  rfl

/-- The shift, as one row of 512: a reshape of the argument. -/
theorem beta_any :
    Gen.V3 m c main_v37 = shapeCast S1x512 (m ((c.tc : Thread nD τ).loc main_arg4)) shapeCasts_S512_S1x512 := by
  dsimp only [Gen.V3, Gen.V2, Gen.V1, Gen.V0, Gen.hostOps0_2, Gen.hostOps0_1, Gen.hostOps0]
  after_results_simp
  rfl

/-- The gate's weights, as one row of 512: the weight column transposed. -/
theorem weight_any :
    Gen.V3 m c main_v38
      = transpose S1x512 [1, 0] (m ((c.tc : Thread nD τ).loc main_arg5)) transposes_S512x1_S1x512_1_0 := by
  dsimp only [Gen.V3, Gen.V2, Gen.V1, Gen.V0, Gen.hostOps0_2, Gen.hostOps0_1, Gen.hostOps0]
  after_results_simp

/-- The gate's bias, as a 1 × 1 array: a reshape of the argument. -/
theorem bias_any :
    Gen.V3 m c main_v39 = shapeCast S1x1 (m ((c.tc : Thread nD τ).loc main_arg6)) shapeCasts_S1_S1x1 := by
  dsimp only [Gen.V3, Gen.V2, Gen.V1, Gen.V0, Gen.hostOps0_2, Gen.hostOps0_1, Gen.hostOps0]
  after_results_simp
  rfl

/-- The node features as the second kernel reads them: the argument, in the narrower float format. Only the first
    kernel's output buffer changed while the first kernel ran, and that is another buffer. -/
theorem features16_any :
    Gen.V5 m outs c main_v41 = truncf .bf16 (m ((c.tc : Thread nD τ).loc main_arg0)) bitsLt_bf16_f32 := by
  dsimp only [Gen.V5, Gen.V4, Gen.V3, Gen.V2, Gen.V1, Gen.V0, Gen.hostOps1, Gen.hostOps0_2, Gen.hostOps0_1, Gen.hostOps0]
  after_results_simp
  simp (disch := decide) only [Function.update_of_ne]
  after_results_simp

/-- Each edge's first endpoint, a column of the edge list flattened, still where the first host stretch put it
    when the first kernel has run. -/
theorem first_ends_any :
    Gen.V4 m outs c main_v1
      = Cert.ReferenceIdeal.Read.val_main_v1 (F := F) (m ((c.tc : Thread nD τ).loc main_arg2)) := by
  dsimp only [Gen.V4, Gen.V3, Gen.V2, Gen.V1, Gen.V0, Gen.hostOps0_2, Gen.hostOps0_1, Gen.hostOps0]
  rw [Function.update_of_ne (by decide)]
  after_results_simp
  rfl

/-- Each edge's second endpoint, likewise. -/
theorem second_ends_any :
    Gen.V4 m outs c main_v3
      = Cert.ReferenceIdeal.Read.val_main_v3 (F := F) (m ((c.tc : Thread nD τ).loc main_arg2)) := by
  dsimp only [Gen.V4, Gen.V3, Gen.V2, Gen.V1, Gen.V0, Gen.hostOps0_2, Gen.hostOps0_1, Gen.hostOps0]
  rw [Function.update_of_ne (by decide)]
  after_results_simp
  rfl

set_option maxHeartbeats 4000000 in
/-- The second host stretch, run from any buffer contents in which the two endpoint columns are the reference's:
    the scattered matrix is a zero matrix of the narrower format overwritten, at the reference's index pairs, with
    the narrowed contents of the first kernel's output buffer. The pairs are built from the two columns by the
    operations the reference uses, in the same order: wrap each into range, make each a column, put the second
    endpoint's column before the first's. -/
theorem scatter_after (W : Valuation τ sig (Elt F)) (p : (⟨S262144x2, .i32⟩ : BufTy).Contents (Elt F))
    (h1 : W main_v1 = Cert.ReferenceIdeal.Read.val_main_v1 (F := F) p)
    (h3 : W main_v3 = Cert.ReferenceIdeal.Read.val_main_v3 (F := F) p) :
    after hostOps1 W main_v57
      = Host.scatter scatter_S8192x8192_S262144x2_S262144_n_01_01_1 (fun _ b => b)
          (broadcastInDim S8192x8192 ![] bcast_S_S8192x8192 (constant S_ .bf16 0x0000#16))
          (Cert.ReferenceIdeal.Read.val_main_v82 (F := F) p)
          (truncf .bf16 (W main_v40) bitsLt_bf16_f32) := by
  dsimp only [Gen.hostOps1]
  after_results
  rw [h1, h3]
  rfl

/-- The adjacency matrix as the second kernel reads it: a zero matrix of the narrower format, overwritten at the
    pairs (second endpoint, first endpoint), each wrapped into range (the reference's own array of index pairs)
    with what the first kernel left, narrowed. The pairs are built from the two endpoint columns by the operations
    the reference uses, in the same order. -/
theorem adjacency_any :
    Gen.V5 m outs c main_v57
      = Host.scatter scatter_S8192x8192_S262144x2_S262144_n_01_01_1 (fun _ b => b)
          (broadcastInDim S8192x8192 ![] bcast_S_S8192x8192 (constant S_ .bf16 0x0000#16))
          (Cert.ReferenceIdeal.Read.val_main_v82 (F := F) (m ((c.tc : Thread nD τ).loc main_arg2)))
          (truncf .bf16 (Gen.V4 m outs c main_v40) bitsLt_bf16_f32) :=
  scatter_after (Gen.V4 m outs c) _ (first_ends_any m outs c) (second_ends_any m outs c)

end AnyFloats

/-! ## Extended reals

At the ideal floats every array of either format is an array of extended reals; a change of format is the identity
and both zero words are zero. -/

section ExtendedReals

variable (m : (ℓ : Loc nD τ sig) → Buf (Elt Ideal) ℓ) (outs : Gen.Outs (F := Ideal)) (c : Dev nD)

/-- What the first kernel reads as subject rows is the reference's gathered subject rows. -/
theorem sub_rows :
    (Gen.V3 m c main_v28 : S262144x256.Idx → EReal) = Cert.ReferenceIdeal.Read.val_main_v28 (F := Ideal)
      (m ((c.tc : Thread nD τ).loc main_arg0)) (m ((c.tc : Thread nD τ).loc main_arg2)) :=
  sub_rows_any m c

/-- What it reads as object rows is the reference's gathered object rows. -/
theorem obj_rows :
    (Gen.V3 m c main_v35 : S262144x256.Idx → EReal) = Cert.ReferenceIdeal.Read.val_main_v35 (F := Ideal)
      (m ((c.tc : Thread nD τ).loc main_arg0)) (m ((c.tc : Thread nD τ).loc main_arg2)) :=
  obj_rows_any m c

/-- What it reads as edge normalisation is the reference's thresholded product of endpoint norms. -/
theorem edge_norm :
    (Gen.V3 m c main_v21 : S262144.Idx → EReal) = Cert.ReferenceIdeal.Read.val_main_v21 (F := Ideal)
      (m ((c.tc : Thread nD τ).loc main_arg1)) (m ((c.tc : Thread nD τ).loc main_arg2)) :=
  edge_norm_any m c

/-- Entry k of the scale row is entry k of the scale argument: a vector and the same vector as a one-row matrix
    have the same row-major order. -/
theorem gamma_row (k : Fin 512) :
    Gen.V3 m c main_v36 (ix2 0 k) = m ((c.tc : Thread nD τ).loc main_arg3) (ix1 k) :=
  (congrFun (gamma_any m c) (ix2 0 k)).trans (shapeCast_a_1a_apply _ _ 0 k)

/-- Entry k of the shift row is entry k of the shift argument. -/
theorem beta_row (k : Fin 512) :
    Gen.V3 m c main_v37 (ix2 0 k) = m ((c.tc : Thread nD τ).loc main_arg4) (ix1 k) :=
  (congrFun (beta_any m c) (ix2 0 k)).trans (shapeCast_a_1a_apply _ _ 0 k)

/-- Entry k of the weight row is entry k of the weight column: a transpose swaps the two coordinates. -/
theorem weight_row (k : Fin 512) :
    Gen.V3 m c main_v38 (ix2 0 k) = m ((c.tc : Thread nD τ).loc main_arg5) (ix2 k 0) :=
  (congrFun (weight_any m c) (ix2 0 k)).trans (transpose_ix2_apply _ _ 0 k)

/-- The single cell of the bias array is the single entry of the bias argument. -/
theorem bias_cell :
    Gen.V3 m c main_v39 (ix2 0 0) = m ((c.tc : Thread nD τ).loc main_arg6) (ix1 0) :=
  (congrFun (bias_any m c) (ix2 0 0)).trans (shapeCast_a_1a_apply _ _ 0 0)

/-- The zero matrix of the narrower format and the reference's zero matrix are the same matrix of extended reals:
    every entry of either is the zero word of its format, and both words denote zero. -/
theorem zero_matrices :
    (broadcastInDim S8192x8192 ![] bcast_S_S8192x8192 (constant (F := Ideal) S_ .bf16 0x0000#16) : S8192x8192.Idx → EReal)
      = Cert.ReferenceIdeal.Read.val_main_v69 (F := Ideal) := by
  funext j
  rw [Cert.ReferenceIdeal.Read.val_main_v69_apply, Cert.ReferenceIdeal.Read.val_main_cst_13_apply,
    broadcastInDim_apply _ _ _ j ix0 (fun a => a.elim0)]
  show Ideal.ofBits .bf16 0x0000#16 = Ideal.ofBits .f32 0x00000000#32
  rw [Ideal.ofBits_zero_bf16, Ideal.ofBits_zero_f32]

/-- A scatter is determined by its dimension numbers, the array written into, the index pairs and the updates. -/
theorem scatter_congr {s si u : Shape} {α : Type} {w : ℕ} {d d' : ScatterDims s si u} (f : α → α → α)
    {x x' : s.Idx → α} (p : IVec si w) {y y' : u.Idx → α} (hd : d = d') (hx : x = x') (hy : y = y') :
    Host.scatter d f x p y = Host.scatter d' f x' p y' := by
  subst hd hx hy; rfl

/-- What the second kernel reads as adjacency is the reference's scatter applied to what the first kernel left:
    the same dimension numbers, the same zero matrix, the same index pairs, and updates that narrowing does not
    change. -/
theorem adjacency :
    (Gen.V5 m outs c main_v57 : S8192x8192.Idx → EReal)
      = Cert.ReferenceIdeal.RefValue.adj (m ((c.tc : Thread nD τ).loc main_arg2)) (Gen.V4 m outs c main_v40) :=
  (adjacency_any m outs c).trans (scatter_congr _ _ rfl zero_matrices rfl)

/-- What the second kernel reads as node features is the features argument: narrowing does not change it. -/
theorem features16 :
    (Gen.V5 m outs c main_v41 : S8192x256.Idx → EReal) = m ((c.tc : Thread nD τ).loc main_arg0) :=
  features16_any m outs c

end ExtendedReals

end Cert.KernelIdeal.HostStages

end
-- ==== Proof.Bridge.lean ====
import proofs.«429181_j20521353740426_3_alg».proof.Defs
import proofs.«429181_j20521353740426_3_alg».proof.Proof.KI.Run
import proofs.«429181_j20521353740426_3_alg».proof.Proof.KI.EdgeValue
import proofs.«429181_j20521353740426_3_alg».proof.Proof.KI.MmValue
import proofs.«429181_j20521353740426_3_alg».proof.Proof.KI.HostStages
import proofs.«429181_j20521353740426_3_alg».proof.Proof.RefValue
import proofs.«429181_j20521353740426_3_alg».proof.Proof.Gen.Pre_finite_inputs

/-! # The two programs return the same arrays

Run at the extended reals from memories that agree on the seven arguments, the kernel's program and the reference
end with the same two arrays.

* The edge gates. The kernel's first region leaves, for every edge, the specification's gate of the rows its host
  operations gathered; those host operations are the reference's own, applied to the same arguments, and the
  reference's layer norm, rectifier, weighted sum, tanh and normalisation are that gate too.
* The aggregated features. The kernel's second region leaves the product of the adjacency matrix it was handed with
  the node features, the sum over the 8192 columns taken in four blocks; the adjacency is the reference's scatter of
  the gates just shown equal, and the reference multiplies the same two matrices in one sum. -/

noncomputable section

namespace Cert.Proof.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The gates as the specification states them, on the arguments core `c` was launched with: the reference's gathers
    of the subject rows, the object rows and the edge normalisation, left unopened. -/
def gatesOf (c : Dev nD) : (⟨1, ![262144]⟩ : Shape).Idx → EReal :=
  Cert.Spec.gates
    (Cert.ReferenceIdeal.Read.val_main_v28 (F := Ideal) (m ((c.tc : Thread nD τ).loc main_arg0)) (m ((c.tc : Thread nD τ).loc main_arg2)))
    (Cert.ReferenceIdeal.Read.val_main_v35 (F := Ideal) (m ((c.tc : Thread nD τ).loc main_arg0)) (m ((c.tc : Thread nD τ).loc main_arg2)))
    (Cert.ReferenceIdeal.Read.val_main_v21 (F := Ideal) (m ((c.tc : Thread nD τ).loc main_arg1)) (m ((c.tc : Thread nD τ).loc main_arg2)))
    (fun k => m ((c.tc : Thread nD τ).loc main_arg3) (ix1 k)) (fun k => m ((c.tc : Thread nD τ).loc main_arg4) (ix1 k))
    (fun k => m ((c.tc : Thread nD τ).loc main_arg5) (ix2 k 0)) (m ((c.tc : Thread nD τ).loc main_arg6) (ix1 0))

/-- What the first region leaves in its output array: the gates. -/
theorem region0_gates (c : Dev nD) :
    (Edge.dat0 (F := Ideal) (Whole.entry0 m) c).arrAt 7 cfg0.N = gatesOf m c := by
  have hs : Whole.entry0 m c main_v28 = _ := HostStages.sub_rows m c
  have ho : Whole.entry0 m c main_v35 = _ := HostStages.obj_rows m c
  have hn : Whole.entry0 m c main_v21 = _ := HostStages.edge_norm m c
  have hγ : (fun k : Fin 512 => Whole.entry0 m c main_v36 (ix2 0 k)) = _ := funext fun k => HostStages.gamma_row m c k
  have hβ : (fun k : Fin 512 => Whole.entry0 m c main_v37 (ix2 0 k)) = _ := funext fun k => HostStages.beta_row m c k
  have hw : (fun k : Fin 512 => Whole.entry0 m c main_v38 (ix2 0 k)) = _ := funext fun k => HostStages.weight_row m c k
  have hb : Whole.entry0 m c main_v39 (ix2 0 0) = _ := HostStages.bias_cell m c
  rw [EdgeValue.final_g, hs, ho, hn, hγ, hβ, hw, hb]
  rfl

/-- The kernel's program ends with the gates in its second result. -/
theorem kernel_gates (c : Dev nD) : Gen.V6 m (Whole.outs m) c main_v40 = gatesOf m c := by
  rw [Whole.left_g, region0_gates]

/-- The kernel's program ends with the aggregated features in its first result: the adjacency of the gates times the
    node features. -/
theorem kernel_aggregate (c : Dev nD) :
    Gen.V6 m (Whole.outs m) c main_v58
      = Cert.Spec.aggregate (Cert.ReferenceIdeal.RefValue.adj (m ((c.tc : Thread nD τ).loc main_arg2)) (gatesOf m c))
          (m ((c.tc : Thread nD τ).loc main_arg0)) := by
  have ha : Whole.entry1 m c main_v57 = _ := HostStages.adjacency m (Whole.outs m) c
  have hf : Whole.entry1 m c main_v41 = _ := HostStages.features16 m (Whole.outs m) c
  rw [Whole.left_o, MmValue.final_o, ha, hf, Whole.entry1_g, region0_gates]

/-- Both programs, run from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Gen.V6 m (Whole.outs m) c main_v58, fun c => Gen.V6 m (Whole.outs m) c main_v40, Whole.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v84_eq, Cert.ReferenceIdeal.RefValue.ref_o, Cert.ReferenceIdeal.RefValue.ref_adj,
      Cert.ReferenceIdeal.RefValue.ref_g, (hagree c).1, (hagree c).2.1, (hagree c).2.2.1, (hagree c).2.2.2.1,
      (hagree c).2.2.2.2.1, (hagree c).2.2.2.2.2.1, (hagree c).2.2.2.2.2.2]
    exact (kernel_aggregate m c).symm
  · rw [Cert.ReferenceIdeal.Read.val_main_v68_eq, Cert.ReferenceIdeal.RefValue.ref_g, (hagree c).1, (hagree c).2.1,
      (hagree c).2.2.1, (hagree c).2.2.2.1, (hagree c).2.2.2.2.1, (hagree c).2.2.2.2.2.1, (hagree c).2.2.2.2.2.2]
    exact (kernel_gates m c).symm

end Cert.Proof.Bridge

end
-- ==== Proof.lean ====
/- The proof of `Cert.Claim`: the kernel's program, its reading over the extended reals and the reference each run to the
   end without a fault and leave the seven arguments as they found them; the extended-real reading is the printed
   program's own text (no operation was rewritten); and the two extended-real programs return the same two arrays.

   The kernel's program is two pipelined regions among host operations. The first computes, block of 1024 edges by
   block, each edge's gate from the concatenated endpoint features (layer norm, rectifier, weighted sum, tanh, the
   edge's normalisation). The second multiplies the 8192 x 8192 adjacency matrix, into which the host scattered the
   gates, with the node features, tile of 2048 rows by tile, the 8192 columns in four steps added into a scratch
   accumulator that the last step copies out. The reference does the same arithmetic on the host in whole-array
   operations. Over the extended reals a change of float format is the identity, a lane sum and a host sum are the same
   finite sum, and a sum taken in four blocks is the whole sum, since addition there is commutative and associative. -/
import proofs.«429181_j20521353740426_3_alg».proof.Defs
import proofs.«429181_j20521353740426_3_alg».proof.Proof.Gen.Kernel
import proofs.«429181_j20521353740426_3_alg».proof.Proof.Gen.KernelIdeal
import proofs.«429181_j20521353740426_3_alg».proof.Proof.Gen.ReferenceIdeal
import proofs.«429181_j20521353740426_3_alg».proof.Proof.Gen.Pre_finite_inputs
import proofs.«429181_j20521353740426_3_alg».proof.Proof.Gen.ReferenceIdeal.Run
import proofs.«429181_j20521353740426_3_alg».proof.Proof.K.Run
import proofs.«429181_j20521353740426_3_alg».proof.Proof.KI.Run
import proofs.«429181_j20521353740426_3_alg».proof.Proof.Bridge
import Idealize.ShloMosaic.Adequacy
import Idealize.ShloMosaic.Init

noncomputable section

namespace Cert.Proof

open Idealize.ShloMosaic Idealize.SL.Sem

/-- The word-level program runs and keeps its arguments. -/
theorem frame_bits : Cert.frame_Kernel (hKernel := Cert.Kernel.Gen.facts) (hPre_finite_inputs := Cert.Pre_finite_inputs.Gen.facts) :=
  fun m ρ _ => Cert.Kernel.Whole.frame m ρ

/-- So does its reading over the extended reals. -/
theorem frame_ideal : Cert.frame_KernelIdeal (hKernelIdeal := Cert.KernelIdeal.Gen.facts) (hPre_finite_inputs := Cert.Pre_finite_inputs.Gen.facts) :=
  fun m ρ _ => Cert.KernelIdeal.Whole.frame m ρ

/-- The reference is host operations only: its run names every result, and the arguments are among what it keeps. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_bits, frame_ideal, frame_reference, trivial, Cert.Proof.Bridge.algebraic⟩

end Cert.Proof

end
